-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x19x512x1024 : Shape := ⟨4, ![8, 19, 512, 1024]⟩
abbrev S8x512x1024 : Shape := ⟨3, ![8, 512, 1024]⟩
abbrev S19 : Shape := ⟨1, ![19]⟩
abbrev S_ : Shape := ⟨0, ![]⟩

class Facts : Prop where
  bcast_S_S8x19x512x1024 : S_.BroadcastsInDim S8x19x512x1024 (![] : Fin 0 → Fin S8x19x512x1024.rank)
  reducesTo_S8x19x512x1024_S_d0_1_2_3 : S8x19x512x1024.ReducesTo [0, 1, 2, 3] S_
  h_S_ : 0 < S_.numel
  bcast_S_S19 : S_.BroadcastsInDim S19 (![] : Fin 0 → Fin S19.rank)
  reducesTo_S19_S_d0 : S19.ReducesTo [0] S_
  bcast_S_S8x512x1024 : S_.BroadcastsInDim S8x512x1024 (![] : Fin 0 → Fin S8x512x1024.rank)
  reducesTo_S8x512x1024_S_d0_1_2 : S8x512x1024.ReducesTo [0, 1, 2] S_

variable [Facts]

def fn_part1 {F : FTy → Type} [FloatOps F] (main_v8 : IVec S_ 1) (main_v16 : IVec S8x512x1024 1) : IVec S_ 1 :=
  let main_c_5 : IVec S_ 1 := constantI S_ 1 1#1
  let main_v17 : IVec S_ 1 := (fun x v => Host.reduce IntOp.andi x v reducesTo_S8x512x1024_S_d0_1_2 h_S_) main_v16 main_c_5
  let main_v18 : IVec S_ 1 := andi main_v8 main_v17
  main_v18

def fn {F : FTy → Type} [FloatOps F] (main_arg0 : FVec F S8x19x512x1024 .f32) (main_arg1 : IVec S8x512x1024 32) (main_arg2 : FVec F S19 .f32) : IVec S_ 1 :=
  let main_v0 : FVec F S8x19x512x1024 .f32 := Host.absf main_arg0
  let main_cst : FVec F S_ .f32 := constant S_ .f32 0x7F800000#32
  let main_v1 : FVec F S8x19x512x1024 .f32 := broadcastInDim S8x19x512x1024 ![] bcast_S_S8x19x512x1024 main_cst
  let main_v2 : IVec S8x19x512x1024 1 := cmpf .olt main_v0 main_v1
  let main_c : IVec S_ 1 := constantI S_ 1 1#1
  let main_v3 : IVec S_ 1 := (fun x v => Host.reduce IntOp.andi x v reducesTo_S8x19x512x1024_S_d0_1_2_3 h_S_) main_v2 main_c
  let main_v4 : FVec F S19 .f32 := Host.absf main_arg2
  let main_cst_0 : FVec F S_ .f32 := constant S_ .f32 0x7F800000#32
  let main_v5 : FVec F S19 .f32 := broadcastInDim S19 ![] bcast_S_S19 main_cst_0
  let main_v6 : IVec S19 1 := cmpf .olt main_v4 main_v5
  let main_c_1 : IVec S_ 1 := constantI S_ 1 1#1
  let main_v7 : IVec S_ 1 := (fun x v => Host.reduce IntOp.andi x v reducesTo_S19_S_d0 h_S_) main_v6 main_c_1
  let main_v8 : IVec S_ 1 := andi main_v3 main_v7
  let main_c_2 : IVec S_ 32 := constantI S_ 32 0#32
  let main_v9 : IVec S8x512x1024 32 := broadcastInDim S8x512x1024 ![] bcast_S_S8x512x1024 main_c_2
  let main_v10 : IVec S8x512x1024 1 := cmpi .sge main_arg1 main_v9
  let main_c_3 : IVec S_ 32 := constantI S_ 32 19#32
  let main_v11 : IVec S8x512x1024 32 := broadcastInDim S8x512x1024 ![] bcast_S_S8x512x1024 main_c_3
  let main_v12 : IVec S8x512x1024 1 := cmpi .slt main_arg1 main_v11
  let main_v13 : IVec S8x512x1024 1 := andi main_v10 main_v12
  let main_c_4 : IVec S_ 32 := constantI S_ 32 255#32
  let main_v14 : IVec S8x512x1024 32 := broadcastInDim S8x512x1024 ![] bcast_S_S8x512x1024 main_c_4
  let main_v15 : IVec S8x512x1024 1 := cmpi .eq main_arg1 main_v14
  let main_v16 : IVec S8x512x1024 1 := ori main_v13 main_v15
  fn_part1 (F := F) main_v8 main_v16
-- ==== Kernel.lean ====
abbrev S8x19x512x1024 : Shape := ⟨4, ![8, 19, 512, 1024]⟩
abbrev S8x512x1024 : Shape := ⟨3, ![8, 512, 1024]⟩
abbrev S19 : Shape := ⟨1, ![19]⟩
abbrev S8x8x128 : Shape := ⟨3, ![8, 8, 128]⟩
abbrev S1x19x128x1024 : Shape := ⟨4, ![1, 19, 128, 1024]⟩
abbrev S1x128x1024 : Shape := ⟨3, ![1, 128, 1024]⟩
abbrev S1x8x128 : Shape := ⟨3, ![1, 8, 128]⟩
abbrev S8x128 : Shape := ⟨2, ![8, 128]⟩
abbrev S128x1024 : Shape := ⟨2, ![128, 1024]⟩
abbrev S1x1x128x1024 : Shape := ⟨4, ![1, 1, 128, 1024]⟩
abbrev S1 : Shape := ⟨1, ![1]⟩
abbrev S128 : Shape := ⟨1, ![128]⟩
abbrev S128x1 : Shape := ⟨2, ![128, 1]⟩
abbrev S1x1 : Shape := ⟨2, ![1, 1]⟩
abbrev S1x6 : Shape := ⟨2, ![1, 6]⟩
abbrev S1x122 : Shape := ⟨2, ![1, 122]⟩
abbrev S1x128 : Shape := ⟨2, ![1, 128]⟩
abbrev S7x128 : Shape := ⟨2, ![7, 128]⟩
abbrev S8x1x6 : Shape := ⟨3, ![8, 1, 6]⟩
abbrev S8x6 : Shape := ⟨2, ![8, 6]⟩
abbrev S_ : Shape := ⟨0, ![]⟩
abbrev S6 : Shape := ⟨1, ![6]⟩

abbrev nBuf : Space → Nat
  | .hbm => 31
  | .vmem => 7
  | .smem => 0
  | _ => 0

abbrev bufTy : (tb : Table) → Fin (tcTables nBuf tb) → BufTy
  | .hbm, ⟨0, _⟩ => ⟨S8x19x512x1024, .f32⟩
  | .hbm, ⟨1, _⟩ => ⟨S8x512x1024, .i32⟩
  | .hbm, ⟨2, _⟩ => ⟨S19, .f32⟩
  | .hbm, ⟨3, _⟩ => ⟨S8x8x128, .f32⟩
  | .hbm, ⟨4, _⟩ => ⟨S8x1x6, .f32⟩
  | .hbm, ⟨5, _⟩ => ⟨S8x6, .f32⟩
  | .hbm, ⟨6, _⟩ => ⟨S_, .f32⟩
  | .hbm, ⟨7, _⟩ => ⟨S6, .f32⟩
  | .hbm, ⟨8, _⟩ => ⟨S1, .f32⟩
  | .hbm, ⟨9, _⟩ => ⟨S_, .f32⟩
  | .hbm, ⟨10, _⟩ => ⟨S1, .f32⟩
  | .hbm, ⟨11, _⟩ => ⟨S_, .f32⟩
  | .hbm, ⟨12, _⟩ => ⟨S1, .f32⟩
  | .hbm, ⟨13, _⟩ => ⟨S_, .f32⟩
  | .hbm, ⟨14, _⟩ => ⟨S1, .f32⟩
  | .hbm, ⟨15, _⟩ => ⟨S_, .f32⟩
  | .hbm, ⟨16, _⟩ => ⟨S1, .f32⟩
  | .hbm, ⟨17, _⟩ => ⟨S_, .f32⟩
  | .hbm, ⟨18, _⟩ => ⟨S1, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S1x19x128x1024, .f32⟩
  | .local _ .vmem, ⟨1, _⟩ => ⟨S1x19x128x1024, .f32⟩
  | .local _ .vmem, ⟨2, _⟩ => ⟨S1x128x1024, .i32⟩
  | .local _ .vmem, ⟨3, _⟩ => ⟨S1x128x1024, .i32⟩
  | .local _ .vmem, ⟨4, _⟩ => ⟨S19, .f32⟩
  | .local _ .vmem, ⟨5, _⟩ => ⟨S1x8x128, .f32⟩
  | .local _ .vmem, ⟨6, _⟩ => ⟨S1x8x128, .f32⟩
  | _, _ => ⟨S8x19x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x19x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S19 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S1x19x128x1024_S1x1x128x1024_0_0_0_0 : ∀ a, (![0, 0, 0, 0] : Fin 4 → Nat) a + S1x1x128x1024.size a ≤ S1x19x128x1024.size a
  h_S1x1x128x1024 : 0 < S1x1x128x1024.numel
  shapeCasts_S1x1x128x1024_S128x1024 : S1x1x128x1024.ShapeCasts S128x1024
  inb_S1x19x128x1024_S1x1x128x1024_0_1_0_0 : ∀ a, (![0, 1, 0, 0] : Fin 4 → Nat) a + S1x1x128x1024.size a ≤ S1x19x128x1024.size a
  inb_S1x19x128x1024_S1x1x128x1024_0_2_0_0 : ∀ a, (![0, 2, 0, 0] : Fin 4 → Nat) a + S1x1x128x1024.size a ≤ S1x19x128x1024.size a
  inb_S1x19x128x1024_S1x1x128x1024_0_3_0_0 : ∀ a, (![0, 3, 0, 0] : Fin 4 → Nat) a + S1x1x128x1024.size a ≤ S1x19x128x1024.size a
  inb_S1x19x128x1024_S1x1x128x1024_0_4_0_0 : ∀ a, (![0, 4, 0, 0] : Fin 4 → Nat) a + S1x1x128x1024.size a ≤ S1x19x128x1024.size a
  inb_S1x19x128x1024_S1x1x128x1024_0_5_0_0 : ∀ a, (![0, 5, 0, 0] : Fin 4 → Nat) a + S1x1x128x1024.size a ≤ S1x19x128x1024.size a
  inb_S1x19x128x1024_S1x1x128x1024_0_6_0_0 : ∀ a, (![0, 6, 0, 0] : Fin 4 → Nat) a + S1x1x128x1024.size a ≤ S1x19x128x1024.size a
  inb_S1x19x128x1024_S1x1x128x1024_0_7_0_0 : ∀ a, (![0, 7, 0, 0] : Fin 4 → Nat) a + S1x1x128x1024.size a ≤ S1x19x128x1024.size a
  inb_S1x19x128x1024_S1x1x128x1024_0_8_0_0 : ∀ a, (![0, 8, 0, 0] : Fin 4 → Nat) a + S1x1x128x1024.size a ≤ S1x19x128x1024.size a
  inb_S1x19x128x1024_S1x1x128x1024_0_9_0_0 : ∀ a, (![0, 9, 0, 0] : Fin 4 → Nat) a + S1x1x128x1024.size a ≤ S1x19x128x1024.size a
  inb_S1x19x128x1024_S1x1x128x1024_0_10_0_0 : ∀ a, (![0, 10, 0, 0] : Fin 4 → Nat) a + S1x1x128x1024.size a ≤ S1x19x128x1024.size a
  inb_S1x19x128x1024_S1x1x128x1024_0_11_0_0 : ∀ a, (![0, 11, 0, 0] : Fin 4 → Nat) a + S1x1x128x1024.size a ≤ S1x19x128x1024.size a
  inb_S1x19x128x1024_S1x1x128x1024_0_12_0_0 : ∀ a, (![0, 12, 0, 0] : Fin 4 → Nat) a + S1x1x128x1024.size a ≤ S1x19x128x1024.size a
  inb_S1x19x128x1024_S1x1x128x1024_0_13_0_0 : ∀ a, (![0, 13, 0, 0] : Fin 4 → Nat) a + S1x1x128x1024.size a ≤ S1x19x128x1024.size a
  inb_S1x19x128x1024_S1x1x128x1024_0_14_0_0 : ∀ a, (![0, 14, 0, 0] : Fin 4 → Nat) a + S1x1x128x1024.size a ≤ S1x19x128x1024.size a
  inb_S1x19x128x1024_S1x1x128x1024_0_15_0_0 : ∀ a, (![0, 15, 0, 0] : Fin 4 → Nat) a + S1x1x128x1024.size a ≤ S1x19x128x1024.size a
  inb_S1x19x128x1024_S1x1x128x1024_0_16_0_0 : ∀ a, (![0, 16, 0, 0] : Fin 4 → Nat) a + S1x1x128x1024.size a ≤ S1x19x128x1024.size a
  inb_S1x19x128x1024_S1x1x128x1024_0_17_0_0 : ∀ a, (![0, 17, 0, 0] : Fin 4 → Nat) a + S1x1x128x1024.size a ≤ S1x19x128x1024.size a
  inb_S1x19x128x1024_S1x1x128x1024_0_18_0_0 : ∀ a, (![0, 18, 0, 0] : Fin 4 → Nat) a + S1x1x128x1024.size a ≤ S1x19x128x1024.size a
  inb_S19_S1_0 : ∀ a, (![0] : Fin 1 → Nat) a + S1.size a ≤ S19.size a
  h_S1 : 0 < S1.numel
  inpos_S1_p0 : ∀ a, (![0] : Fin 1 → Nat) a < S1.size a
  inb_S19_S1_1 : ∀ a, (![1] : Fin 1 → Nat) a + S1.size a ≤ S19.size a
  inb_S19_S1_2 : ∀ a, (![2] : Fin 1 → Nat) a + S1.size a ≤ S19.size a
  inb_S19_S1_3 : ∀ a, (![3] : Fin 1 → Nat) a + S1.size a ≤ S19.size a
  inb_S19_S1_4 : ∀ a, (![4] : Fin 1 → Nat) a + S1.size a ≤ S19.size a
  inb_S19_S1_5 : ∀ a, (![5] : Fin 1 → Nat) a + S1.size a ≤ S19.size a
  inb_S19_S1_6 : ∀ a, (![6] : Fin 1 → Nat) a + S1.size a ≤ S19.size a
  inb_S19_S1_7 : ∀ a, (![7] : Fin 1 → Nat) a + S1.size a ≤ S19.size a
  inb_S19_S1_8 : ∀ a, (![8] : Fin 1 → Nat) a + S1.size a ≤ S19.size a
  inb_S19_S1_9 : ∀ a, (![9] : Fin 1 → Nat) a + S1.size a ≤ S19.size a
  inb_S19_S1_10 : ∀ a, (![10] : Fin 1 → Nat) a + S1.size a ≤ S19.size a
  inb_S19_S1_11 : ∀ a, (![11] : Fin 1 → Nat) a + S1.size a ≤ S19.size a
  inb_S19_S1_12 : ∀ a, (![12] : Fin 1 → Nat) a + S1.size a ≤ S19.size a
  inb_S19_S1_13 : ∀ a, (![13] : Fin 1 → Nat) a + S1.size a ≤ S19.size a
  inb_S19_S1_14 : ∀ a, (![14] : Fin 1 → Nat) a + S1.size a ≤ S19.size a
  inb_S19_S1_15 : ∀ a, (![15] : Fin 1 → Nat) a + S1.size a ≤ S19.size a
  inb_S19_S1_16 : ∀ a, (![16] : Fin 1 → Nat) a + S1.size a ≤ S19.size a
  inb_S19_S1_17 : ∀ a, (![17] : Fin 1 → Nat) a + S1.size a ≤ S19.size a
  inb_S19_S1_18 : ∀ a, (![18] : Fin 1 → Nat) a + S1.size a ≤ S19.size a
  reduces_S128x1024_S128 : S128x1024.Reduces [1] S128
  shapeCasts_S128_S128x1 : S128.ShapeCasts S128x1
  reduces_S128x1_S1 : S128x1.Reduces [0] S1
  shapeCasts_S1_S1x1 : S1.ShapeCasts S1x1
  concatenates_S1x1_S1x1_S1x1_S1x1_S1x1_S1x1_S1x6_d1 : Shape.Concatenates [S1x1, S1x1, S1x1, S1x1, S1x1, S1x1] S1x6 1
  concatenates_S1x6_S1x122_S1x128_d1 : Shape.Concatenates [S1x6, S1x122] S1x128 1
  concatenates_S1x128_S7x128_S8x128_d0 : Shape.Concatenates [S1x128, S7x128] S8x128 0
  slices_S8x8x128_S8x1x6_0_0_0 : S8x8x128.Slices ![0, 0, 0] S8x1x6
  shapeCasts_S8x1x6_S8x6 : S8x1x6.ShapeCasts S8x6
  reducesTo_S8x6_S6_d0 : S8x6.ReducesTo [0] S6
  h_S_ : 0 < S_.numel
  slices_S6_S1_0 : S6.Slices ![0] S1
  shapeCasts_S1_S_ : S1.ShapeCasts S_
  slices_S6_S1_1 : S6.Slices ![1] S1
  slices_S6_S1_2 : S6.Slices ![2] S1
  slices_S6_S1_3 : S6.Slices ![3] S1
  slices_S6_S1_4 : S6.Slices ![4] S1
  slices_S6_S1_5 : S6.Slices ![5] S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x19x128x1024.size a ≤ S8x19x512x1024.size a
  hwx0_0 : ∀ i : grid0.Coords, EltTy.bits .f32 = 32 ∨ (Rect.block (s := S8x19x512x1024) S1x19x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x1024.size a ≤ S8x512x1024.size a
  hwx0_1 : ∀ i : grid0.Coords, EltTy.bits .i32 = 32 ∨ (Rect.block (s := S8x512x1024) S1x128x1024.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S19.size a ≤ S19.size a
  hwx0_2 : ∀ i : grid0.Coords, EltTy.bits .f32 = 32 ∨ (Rect.block (s := S19) S19.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S8x8x128.size a
  hwx0_3 : ∀ i : grid0.Coords, EltTy.bits .f32 = 32 ∨ (Rect.block (s := S8x8x128) S1x8x128.size (cc0_transform_3 i) (hinb0_3 i)).WholeWords (EltTy.packing .f32)

variable [Facts₀]

abbrev win0_0 : Pipeline.Window sig grid0 :=
  Pipeline.Window.ofSpec (Memref.whole main_arg0) S1x19x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S19.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x19x512x1024 : Shape := ⟨4, ![8, 19, 512, 1024]⟩
abbrev S8x512x1024 : Shape := ⟨3, ![8, 512, 1024]⟩
abbrev S19 : Shape := ⟨1, ![19]⟩
abbrev S8x512x1024x19 : Shape := ⟨4, ![8, 512, 1024, 19]⟩
abbrev S4194304x19 : Shape := ⟨2, ![4194304, 19]⟩
abbrev S4194304 : Shape := ⟨1, ![4194304]⟩
abbrev S_ : Shape := ⟨0, ![]⟩
abbrev S4194304x1 : Shape := ⟨2, ![4194304, 1]⟩
abbrev S4194304x1x1 : Shape := ⟨3, ![4194304, 1, 1]⟩
abbrev S1 : Shape := ⟨1, ![1]⟩
abbrev S1x1x1 : Shape := ⟨3, ![1, 1, 1]⟩

abbrev nBuf : Space → Nat
  | .hbm => 118
  | .vmem => 0
  | .smem => 0
  | _ => 0

abbrev bufTy : (tb : Table) → Fin (tcTables nBuf tb) → BufTy
  | .hbm, ⟨0, _⟩ => ⟨S8x19x512x1024, .f32⟩
  | .hbm, ⟨1, _⟩ => ⟨S8x512x1024, .i32⟩
  | .hbm, ⟨2, _⟩ => ⟨S19, .f32⟩
  | .hbm, ⟨3, _⟩ => ⟨S8x512x1024x19, .f32⟩
  | .hbm, ⟨4, _⟩ => ⟨S4194304x19, .f32⟩
  | .hbm, ⟨5, _⟩ => ⟨S4194304, .i32⟩
  | .hbm, ⟨6, _⟩ => ⟨S_, .i32⟩
  | .hbm, ⟨7, _⟩ => ⟨S4194304, .i32⟩
  | .hbm, ⟨8, _⟩ => ⟨S4194304, .i1⟩
  | .hbm, ⟨9, _⟩ => ⟨S_, .i32⟩
  | .hbm, ⟨10, _⟩ => ⟨S_, .i32⟩
  | .hbm, ⟨11, _⟩ => ⟨S4194304, .i32⟩
  | .hbm, ⟨12, _⟩ => ⟨S4194304, .i32⟩
  | .hbm, ⟨13, _⟩ => ⟨S_, .f32⟩
  | .hbm, ⟨14, _⟩ => ⟨S4194304, .f32⟩
  | .hbm, ⟨15, _⟩ => ⟨S_, .f32⟩
  | .hbm, ⟨16, _⟩ => ⟨S4194304, .f32⟩
  | .hbm, ⟨17, _⟩ => ⟨S4194304, .f32⟩
  | .hbm, ⟨18, _⟩ => ⟨S4194304x1, .f32⟩
  | .hbm, ⟨19, _⟩ => ⟨S4194304x19, .f32⟩
  | .hbm, ⟨20, _⟩ => ⟨S4194304x19, .f32⟩
  | .hbm, ⟨21, _⟩ => ⟨S4194304x19, .f32⟩
  | .hbm, ⟨22, _⟩ => ⟨S_, .f32⟩
  | .hbm, ⟨23, _⟩ => ⟨S4194304, .f32⟩
  | .hbm, ⟨24, _⟩ => ⟨S4194304x1, .f32⟩
  | .hbm, ⟨25, _⟩ => ⟨S4194304x1, .f32⟩
  | .hbm, ⟨26, _⟩ => ⟨S4194304x19, .f32⟩
  | .hbm, ⟨27, _⟩ => ⟨S4194304x19, .f32⟩
  | .hbm, ⟨28, _⟩ => ⟨S4194304x1, .i32⟩
  | .hbm, ⟨29, _⟩ => ⟨S_, .i32⟩
  | .hbm, ⟨30, _⟩ => ⟨S4194304x1, .i32⟩
  | .hbm, ⟨31, _⟩ => ⟨S4194304x1, .i1⟩
  | .hbm, ⟨32, _⟩ => ⟨S_, .i32⟩
  | .hbm, ⟨33, _⟩ => ⟨S4194304x1, .i32⟩
  | .hbm, ⟨34, _⟩ => ⟨S4194304x1, .i32⟩
  | .hbm, ⟨35, _⟩ => ⟨S4194304x1, .i32⟩
  | .hbm, ⟨36, _⟩ => ⟨S4194304x1x1, .i32⟩
  | .hbm, ⟨37, _⟩ => ⟨S1, .i32⟩
  | .hbm, ⟨38, _⟩ => ⟨S_, .i32⟩
  | .hbm, ⟨39, _⟩ => ⟨S4194304x1x1, .i32⟩
  | .hbm, ⟨40, _⟩ => ⟨S4194304x1x1, .i1⟩
  | .hbm, ⟨41, _⟩ => ⟨S1x1x1, .i32⟩
  | .hbm, ⟨42, _⟩ => ⟨S4194304x1x1, .i32⟩
  | .hbm, ⟨43, _⟩ => ⟨S4194304x1x1, .i1⟩
  | .hbm, ⟨44, _⟩ => ⟨S4194304x1x1, .i1⟩
  | .hbm, ⟨45, _⟩ => ⟨S_, .i1⟩
  | .hbm, ⟨46, _⟩ => ⟨S4194304x1, .i1⟩
  | .hbm, ⟨47, _⟩ => ⟨S4194304x1, .f32⟩
  | .hbm, ⟨48, _⟩ => ⟨S_, .f32⟩
  | .hbm, ⟨49, _⟩ => ⟨S4194304x1, .f32⟩
  | .hbm, ⟨50, _⟩ => ⟨S4194304x1, .f32⟩
  | .hbm, ⟨51, _⟩ => ⟨S4194304, .f32⟩
  | .hbm, ⟨52, _⟩ => ⟨S4194304, .f32⟩
  | .hbm, ⟨53, _⟩ => ⟨S4194304, .f32⟩
  | .hbm, ⟨54, _⟩ => ⟨S4194304, .f32⟩
  | .hbm, ⟨55, _⟩ => ⟨S_, .f32⟩
  | .hbm, ⟨56, _⟩ => ⟨S4194304, .f32⟩
  | .hbm, ⟨57, _⟩ => ⟨S4194304, .i1⟩
  | .hbm, ⟨58, _⟩ => ⟨S4194304, .i1⟩
  | .hbm, ⟨59, _⟩ => ⟨S_, .f32⟩
  | .hbm, ⟨60, _⟩ => ⟨S4194304, .f32⟩
  | .hbm, ⟨61, _⟩ => ⟨S4194304, .i1⟩
  | .hbm, ⟨62, _⟩ => ⟨S4194304, .i1⟩
  | .hbm, ⟨63, _⟩ => ⟨S_, .f32⟩
  | .hbm, ⟨64, _⟩ => ⟨S4194304, .f32⟩
  | .hbm, ⟨65, _⟩ => ⟨S4194304, .i1⟩
  | .hbm, ⟨66, _⟩ => ⟨S4194304, .i1⟩
  | .hbm, ⟨67, _⟩ => ⟨S_, .f32⟩
  | .hbm, ⟨68, _⟩ => ⟨S4194304, .f32⟩
  | .hbm, ⟨69, _⟩ => ⟨S4194304, .i1⟩
  | .hbm, ⟨70, _⟩ => ⟨S4194304, .i1⟩
  | .hbm, ⟨71, _⟩ => ⟨S_, .i32⟩
  | .hbm, ⟨72, _⟩ => ⟨S4194304, .i32⟩
  | .hbm, ⟨73, _⟩ => ⟨S4194304, .i1⟩
  | .hbm, ⟨74, _⟩ => ⟨S_, .i32⟩
  | .hbm, ⟨75, _⟩ => ⟨S4194304, .i32⟩
  | .hbm, ⟨76, _⟩ => ⟨S4194304, .i32⟩
  | .hbm, ⟨77, _⟩ => ⟨S4194304, .i32⟩
  | .hbm, ⟨78, _⟩ => ⟨S4194304x1, .i32⟩
  | .hbm, ⟨79, _⟩ => ⟨S4194304, .f32⟩
  | .hbm, ⟨80, _⟩ => ⟨S_, .f32⟩
  | .hbm, ⟨81, _⟩ => ⟨S_, .f32⟩
  | .hbm, ⟨82, _⟩ => ⟨S4194304, .f32⟩
  | .hbm, ⟨83, _⟩ => ⟨S4194304, .f32⟩
  | .hbm, ⟨84, _⟩ => ⟨S_, .f32⟩
  | .hbm, ⟨85, _⟩ => ⟨S_, .f32⟩
  | .hbm, ⟨86, _⟩ => ⟨S4194304, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S4194304, .f32⟩
  | .hbm, ⟨95, _⟩ => ⟨S4194304, .f32⟩
  | .hbm, ⟨96, _⟩ => ⟨S_, .f32⟩
  | .hbm, ⟨97, _⟩ => ⟨S_, .f32⟩
  | .hbm, ⟨98, _⟩ => ⟨S4194304, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S4194304, .f32⟩
  | .hbm, ⟨108, _⟩ => ⟨S4194304, .f32⟩
  | .hbm, ⟨109, _⟩ => ⟨S_, .f32⟩
  | .hbm, ⟨110, _⟩ => ⟨S_, .f32⟩
  | .hbm, ⟨111, _⟩ => ⟨S4194304, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | _, _ => ⟨S8x19x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_call1_cst : Ref sig .tc := ⟨.hbm, 13, rfl⟩
abbrev main_call1_v0 : Ref sig .tc := ⟨.hbm, 14, rfl⟩
abbrev main_call1_cst_0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_v6 : Ref sig .tc := ⟨.hbm, 21, rfl⟩
abbrev main_call1_cst_1 : Ref sig .tc := ⟨.hbm, 22, rfl⟩
abbrev main_call1_v7 : Ref sig .tc := ⟨.hbm, 23, rfl⟩
abbrev main_call1_v8 : Ref sig .tc := ⟨.hbm, 24, rfl⟩
abbrev main_call1_v9 : Ref sig .tc := ⟨.hbm, 25, rfl⟩
abbrev main_call1_v10 : Ref sig .tc := ⟨.hbm, 26, rfl⟩
abbrev main_v6 : Ref sig .tc := ⟨.hbm, 27, rfl⟩
abbrev main_v7 : Ref sig .tc := ⟨.hbm, 28, rfl⟩
abbrev main_call2_c : Ref sig .tc := ⟨.hbm, 29, rfl⟩
abbrev main_call2_v0 : Ref sig .tc := ⟨.hbm, 30, rfl⟩
abbrev main_call2_v1 : Ref sig .tc := ⟨.hbm, 31, rfl⟩
abbrev main_call2_c_0 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_c_1 : Ref sig .tc := ⟨.hbm, 37, rfl⟩
abbrev main_call2_c_2 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_c_3 : Ref sig .tc := ⟨.hbm, 45, rfl⟩
abbrev main_call2_v12 : Ref sig .tc := ⟨.hbm, 46, rfl⟩
abbrev main_call2_v13 : Ref sig .tc := ⟨.hbm, 47, rfl⟩
abbrev main_call2_cst : Ref sig .tc := ⟨.hbm, 48, rfl⟩
abbrev main_call2_v14 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_cst : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_cst_1 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_cst_2 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_cst_3 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_c_4 : Ref sig .tc := ⟨.hbm, 71, rfl⟩
abbrev main_v25 : Ref sig .tc := ⟨.hbm, 72, rfl⟩
abbrev main_v26 : Ref sig .tc := ⟨.hbm, 73, rfl⟩
abbrev main_c_5 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst_6 : Ref sig .tc := ⟨.hbm, 80, rfl⟩
abbrev main_call3_v0 : Ref sig .tc := ⟨.hbm, 81, rfl⟩
abbrev main_call3_v1 : Ref sig .tc := ⟨.hbm, 82, rfl⟩
abbrev main_v32 : Ref sig .tc := ⟨.hbm, 83, rfl⟩
abbrev main_cst_7 : Ref sig .tc := ⟨.hbm, 84, rfl⟩
abbrev main_v33 : Ref sig .tc := ⟨.hbm, 85, rfl⟩
abbrev main_v34 : Ref sig .tc := ⟨.hbm, 86, rfl⟩
abbrev main_cst_8 : Ref sig .tc := ⟨.hbm, 87, rfl⟩
abbrev main_v35 : Ref sig .tc := ⟨.hbm, 88, rfl⟩
abbrev main_cst_9 : Ref sig .tc := ⟨.hbm, 89, rfl⟩
abbrev main_v36 : Ref sig .tc := ⟨.hbm, 90, rfl⟩
abbrev main_v37 : Ref sig .tc := ⟨.hbm, 91, rfl⟩
abbrev main_cst_10 : Ref sig .tc := ⟨.hbm, 92, rfl⟩
abbrev main_call4_v0 : Ref sig .tc := ⟨.hbm, 93, rfl⟩
abbrev main_call4_v1 : Ref sig .tc := ⟨.hbm, 94, rfl⟩
abbrev main_v38 : Ref sig .tc := ⟨.hbm, 95, rfl⟩
abbrev main_cst_11 : Ref sig .tc := ⟨.hbm, 96, rfl⟩
abbrev main_v39 : Ref sig .tc := ⟨.hbm, 97, rfl⟩
abbrev main_v40 : Ref sig .tc := ⟨.hbm, 98, rfl⟩
abbrev main_cst_12 : Ref sig .tc := ⟨.hbm, 99, rfl⟩
abbrev main_v41 : Ref sig .tc := ⟨.hbm, 100, rfl⟩
abbrev main_cst_13 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_cst_14 : Ref sig .tc := ⟨.hbm, 105, rfl⟩
abbrev main_call5_v0 : Ref sig .tc := ⟨.hbm, 106, rfl⟩
abbrev main_call5_v1 : Ref sig .tc := ⟨.hbm, 107, rfl⟩
abbrev main_v45 : Ref sig .tc := ⟨.hbm, 108, rfl⟩
abbrev main_cst_15 : Ref sig .tc := ⟨.hbm, 109, rfl⟩
abbrev main_v46 : Ref sig .tc := ⟨.hbm, 110, rfl⟩
abbrev main_v47 : Ref sig .tc := ⟨.hbm, 111, rfl⟩
abbrev main_cst_16 : Ref sig .tc := ⟨.hbm, 112, rfl⟩
abbrev main_v48 : Ref sig .tc := ⟨.hbm, 113, rfl⟩
abbrev main_cst_17 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩

abbrev nD : Nat := 1
abbrev τ : Topo := Topo.v7x

variable {F : FTy → Type} [FloatOps F]

class Facts₀ : Prop where
  transposes_S8x19x512x1024_S8x512x1024x19_0_2_3_1 : S8x19x512x1024.Transposes [0, 2, 3, 1] S8x512x1024x19
  shapeCasts_S8x512x1024x19_S4194304x19 : S8x512x1024x19.ShapeCasts S4194304x19
  shapeCasts_S8x512x1024_S4194304 : S8x512x1024.ShapeCasts S4194304
  bcast_S_S4194304 : S_.BroadcastsInDim S4194304 (![] : Fin 0 → Fin S4194304.rank)
  reducesTo_S4194304x19_S4194304_d1 : S4194304x19.ReducesTo [1] S4194304
  h_S_ : 0 < S_.numel
  bcast_S4194304_S4194304x1_0 : S4194304.BroadcastsInDim S4194304x1 (![0] : Fin 1 → Fin S4194304x1.rank)
  bcast_S4194304x1_S4194304x19_0_1 : S4194304x1.BroadcastsInDim S4194304x19 (![0, 1] : Fin 2 → Fin S4194304x19.rank)
  bcast_S_S4194304x1 : S_.BroadcastsInDim S4194304x1 (![] : Fin 0 → Fin S4194304x1.rank)
  shapeCasts_S4194304x1_S4194304x1x1 : S4194304x1.ShapeCasts S4194304x1x1
  bcast_S_S4194304x1x1 : S_.BroadcastsInDim S4194304x1x1 (![] : Fin 0 → Fin S4194304x1x1.rank)
  bcast_S1_S1x1x1_2 : S1.BroadcastsInDim S1x1x1 (![2] : Fin 1 → Fin S1x1x1.rank)
  bcast_S1x1x1_S4194304x1x1_0_1_2 : S1x1x1.BroadcastsInDim S4194304x1x1 (![0, 1, 2] : Fin 3 → Fin S4194304x1x1.rank)
  reducesTo_S4194304x1x1_S4194304x1_d2 : S4194304x1x1.ReducesTo [2] S4194304x1
  shapeCasts_S4194304x1_S4194304 : S4194304x1.ShapeCasts S4194304
  reducesTo_S4194304_S_d0 : S4194304.ReducesTo [0] S_
  gather_S4194304x19_S4194304x1x1_S4194304x1_n_1_0_0_1_2_11_wf : GatherDims.WF S4194304x19 S4194304x1x1 S4194304x1 [] [1] [0] [1] [0] 2 ![1, 1]
  gather_S19_S4194304x1_S4194304_n_0_n_n_0_1_1_wf : GatherDims.WF S19 S4194304x1 S4194304 [] [0] [] [0] [] 1 ![1]

variable [Facts₀]

def gather_S4194304x19_S4194304x1x1_S4194304x1_n_1_0_0_1_2_11 : GatherDims S4194304x19 S4194304x1x1 S4194304x1 where
  offsetDims := []
  collapsedSliceDims := [1]
  operandBatchingDims := [0]
  startIndicesBatchingDims := [0]
  startIndexMap := [1]
  indexVectorDim := 2
  sliceSizes := ![1, 1]
  wf := gather_S4194304x19_S4194304x1x1_S4194304x1_n_1_0_0_1_2_11_wf
def gather_S19_S4194304x1_S4194304_n_0_n_n_0_1_1 : GatherDims S19 S4194304x1 S4194304 where
  offsetDims := []
  collapsedSliceDims := [0]
  operandBatchingDims := []
  startIndicesBatchingDims := []
  startIndexMap := [0]
  indexVectorDim := 1
  sliceSizes := ![1]
  wf := gather_S19_S4194304x1_S4194304_n_0_n_n_0_1_1_wf

class Facts : Prop extends Facts₀ where

variable [Facts]
-- ==== Proof.PixelSpec.lean ====
/-
  The per-pixel mathematics of the weighted, bucketed cross-entropy, on the extended reals.

  A pixel carries nineteen logits `L : Fin 19 → EReal`, a label word `t`, and shares the class weights
  `w : Fin 19 → EReal`. Both programs compute, per pixel, the negative log-likelihood `nll` of the labelled class
  under the softmax of `L`, the labelled class's weight, and bucket masks from the confidence `exp (-nll)`
  against two thresholds (easy: at least the upper one; hard: below the lower one; middle: between). They spell
  each of these differently:

  * the maximum of the logits: a running maximum from `-∞`, against a reduction whose result is again capped below
    by `-∞`;
  * the log-sum-exp: `nll = (M + log S) - L k` against `nll = -((L k - M) - log S)`;
  * the labelled class: the label clipped into `[0, 18]` and matched channel by channel from a zero start, against
    the label (zero when it is the ignore label) wrapped when negative, bounds-checked and gathered;
  * the middle bucket: everything valid minus easy minus hard, against its own mask.

  On finite logits and weights and a label that is a class `0 … 18` or the ignore label `255`, the two spellings
  agree: that is what this file proves, with nothing about either program in it.
-/
import Idealize.ShloMosaic.PureOps.Ideal
import Idealize.ShloMosaic.Lib.ValueIdx

noncomputable section

namespace OhemSpec

open Idealize.ShloMosaic

/-- The upper confidence threshold, the float nearest 0.8. -/
abbrev thHi : EReal := Ideal.ofBits .f32 0x3F4CCCCD#32
/-- The lower confidence threshold, one half. -/
abbrev thLo : EReal := Ideal.ofBits .f32 0x3F000000#32

/-- The nineteen classes, in order. -/
def classes : List (Fin 19) := [0, 1, 2, 3, 4, 5, 6, 7, 8, 9, 10, 11, 12, 13, 14, 15, 16, 17, 18]

/-- A label is admissible when it is one of the nineteen classes or the ignore label. -/
def LabelOk (t : BitVec 32) : Prop := (0 ≤ t.toInt ∧ t.toInt < 19) ∨ t = 255#32

/-- A family of extended reals is finite when every member is a real number. -/
def Finite {ι : Type} (f : ι → EReal) : Prop := ∀ i, f i ≠ ⊤ ∧ f i ≠ ⊥

/-! ## The kernel's spelling -/

/-- The label clipped into `[0, 18]` (signed). -/
def kClip (t : BitVec 32) : BitVec 32 := IntOp.minsi 18#32 (IntOp.maxsi 0#32 t)

/-- The running maximum of the logits, from `-∞`. -/
def kMax (L : Fin 19 → EReal) : EReal := classes.foldl (fun acc c => max acc (L c)) ⊥

/-- The running sum of `exp (L c - M)`, from zero. -/
def kSumExp (L : Fin 19 → EReal) : EReal := classes.foldl (fun acc c => acc + Ideal.exp (L c - kMax L)) 0

/-- The value of `V` at the clipped label, picked by a compare-and-select per class over a zero start. -/
def kPick (t : BitVec 32) (V : Fin 19 → EReal) : EReal :=
  classes.foldl (fun acc c => Scalar.select (IntOp.cmpi .eq (kClip t) (BitVec.ofNat 32 c.val)) (V c) acc) 0

/-- The negative log-likelihood of the picked class. -/
def kNll (L : Fin 19 → EReal) (t : BitVec 32) : EReal := kMax L + Ideal.log (kSumExp L) - kPick t L

/-- The picked class's confidence. -/
def kConf (L : Fin 19 → EReal) (t : BitVec 32) : EReal := Ideal.exp (0 - kNll L t)

/-- The label is not the ignore label. -/
def kValid (t : BitVec 32) : BitVec 1 := IntOp.cmpi .ne t 255#32

/-- Valid and confident: the easy bucket. -/
def kEasy (L : Fin 19 → EReal) (t : BitVec 32) : BitVec 1 := IntOp.andi (kValid t) (Ideal.cmp .oge (kConf L t) thHi)

/-- Valid and unsure: the hard bucket. -/
def kHard (L : Fin 19 → EReal) (t : BitVec 32) : BitVec 1 := IntOp.andi (kValid t) (Ideal.cmp .olt (kConf L t) thLo)

/-- The picked class's weight where the mask holds, zero elsewhere. -/
def kMw (mask : BitVec 1) (t : BitVec 32) (w : Fin 19 → EReal) : EReal := Scalar.select mask (kPick t w) 0

/-! ## The reference's spelling -/

/-- The label, with the ignore label replaced by class zero. -/
def rSafe (t : BitVec 32) : BitVec 32 := Scalar.select (IntOp.cmpi .ne t 255#32) t 0#32

/-- A negative index counts from the end. -/
def rWrap (s : BitVec 32) : BitVec 32 := Scalar.select (IntOp.cmpi .slt s 0#32) (IntOp.addi s 19#32) s

/-- The class an index word names: its signed value clamped into `[0, 18]` (what the gather reads). -/
def rClass (s : BitVec 32) : Fin 19 := ⟨(max 0 (min s.toInt 18)).toNat, by omega⟩

/-- The maximum of the logits, capped below by `-∞`. -/
def rMax (L : Fin 19 → EReal) : EReal := max ⊥ (Finset.univ.sup' Finset.univ_nonempty L)

/-- The log-softmax of class `c`. -/
def rLogp (L : Fin 19 → EReal) (c : Fin 19) : EReal :=
  (L c - rMax L) - Ideal.log (0 + ∑ k : Fin 19, Ideal.exp (L k - rMax L))

/-- The index is in bounds. -/
def rInb (s : BitVec 32) : BitVec 1 := IntOp.andi (IntOp.cmpi .sge s 0#32) (IntOp.cmpi .sle s 18#32)

/-- The negative log-likelihood: the gathered log-softmax (a junk value out of bounds), negated. -/
def rNll (L : Fin 19 → EReal) (t : BitVec 32) : EReal :=
  -(Scalar.select (rInb (rWrap (rSafe t))) (rLogp L (rClass (rWrap (rSafe t)))) (Ideal.ofBits .f32 0x7FC00000#32))

/-- The labelled class's confidence. -/
def rConf (L : Fin 19 → EReal) (t : BitVec 32) : EReal := Ideal.exp (-(rNll L t))

def rValid (t : BitVec 32) : BitVec 1 := IntOp.cmpi .ne t 255#32
def rEasy (L : Fin 19 → EReal) (t : BitVec 32) : BitVec 1 := IntOp.andi (rValid t) (Ideal.cmp .oge (rConf L t) thHi)
def rMid (L : Fin 19 → EReal) (t : BitVec 32) : BitVec 1 :=
  IntOp.andi (IntOp.andi (rValid t) (Ideal.cmp .olt (rConf L t) thHi)) (Ideal.cmp .oge (rConf L t) thLo)
def rHard (L : Fin 19 → EReal) (t : BitVec 32) : BitVec 1 := IntOp.andi (rValid t) (Ideal.cmp .olt (rConf L t) thLo)

/-- The labelled class's weight where the mask holds, zero elsewhere. -/
def rMw (mask : BitVec 1) (t : BitVec 32) (w : Fin 19 → EReal) : EReal :=
  Scalar.select mask (w (rClass (rWrap (rSafe t)))) 0

/-! ## Auxiliary facts -/

namespace Px

/-! ### Selects and one-bit words -/

theorem select_one {α : Type} (a b : α) : Scalar.select 1#1 a b = a := by
  unfold Scalar.select; exact if_pos rfl

theorem select_zero {α : Type} (a b : α) : Scalar.select 0#1 a b = b := by
  unfold Scalar.select; exact if_neg (by decide)

theorem bit_cases (m : BitVec 1) : m = 0#1 ∨ m = 1#1 := by
  revert m; decide

theorem andi_zero_left (x : BitVec 1) : IntOp.andi 0#1 x = 0#1 := by
  rcases bit_cases x with rfl | rfl <;> decide

theorem cmp_oge (x y : EReal) : Ideal.cmp .oge x y = if y ≤ x then 1#1 else 0#1 := by
  unfold Ideal.cmp; by_cases h : y ≤ x <;> simp [h]

theorem cmp_olt (x y : EReal) : Ideal.cmp .olt x y = if x < y then 1#1 else 0#1 := by
  unfold Ideal.cmp; by_cases h : x < y <;> simp [h]

/-- A masked value times a factor is the masked product. -/
theorem select_mul (m : BitVec 1) (v n : EReal) : Scalar.select m v 0 * n = Scalar.select m (v * n) 0 := by
  rcases bit_cases m with rfl | rfl
  · rw [select_zero, select_zero, zero_mul]
  · rw [select_one, select_one]

/-! ### Real members of the extended reals -/

theorem real_of_finite {ι : Type} {f : ι → EReal} (h : Finite f) : ∃ g : ι → ℝ, ∀ i, f i = (g i : EReal) :=
  ⟨fun i => (f i).toReal, fun i => (EReal.coe_toReal (h i).1 (h i).2).symm⟩

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### The thresholds -/

theorem thLo_eq : thLo = ((1 / 2 : ℝ) : EReal) := by
  simp [thLo, Ideal.ofBits, Ideal.ieee, -EReal.coe_mul]; norm_num

theorem thHi_eq : thHi = ((13421773 / 16777216 : ℝ) : EReal) := by
  simp [thHi, Ideal.ofBits, Ideal.ieee, -EReal.coe_mul]; norm_num

theorem thLo_lt_thHi : thLo < thHi := by
  rw [thLo_eq, thHi_eq, EReal.coe_lt_coe_iff]; norm_num

/-! ### Labels -/

theorem mem_classes : ∀ c : Fin 19, c ∈ classes := by decide

theorem classes_nodup : classes.Nodup := by decide

theorem classes_eq : classes = List.finRange 19 := by decide

/-- An admissible label is a class's word or the ignore word. -/
theorem label_cases {t : BitVec 32} (ht : LabelOk t) : (∃ k : Fin 19, t = BitVec.ofNat 32 k.val) ∨ t = 255#32 := by
  rcases ht with ⟨h0, h1⟩ | h
  · left
    have hlt := t.isLt
    have hn : t.toNat < 19 := by
      rw [BitVec.toInt_eq_toNat_cond] at h0 h1
      split at h1 <;> omega
    refine ⟨⟨t.toNat, hn⟩, ?_⟩
    apply BitVec.eq_of_toNat_eq
    simp [BitVec.toNat_ofNat]
  · exact Or.inr h

/-- On a class's word: clipping does nothing and the word matches exactly its own class. -/
theorem cmp_class : ∀ k c : Fin 19,
    IntOp.cmpi .eq (kClip (BitVec.ofNat 32 k.val)) (BitVec.ofNat 32 c.val) = if c = k then 1#1 else 0#1 := by
  decide

/-- On a class's word: it is valid, in bounds after the ignore and wrap steps, and names its class. -/
theorem class_facts : ∀ k : Fin 19,
    kValid (BitVec.ofNat 32 k.val) = 1#1 ∧ rValid (BitVec.ofNat 32 k.val) = 1#1
      ∧ rInb (rWrap (rSafe (BitVec.ofNat 32 k.val))) = 1#1
      ∧ rClass (rWrap (rSafe (BitVec.ofNat 32 k.val))) = k := by
  decide

theorem ignore_facts : kValid 255#32 = 0#1 ∧ rValid 255#32 = 0#1 := by decide

/-- A chain of selects keyed by "is class k" over distinct classes picks the value at k if k occurs. -/
theorem foldl_pick (V : Fin 19 → EReal) (k : Fin 19) :
    ∀ (l : List (Fin 19)) (z : EReal), l.Nodup →
      l.foldl (fun acc c => Scalar.select (if c = k then 1#1 else 0#1) (V c) acc) z = if k ∈ l then V k else z
  | [], z, _ => by simp
  | a :: l, z, hnd => by
    have hnd' := List.nodup_cons.1 hnd
    rw [List.foldl_cons, foldl_pick V k l _ hnd'.2]
    by_cases hak : a = k
    · subst hak
      simp [hnd'.1, select_one]
    · have hka : ¬ k = a := fun h => hak h.symm
      simp [hak, hka, select_zero]

/-- At a class's word the pick reads that class. -/
theorem kPick_class (k : Fin 19) (V : Fin 19 → EReal) : kPick (BitVec.ofNat 32 k.val) V = V k := by
  unfold kPick
  have hf : (fun (acc : EReal) (c : Fin 19) =>
        Scalar.select (IntOp.cmpi .eq (kClip (BitVec.ofNat 32 k.val)) (BitVec.ofNat 32 c.val)) (V c) acc)
      = (fun acc c => Scalar.select (if c = k then 1#1 else 0#1) (V c) acc) := by
    funext acc c; rw [cmp_class k c]
  rw [hf, foldl_pick V k classes 0 classes_nodup, if_pos (mem_classes k)]

/-- Whatever the label, a pick over real values from zero is real. -/
theorem foldl_select_real (V : Fin 19 → EReal) (m : Fin 19 → BitVec 1) (hV : Finite V) :
    ∀ (l : List (Fin 19)) (z : EReal), (z ≠ ⊤ ∧ z ≠ ⊥) →
      (l.foldl (fun acc c => Scalar.select (m c) (V c) acc) z ≠ ⊤
        ∧ l.foldl (fun acc c => Scalar.select (m c) (V c) acc) z ≠ ⊥)
  | [], _, hz => hz
  | a :: l, z, hz => by
    rw [List.foldl_cons]
    refine foldl_select_real V m hV l _ ?_
    rcases bit_cases (m a) with h | h
    · rw [h, select_zero]; exact hz
    · rw [h, select_one]; exact hV a

theorem kPick_real (t : BitVec 32) (V : Fin 19 → EReal) (hV : Finite V) : kPick t V ≠ ⊤ ∧ kPick t V ≠ ⊥ := by
  unfold kPick
  exact foldl_select_real V (fun c => IntOp.cmpi .eq (kClip t) (BitVec.ofNat 32 c.val)) hV classes 0
    ⟨EReal.zero_ne_top, EReal.zero_ne_bot⟩

/-! ### The maximum -/

theorem foldl_max_le (L : Fin 19 → EReal) (B : EReal) :
    ∀ (l : List (Fin 19)) (z : EReal), z ≤ B → (∀ c ∈ l, L c ≤ B) →
      l.foldl (fun acc c => max acc (L c)) z ≤ B
  | [], _, hz, _ => hz
  | a :: l, z, hz, h => by
    rw [List.foldl_cons]
    exact foldl_max_le L B l _ (max_le hz (h a (List.mem_cons_self ..)))
      (fun c hc => h c (List.mem_cons_of_mem _ hc))

theorem le_foldl_max (L : Fin 19 → EReal) :
    ∀ (l : List (Fin 19)) (z : EReal), z ≤ l.foldl (fun acc c => max acc (L c)) z
  | [], _ => le_rfl
  | a :: l, z => by
    rw [List.foldl_cons]
    exact le_trans (le_max_left z (L a)) (le_foldl_max L l _)

theorem mem_le_foldl_max (L : Fin 19 → EReal) :
    ∀ (l : List (Fin 19)) (z : EReal) (c : Fin 19), c ∈ l → L c ≤ l.foldl (fun acc c => max acc (L c)) z
  | [], _, _, hc => by simp at hc
  | a :: l, z, c, hc => by
    rw [List.foldl_cons]
    rcases List.mem_cons.1 hc with rfl | hc
    · exact le_trans (le_max_right z (L c)) (le_foldl_max L l _)
    · exact mem_le_foldl_max L l _ c hc

/-- The running maximum from the bottom is the maximum over all classes. -/
theorem kMax_eq_rMax (L : Fin 19 → EReal) : kMax L = rMax L := by
  unfold kMax rMax
  rw [max_eq_right bot_le]
  apply le_antisymm
  · exact foldl_max_le L _ classes ⊥ bot_le (fun c _ => Finset.le_sup' L (Finset.mem_univ c))
  · exact Finset.sup'_le _ _ (fun c _ => mem_le_foldl_max L classes ⊥ c (mem_classes c))

/-- The maximum of real logits is a real. -/
theorem rMax_real (L : Fin 19 → EReal) (hL : Finite L) : ∃ m : ℝ, rMax L = (m : EReal) := by
  obtain ⟨i, -, hi⟩ := Finset.exists_mem_eq_sup' Finset.univ_nonempty L
  refine ⟨(L i).toReal, ?_⟩
  unfold rMax
  rw [hi, max_eq_right bot_le, EReal.coe_toReal (hL i).1 (hL i).2]

/-! ### The sum of exponentials and its logarithm -/

theorem foldl_add_eq (f : Fin 19 → EReal) :
    ∀ (l : List (Fin 19)) (z : EReal), l.foldl (fun acc c => acc + f c) z = z + (l.map f).sum
  | [], z => by simp
  | a :: l, z => by
    rw [List.foldl_cons, foldl_add_eq f l, List.map_cons, List.sum_cons, add_assoc]

/-- The running sum from zero is zero plus the sum over all classes. -/
theorem kSumExp_eq (L : Fin 19 → EReal) : kSumExp L = 0 + ∑ k : Fin 19, Ideal.exp (L k - rMax L) := by
  unfold kSumExp
  rw [foldl_add_eq (fun c => Ideal.exp (L c - kMax L)), kMax_eq_rMax, classes_eq, ← Fin.sum_univ_def]

/-- The logarithm of the sum of exponentials of real numbers is a real. -/
theorem logsum_real (L : Fin 19 → EReal) (hL : Finite L) (m : ℝ) :
    ∃ g : ℝ, Ideal.log (0 + ∑ k : Fin 19, Ideal.exp (L k - (m : EReal))) = (g : EReal) := by
  obtain ⟨l, hl⟩ := real_of_finite hL
  have hs : (∑ k : Fin 19, Ideal.exp (L k - (m : EReal))) = ((∑ k : Fin 19, Real.exp (l k - m) : ℝ) : EReal) := by
    rw [coe_sum]
    refine Finset.sum_congr rfl (fun k _ => ?_)
    rw [hl k, ← EReal.coe_sub, Ideal.exp_coe]
  have hpos : 0 < ∑ k : Fin 19, Real.exp (l k - m) :=
    Finset.sum_pos (fun k _ => Real.exp_pos _) Finset.univ_nonempty
  exact ⟨Real.log (∑ k : Fin 19, Real.exp (l k - m)), by
    rw [hs, zero_add, Ideal.log_coe, if_neg (not_le.2 hpos)]⟩

/-! ### The negative log-likelihood and the confidence -/

/-- Whatever the label, the running-maximum spelling of the nll of real logits is a real. -/
theorem kNll_real (L : Fin 19 → EReal) (hL : Finite L) (t : BitVec 32) : ∃ n : ℝ, kNll L t = (n : EReal) := by
  obtain ⟨m, hm⟩ := rMax_real L hL
  obtain ⟨g, hg⟩ := logsum_real L hL m
  obtain ⟨x, hx⟩ : ∃ x : ℝ, kPick t L = (x : EReal) :=
    ⟨_, (EReal.coe_toReal (kPick_real t L hL).1 (kPick_real t L hL).2).symm⟩
  refine ⟨m + g - x, ?_⟩
  unfold kNll
  rw [kSumExp_eq, kMax_eq_rMax, hm, hg, hx, ← EReal.coe_add, ← EReal.coe_sub]

/-- At a class's word, (M + log S) - x and -((x - M) - log S) are one real. -/
theorem nll_class (L : Fin 19 → EReal) (hL : Finite L) (k : Fin 19) :
    ∃ n : ℝ, kNll L (BitVec.ofNat 32 k.val) = (n : EReal) ∧ rNll L (BitVec.ofNat 32 k.val) = (n : EReal) := by
  obtain ⟨m, hm⟩ := rMax_real L hL
  obtain ⟨g, hg⟩ := logsum_real L hL m
  obtain ⟨l, hl⟩ := real_of_finite hL
  obtain ⟨-, -, hinb, hcls⟩ := class_facts k
  refine ⟨m + g - l k, ?_, ?_⟩
  · unfold kNll
    rw [kPick_class, kSumExp_eq, kMax_eq_rMax, hm, hg, hl k, ← EReal.coe_add, ← EReal.coe_sub]
  · unfold rNll
    rw [hinb, hcls, select_one]
    unfold rLogp
    rw [hm, hg, hl k, ← EReal.coe_sub, ← EReal.coe_sub, ← EReal.coe_neg]
    congr 1; ring

/-- At a class's word the two confidences are one number. -/
theorem conf_class (L : Fin 19 → EReal) (hL : Finite L) (k : Fin 19) :
    kConf L (BitVec.ofNat 32 k.val) = rConf L (BitVec.ofNat 32 k.val) := by
  obtain ⟨n, hk, hr⟩ := nll_class L hL k
  unfold kConf rConf
  rw [hk, hr, zero_sub]

/-! ### The three buckets partition the valid pixels -/

/-- For a confidence p: exactly one of "upper ≤ p", "lower ≤ p < upper", "p < lower" holds, so a value
    is the sum of its three masked copies. -/
theorem partition (p v : EReal) :
    v = Scalar.select (IntOp.andi 1#1 (Ideal.cmp .oge p thHi)) v 0
        + Scalar.select (IntOp.andi (IntOp.andi 1#1 (Ideal.cmp .olt p thHi)) (Ideal.cmp .oge p thLo)) v 0
        + Scalar.select (IntOp.andi 1#1 (Ideal.cmp .olt p thLo)) v 0 := by
  have h11 : IntOp.andi 1#1 1#1 = 1#1 := by decide
  have h10 : IntOp.andi 1#1 0#1 = 0#1 := by decide
  have h01 : IntOp.andi 0#1 1#1 = 0#1 := by decide
  rw [cmp_oge, cmp_olt, cmp_oge, cmp_olt]
  rcases lt_or_ge p thLo with h | h
  · have h1 : p < thHi := h.trans thLo_lt_thHi
    have e1 : ¬ thHi ≤ p := not_le.2 h1
    have e2 : ¬ thLo ≤ p := not_le.2 h
    simp only [if_neg e1, if_pos h1, if_neg e2, if_pos h, h10, h11, select_zero, select_one, zero_add]
  · have e2 : ¬ p < thLo := not_lt.2 h
    rcases lt_or_ge p thHi with h1 | h1
    · have e1 : ¬ thHi ≤ p := not_le.2 h1
      simp only [if_neg e1, if_pos h1, if_pos h, if_neg e2, h10, h11, select_zero, select_one, zero_add, add_zero]
    · have e1 : ¬ p < thHi := not_lt.2 h1
      simp only [if_pos h1, if_neg e1, if_pos h, if_neg e2, h10, h11, h01, select_zero, select_one, add_zero]

end Px

/-! ## The two spellings agree, pixel by pixel -/

section Agree

variable (L w : Fin 19 → EReal) (t : BitVec 32) (hL : Finite L) (hw : Finite w) (ht : LabelOk t)

/-- Every masked weight, and its product with the negative log-likelihood, is a real number. -/
theorem kMw_finite (mask : BitVec 1) (hw : Finite w) : kMw mask t w ≠ ⊤ ∧ kMw mask t w ≠ ⊥ := by
  unfold kMw
  rcases Px.bit_cases mask with rfl | rfl
  · rw [Px.select_zero]; exact ⟨EReal.zero_ne_top, EReal.zero_ne_bot⟩
  · rw [Px.select_one]; exact Px.kPick_real t w hw

theorem kMwNll_finite (mask : BitVec 1) (hL : Finite L) (hw : Finite w) :
    kMw mask t w * kNll L t ≠ ⊤ ∧ kMw mask t w * kNll L t ≠ ⊥ := by
  obtain ⟨n, hn⟩ := Px.kNll_real L hL t
  have h := kMw_finite w t mask hw
  obtain ⟨x, hx⟩ : ∃ x : ℝ, kMw mask t w = (x : EReal) := ⟨_, (EReal.coe_toReal h.1 h.2).symm⟩
  rw [hx, hn, ← EReal.coe_mul]
  exact ⟨EReal.coe_ne_top _, EReal.coe_ne_bot _⟩

/-- The easy bucket: weight, and weight times nll. -/
theorem easy_mw (hL : Finite L) (ht : LabelOk t) : kMw (kEasy L t) t w = rMw (rEasy L t) t w := by
  rcases Px.label_cases ht with ⟨k, rfl⟩ | rfl
  · obtain ⟨hv, hrv, -, hcls⟩ := Px.class_facts k
    unfold kMw rMw kEasy rEasy
    rw [Px.kPick_class, hcls, hv, hrv, Px.conf_class L hL k]
  · unfold kMw rMw kEasy rEasy
    rw [Px.ignore_facts.1, Px.ignore_facts.2, Px.andi_zero_left, Px.andi_zero_left, Px.select_zero, Px.select_zero]
theorem easy_mwnll (hL : Finite L) (ht : LabelOk t) :
    kMw (kEasy L t) t w * kNll L t = rMw (rEasy L t) t w * rNll L t := by
  rw [easy_mw L w t hL ht]
  rcases Px.label_cases ht with ⟨k, rfl⟩ | rfl
  · obtain ⟨n, hk, hr⟩ := Px.nll_class L hL k
    rw [hk, hr]
  · unfold rMw rEasy
    rw [Px.ignore_facts.2, Px.andi_zero_left, Px.select_zero, zero_mul, zero_mul]

/-- The hard bucket. -/
theorem hard_mw (hL : Finite L) (ht : LabelOk t) : kMw (kHard L t) t w = rMw (rHard L t) t w := by
  rcases Px.label_cases ht with ⟨k, rfl⟩ | rfl
  · obtain ⟨hv, hrv, -, hcls⟩ := Px.class_facts k
    unfold kMw rMw kHard rHard
    rw [Px.kPick_class, hcls, hv, hrv, Px.conf_class L hL k]
  · unfold kMw rMw kHard rHard
    rw [Px.ignore_facts.1, Px.ignore_facts.2, Px.andi_zero_left, Px.andi_zero_left, Px.select_zero, Px.select_zero]
theorem hard_mwnll (hL : Finite L) (ht : LabelOk t) :
    kMw (kHard L t) t w * kNll L t = rMw (rHard L t) t w * rNll L t := by
  rw [hard_mw L w t hL ht]
  rcases Px.label_cases ht with ⟨k, rfl⟩ | rfl
  · obtain ⟨n, hk, hr⟩ := Px.nll_class L hL k
    rw [hk, hr]
  · unfold rMw rHard
    rw [Px.ignore_facts.2, Px.andi_zero_left, Px.select_zero, zero_mul, zero_mul]

/-- The middle bucket is what is valid and neither easy nor hard: the buckets partition the valid pixels because the
    lower threshold is below the upper one. -/
theorem mid_mw (hL : Finite L) (hw : Finite w) (ht : LabelOk t) :
    kMw (kValid t) t w = kMw (kEasy L t) t w + rMw (rMid L t) t w + kMw (kHard L t) t w := by
  rcases Px.label_cases ht with ⟨k, rfl⟩ | rfl
  · obtain ⟨hv, hrv, -, hcls⟩ := Px.class_facts k
    unfold kMw rMw kEasy rMid kHard
    rw [Px.kPick_class, hcls, hv, hrv, Px.conf_class L hL k, Px.select_one]
    exact Px.partition (rConf L _) (w k)
  · unfold kMw rMw kEasy rMid kHard
    rw [Px.ignore_facts.1, Px.ignore_facts.2]
    simp only [Px.andi_zero_left, Px.select_zero, add_zero]
theorem mid_mwnll (hL : Finite L) (hw : Finite w) (ht : LabelOk t) :
    kMw (kValid t) t w * kNll L t
      = kMw (kEasy L t) t w * kNll L t + rMw (rMid L t) t w * rNll L t + kMw (kHard L t) t w * kNll L t := by
  rcases Px.label_cases ht with ⟨k, rfl⟩ | rfl
  · obtain ⟨hv, hrv, -, hcls⟩ := Px.class_facts k
    obtain ⟨n, hk, hr⟩ := Px.nll_class L hL k
    unfold kMw rMw kEasy rMid kHard
    rw [hk, hr, Px.kPick_class, hcls, hv, hrv, Px.conf_class L hL k, Px.select_one]
    simp only [Px.select_mul]
    exact Px.partition (rConf L _) (w k * n)
  · unfold kMw rMw kEasy rMid kHard
    rw [Px.ignore_facts.1, Px.ignore_facts.2]
    simp only [Px.andi_zero_left, Px.select_zero, zero_mul, add_zero]
theorem rMid_finite (hL : Finite L) (hw : Finite w) (ht : LabelOk t) :
    (rMw (rMid L t) t w ≠ ⊤ ∧ rMw (rMid L t) t w ≠ ⊥)
      ∧ (rMw (rMid L t) t w * rNll L t ≠ ⊤ ∧ rMw (rMid L t) t w * rNll L t ≠ ⊥) := by
  have h1 : rMw (rMid L t) t w ≠ ⊤ ∧ rMw (rMid L t) t w ≠ ⊥ := by
    unfold rMw
    rcases Px.bit_cases (rMid L t) with h | h
    · rw [h, Px.select_zero]; exact ⟨EReal.zero_ne_top, EReal.zero_ne_bot⟩
    · rw [h, Px.select_one]; exact hw _
  refine ⟨h1, ?_⟩
  rcases Px.label_cases ht with ⟨k, rfl⟩ | rfl
  · obtain ⟨n, -, hr⟩ := Px.nll_class L hL k
    obtain ⟨x, hx⟩ : ∃ x : ℝ, rMw (rMid L (BitVec.ofNat 32 k.val)) (BitVec.ofNat 32 k.val) w = (x : EReal) :=
      ⟨_, (EReal.coe_toReal h1.1 h1.2).symm⟩
    rw [hx, hr, ← EReal.coe_mul]
    exact ⟨EReal.coe_ne_top _, EReal.coe_ne_bot _⟩
  · have h0 : rMw (rMid L 255#32) 255#32 w = 0 := by
      unfold rMw rMid
      rw [Px.ignore_facts.2, Px.andi_zero_left, Px.andi_zero_left, Px.select_zero]
    rw [h0, zero_mul]
    exact ⟨EReal.zero_ne_top, EReal.zero_ne_bot⟩

end Agree

/-! ## Sums -/

/-- Total minus two parts is the third part, for finite families summed over any finite index set. -/
theorem sum_sub_sub {ι : Type} (s : Finset ι) (f g k h : ι → EReal)
    (hg : ∀ i ∈ s, g i ≠ ⊤ ∧ g i ≠ ⊥) (hk : ∀ i ∈ s, k i ≠ ⊤ ∧ k i ≠ ⊥) (hh : ∀ i ∈ s, h i ≠ ⊤ ∧ h i ≠ ⊥)
    (hf : ∀ i ∈ s, f i = g i + k i + h i) :
    (∑ i ∈ s, f i) - (∑ i ∈ s, g i) - (∑ i ∈ s, h i) = ∑ i ∈ s, k i := by
  have key : ∀ u : ι → EReal, (∀ i ∈ s, u i ≠ ⊤ ∧ u i ≠ ⊥) →
      ∑ i ∈ s, u i = ((∑ i ∈ s, (u i).toReal : ℝ) : EReal) := by
    intro u hu
    rw [Px.coe_sum]
    exact Finset.sum_congr rfl (fun i hi => (EReal.coe_toReal (hu i hi).1 (hu i hi).2).symm)
  have hf' : ∑ i ∈ s, f i = ((∑ i ∈ s, ((g i).toReal + (k i).toReal + (h i).toReal) : ℝ) : EReal) := by
    rw [Px.coe_sum]
    refine Finset.sum_congr rfl (fun i hi => ?_)
    rw [hf i hi, EReal.coe_add, EReal.coe_add, EReal.coe_toReal (hg i hi).1 (hg i hi).2,
      EReal.coe_toReal (hk i hi).1 (hk i hi).2, EReal.coe_toReal (hh i hi).1 (hh i hi).2]
  rw [hf', key g hg, key k hk, key h hh, ← EReal.coe_sub, ← EReal.coe_sub]
  congr 1
  rw [Finset.sum_add_distrib, Finset.sum_add_distrib]
  ring

end OhemSpec

end
-- ==== Proof.BlockSpec.lean ====
/-
  What one grid point contributes, and what the whole grid leaves.

  A grid point sees the block of one image `n` and one band of 128 rows: logits `x0 (0, ch, a, b)`, labels
  `x1 (0, a, b)`, and the nineteen class weights `x2`. It adds into the image's 8 × 128 accumulator tile a tile that is
  zero except in row 0, columns 0 … 5, where it holds the band's sums of: easy weight, easy weight × nll, middle
  weight, middle weight × nll, hard weight, hard weight × nll — the middle ones formed as (all valid) − easy − hard.
-/
import proofs.«401014_j32229434589492_3_alg».proof.Proof.PixelSpec

noncomputable section

namespace OhemSpec

open Idealize.ShloMosaic Idealize.ShloMosaic.ValueIdx

/-- One block of logits: one image, all classes, 128 rows, 1024 columns. -/
abbrev SBlkL : Shape := ⟨4, ![1, 19, 128, 1024]⟩
/-- One block of labels. -/
abbrev SBlkT : Shape := ⟨3, ![1, 128, 1024]⟩
/-- The class weights. -/
abbrev SWts : Shape := ⟨1, ![19]⟩
/-- One image's accumulator tile. -/
abbrev STile : Shape := ⟨3, ![1, 8, 128]⟩

/-- The logits of the block's pixel `(a, b)`. -/
def blkL (x0 : SBlkL.Idx → EReal) (a : Fin 128) (b : Fin 1024) : Fin 19 → EReal := fun ch => x0 (ix4 0 ch a b)
/-- The label of the block's pixel `(a, b)`. -/
def blkT (x1 : SBlkT.Idx → BitVec 32) (a : Fin 128) (b : Fin 1024) : BitVec 32 := x1 (ix3 0 a b)
/-- The class weights as a family over the classes. -/
def wts (x2 : SWts.Idx → EReal) : Fin 19 → EReal := fun ch => x2 (ix1 ch)

/-- The kernel's six per-pixel quantities: easy, all valid, hard — the masked weight, and it times the nll. -/
def kE (w L : Fin 19 → EReal) (t : BitVec 32) : EReal := kMw (kEasy L t) t w
def kEN (w L : Fin 19 → EReal) (t : BitVec 32) : EReal := kMw (kEasy L t) t w * kNll L t
def kV (w L : Fin 19 → EReal) (t : BitVec 32) : EReal := kMw (kValid t) t w
def kVN (w L : Fin 19 → EReal) (t : BitVec 32) : EReal := kMw (kValid t) t w * kNll L t
def kH (w L : Fin 19 → EReal) (t : BitVec 32) : EReal := kMw (kHard L t) t w
def kHN (w L : Fin 19 → EReal) (t : BitVec 32) : EReal := kMw (kHard L t) t w * kNll L t

/-- The sum of a per-pixel quantity over a block's pixels, rows outermost. -/
def blkSum (f : (Fin 19 → EReal) → BitVec 32 → EReal) (x0 : SBlkL.Idx → EReal) (x1 : SBlkT.Idx → BitVec 32) : EReal :=
  ∑ a : Fin 128, ∑ b : Fin 1024, f (blkL x0 a b) (blkT x1 a b)

/-- Row 0 of the tile a grid point adds: six sums, then zeros. -/
def blockRow (x0 : SBlkL.Idx → EReal) (x1 : SBlkT.Idx → BitVec 32) (x2 : SWts.Idx → EReal) : ℕ → EReal
  | 0 => blkSum (kE (wts x2)) x0 x1
  | 1 => blkSum (kEN (wts x2)) x0 x1
  | 2 => blkSum (kV (wts x2)) x0 x1 - blkSum (kE (wts x2)) x0 x1 - blkSum (kH (wts x2)) x0 x1
  | 3 => blkSum (kVN (wts x2)) x0 x1 - blkSum (kEN (wts x2)) x0 x1 - blkSum (kHN (wts x2)) x0 x1
  | 4 => blkSum (kH (wts x2)) x0 x1
  | 5 => blkSum (kHN (wts x2)) x0 x1
  | _ => 0

/-- The tile a grid point adds into its image's accumulator. -/
def blockVec (x0 : SBlkL.Idx → EReal) (x1 : SBlkT.Idx → BitVec 32) (x2 : SWts.Idx → EReal) : STile.Idx → EReal :=
  fun y => if (y 1).val = 0 then blockRow x0 x1 x2 (y 2).val else 0

/-! ## The whole arrays -/

/-- All logits: eight images, nineteen classes, 512 rows, 1024 columns. -/
abbrev SImgL : Shape := ⟨4, ![8, 19, 512, 1024]⟩
/-- All labels. -/
abbrev SImgT : Shape := ⟨3, ![8, 512, 1024]⟩
/-- The pixels, flattened image-major, then row, then column. -/
abbrev SFlat : Shape := ⟨1, ![4194304]⟩

/-- Band `h` (rows `128 h … 128 h + 127`) of image `n`, as a block of logits. -/
def bandL (X0 : SImgL.Idx → EReal) (n : Fin 8) (h : Fin 4) : SBlkL.Idx → EReal := fun y =>
  X0 (ix4 n ⟨(y 1).val, (y 1).isLt⟩
    ⟨128 * h.val + (y 2).val, by have h2 : (y 2).val < 128 := (y 2).isLt; have := h.isLt; omega⟩ ⟨(y 3).val, (y 3).isLt⟩)
/-- Band `h` of image `n`, as a block of labels. -/
def bandT (X1 : SImgT.Idx → BitVec 32) (n : Fin 8) (h : Fin 4) : SBlkT.Idx → BitVec 32 := fun y =>
  X1 (ix3 n ⟨128 * h.val + (y 1).val, by have h1 : (y 1).val < 128 := (y 1).isLt; have := h.isLt; omega⟩ ⟨(y 2).val, (y 2).isLt⟩)

/-- Column `j` of what the kernel's accumulators hold in row 0, summed over the images: every band's contribution. -/
def kCol (X0 : SImgL.Idx → EReal) (X1 : SImgT.Idx → BitVec 32) (X2 : SWts.Idx → EReal) (j : ℕ) : EReal :=
  ∑ n : Fin 8, ∑ h : Fin 4, blockRow (bandL X0 n h) (bandT X1 n h) X2 j

/-- The image, row and column of a flat pixel index. -/
def flatN (p : SFlat.Idx) : Fin 8 := ⟨(p 0).val / 524288, by have h0 : (p 0).val < 4194304 := (p 0).isLt; omega⟩
def flatR (p : SFlat.Idx) : Fin 512 := ⟨(p 0).val / 1024 % 512, by omega⟩
def flatQ (p : SFlat.Idx) : Fin 1024 := ⟨(p 0).val % 1024, by omega⟩

/-- The logits and the label of a flat pixel. -/
def flatL (X0 : SImgL.Idx → EReal) (p : SFlat.Idx) : Fin 19 → EReal := fun ch => X0 (ix4 (flatN p) ch (flatR p) (flatQ p))
def flatT (X1 : SImgT.Idx → BitVec 32) (p : SFlat.Idx) : BitVec 32 := X1 (ix3 (flatN p) (flatR p) (flatQ p))

/-- The reference's six per-pixel quantities: easy, middle, hard — the masked weight, and it times the nll. -/
def rE (w L : Fin 19 → EReal) (t : BitVec 32) : EReal := rMw (rEasy L t) t w
def rEN (w L : Fin 19 → EReal) (t : BitVec 32) : EReal := rMw (rEasy L t) t w * rNll L t
def rM (w L : Fin 19 → EReal) (t : BitVec 32) : EReal := rMw (rMid L t) t w
def rMN (w L : Fin 19 → EReal) (t : BitVec 32) : EReal := rMw (rMid L t) t w * rNll L t
def rH (w L : Fin 19 → EReal) (t : BitVec 32) : EReal := rMw (rHard L t) t w
def rHN (w L : Fin 19 → EReal) (t : BitVec 32) : EReal := rMw (rHard L t) t w * rNll L t

/-- The sum of a per-pixel quantity over all pixels. -/
def flatSum (f : (Fin 19 → EReal) → BitVec 32 → EReal) (X0 : SImgL.Idx → EReal) (X1 : SImgT.Idx → BitVec 32) : EReal :=
  ∑ p : SFlat.Idx, f (flatL X0 p) (flatT X1 p)

/-- The reference's six sums, in the kernel's column order. -/
def rCol (X0 : SImgL.Idx → EReal) (X1 : SImgT.Idx → BitVec 32) (X2 : SWts.Idx → EReal) : ℕ → EReal
  | 0 => flatSum (rE (wts X2)) X0 X1
  | 1 => flatSum (rEN (wts X2)) X0 X1
  | 2 => flatSum (rM (wts X2)) X0 X1
  | 3 => flatSum (rMN (wts X2)) X0 X1
  | 4 => flatSum (rH (wts X2)) X0 X1
  | 5 => flatSum (rHN (wts X2)) X0 X1
  | _ => 0

/-- The floor under each bucket's total weight, the float nearest 1e-12. -/
abbrev floorW : EReal := Ideal.ofBits .f32 0x2B8CBCCC#32

/-- The loss from the six sums: each bucket's weighted-nll total over its weight total (floored), added easy, middle, hard. -/
def lossOf (c : ℕ → EReal) : EReal :=
  (Ideal.div (c 1) (max (c 0) floorW) + Ideal.div (c 3) (max (c 2) floorW)) + Ideal.div (c 5) (max (c 4) floorW)

/-- The loss depends on the first six columns only. -/
theorem lossOf_congr {c c' : ℕ → EReal} (h : ∀ j, j < 6 → c j = c' j) : lossOf c = lossOf c' := by
  unfold lossOf
  rw [h 0 (by omega), h 1 (by omega), h 2 (by omega), h 3 (by omega), h 4 (by omega), h 5 (by omega)]

end OhemSpec

end
-- ==== Proof.BodyPixel.lean ====
/-
  The tile a band contributes, read off the kernel body pixel by pixel.

  The body walks the nineteen class planes of its logits block three times — a running maximum, then the sum of
  `exp (logit - max)` together with a compare-and-select of the labelled class's logit and weight — forms the
  negative log-likelihood `(max + log sum) - logit`, its confidence, the three masks, and reduces six masked planes
  first along the columns, then along the rows; the two middle columns are differences of those sums. Read at one
  pixel each plane is one of `OhemSpec`'s kernel-side scalars of that pixel's logits, label and the weights; the
  reduced tile is `OhemSpec.blockVec`.
-/
import proofs.«401014_j32229434589492_3_alg».proof.Proof.Gen.KernelIdeal.Frame
import proofs.«401014_j32229434589492_3_alg».proof.Proof.BlockSpec
import Idealize.ShloMosaic.Lib.Pipeline.Value
import Idealize.ShloMosaic.Lib.ValueLayout
import Idealize.ShloMosaic.PureOps.Ideal.Laws

set_option maxRecDepth 16384

noncomputable section

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.BodyPixel

open Cert.KernelIdeal Cert.KernelIdeal.Gen OhemSpec

/-! ## Constants -/

/-- The word of minus infinity is the bottom of the extended reals. -/
theorem ofBits_ninf : Ideal.ofBits .f32 0xFF800000#32 = ⊥ := by simp [Ideal.ofBits, Ideal.ieee]

theorem sc_ninf : (Scalar.ofBits .f32 0xFF800000#32 : Ideal .f32) = ⊥ := ofBits_ninf

theorem sc_zero : (Scalar.ofBits .f32 0x00000000#32 : Ideal .f32) = 0 := Ideal.ofBits_zero_f32

/-! ## Pointwise operations read at an index -/

section Pointwise
variable {s : Shape} {φ : FTy}
theorem exp_apply (v : FVec Ideal s φ) (i : s.Idx) : exp v i = Ideal.exp (v i) := rfl
theorem log_apply (v : FVec Ideal s φ) (i : s.Idx) : log v i = Ideal.log (v i) := rfl
theorem cmpi_apply {w : ℕ} (p : CmpIPredicate) (v u : IVec s w) (i : s.Idx) : cmpi p v u i = IntOp.cmpi p (v i) (u i) := rfl
theorem andi_apply {w : ℕ} (v u : IVec s w) (i : s.Idx) : andi v u i = IntOp.andi (v i) (u i) := rfl
theorem maxsi_apply {w : ℕ} (v u : IVec s w) (i : s.Idx) : maxsi v u i = IntOp.maxsi (v i) (u i) := rfl
theorem minsi_apply {w : ℕ} (v u : IVec s w) (i : s.Idx) : minsi v u i = IntOp.minsi (v i) (u i) := rfl
theorem cmpfI_apply (p : CmpFPredicate) (v u : FVec Ideal s φ) (i : s.Idx) : cmpf p v u i = Ideal.cmp p (v i) (u i) := rfl
end Pointwise

/-! ## Loads -/

section Loads
variable (arg2 : Memref sig .tc .vmem S1x19x128x1024 .f32) (harg2 : arg2.IsWhole)
    (arg3 : Memref sig .tc .vmem S1x128x1024 .i32) (harg3 : arg3.IsWhole) (arg4 : Memref sig .tc .vmem S19 .f32) (harg4 : arg4.IsWhole)
    (x0 : Vec Ideal S1x19x128x1024 .f32) (x1 : Vec Ideal S1x128x1024 .i32) (x2 : Vec Ideal S19 .f32)

/-- The plane of class `ch` loaded from the logits block and squeezed to rows × columns holds, at a pixel, that
    pixel's logit of class `ch`. -/
theorem plane_gen (ch : Fin 19)
    (inb : ∀ a, (![0, ch.val, 0, 0] : Fin 4 → ℕ) a + S1x1x128x1024.size a ≤ S1x19x128x1024.size a)
    (a : Fin 128) (b : Fin 1024) :
    shapeCast S128x1024 (View.readAt (Elt Ideal) arg2.view
        (Rect.unit (s := S1x19x128x1024) ![0, ch.val, 0, 0] S1x1x128x1024.size inb).toLoadRect (harg2.unread x0))
      shapeCasts_S1x1x128x1024_S128x1024 (ix2 a b) = blkL x0 a b ch := by
  refine (shapeCast_apply _ shapeCasts_S1x1x128x1024_S128x1024 (ix2 a b) (ix4 (0 : Fin 1) (0 : Fin 1) a b) (by
    rw [Shape.rowMajor_val_four, Shape.rowMajor_val_two]
    show ((0 * 1 + 0) * 128 + a.val) * 1024 + b.val = a.val * 1024 + b.val
    omega)).trans ?_
  refine (congrFun (Memref.IsWhole.read_unread harg2 x0) _).trans ?_
  unfold blkL
  refine congrArg x0 (funext fun d => Fin.ext ?_)
  match d with
  | ⟨0, _⟩ => rfl
  | ⟨1, _⟩ => show ch.val + 1 * 0 = ch.val; omega
  | ⟨2, _⟩ => show 0 + 1 * a.val = a.val; omega
  | ⟨3, _⟩ => show 0 + 1 * b.val = b.val; omega

/-- The one-element load of class `ch`'s weight. -/
theorem wt_gen (ch : Fin 19) (inb : ∀ a, (![ch.val] : Fin 1 → ℕ) a + S1.size a ≤ S19.size a) :
    extractAt ![0] (View.readAt (Elt Ideal) arg4.view
        (Rect.unit (s := S19) ![ch.val] S1.size inb).toLoadRect (harg4.unread x2)) inpos_S1_p0 = wts x2 ch := by
  unfold extractAt
  refine (congrFun (Memref.IsWhole.read_unread harg4 x2) _).trans ?_
  unfold wts
  refine congrArg x2 (funext fun d => Fin.ext ?_)
  match d with
  | ⟨0, _⟩ => show ch.val + 1 * 0 = ch.val; omega

/-- The label plane at a pixel is the pixel's label. -/
theorem lab_apply (c : Dev nD) (a : Fin 128) (b : Fin 1024) :
    kernelRun0_B.sl.r (F := Ideal) c arg3 harg3 x1 (ix2 a b) = blkT x1 a b := by
  unfold kernelRun0_B.sl.r k0_pay3
  refine (shapeCast_1ab_ab_apply _ shapeCasts_S1x128x1024_S128x1024 a b).trans ?_
  refine (congrFun (Memref.IsWhole.read_unread harg3 x1) _).trans ?_
  unfold blkT
  refine congrArg x1 (funext fun d => Fin.ext ?_)
  match d with
  | ⟨0, _⟩ => rfl
  | ⟨1, _⟩ => show 0 + 1 * a.val = a.val; omega
  | ⟨2, _⟩ => show 0 + 1 * b.val = b.val; omega

/-- The clipped label plane at a pixel is the pixel's label clipped into the classes. -/
theorem clip_apply (c : Dev nD) (a : Fin 128) (b : Fin 1024) :
    kernelRun0_B.sl.r_1 (F := Ideal) c arg3 harg3 x1 (ix2 a b) = kClip (blkT x1 a b) := by
  have h := lab_apply arg3 harg3 x1 c a b
  unfold kernelRun0_B.sl.r at h
  unfold kernelRun0_B.sl.r_1 k0_pay4
  simp only [minsi_apply, maxsi_apply, broadcast_apply, h]
  rfl

/-! The nineteen class planes and the nineteen class weights, one statement per literal channel. -/
theorem pl0 (a : Fin 128) (b : Fin 1024) :
    shapeCast S128x1024 (View.readAt (Elt Ideal) arg2.view
        (Rect.unit (s := S1x19x128x1024) ![0, 0, 0, 0] S1x1x128x1024.size inb_S1x19x128x1024_S1x1x128x1024_0_0_0_0).toLoadRect (harg2.unread x0))
      shapeCasts_S1x1x128x1024_S128x1024 (ix2 a b) = blkL x0 a b 0 := plane_gen arg2 harg2 x0 0 _ a b
theorem pl1 (a : Fin 128) (b : Fin 1024) :
    shapeCast S128x1024 (View.readAt (Elt Ideal) arg2.view
        (Rect.unit (s := S1x19x128x1024) ![0, 1, 0, 0] S1x1x128x1024.size inb_S1x19x128x1024_S1x1x128x1024_0_1_0_0).toLoadRect (harg2.unread x0))
      shapeCasts_S1x1x128x1024_S128x1024 (ix2 a b) = blkL x0 a b 1 := plane_gen arg2 harg2 x0 1 _ a b
theorem pl2 (a : Fin 128) (b : Fin 1024) :
    shapeCast S128x1024 (View.readAt (Elt Ideal) arg2.view
        (Rect.unit (s := S1x19x128x1024) ![0, 2, 0, 0] S1x1x128x1024.size inb_S1x19x128x1024_S1x1x128x1024_0_2_0_0).toLoadRect (harg2.unread x0))
      shapeCasts_S1x1x128x1024_S128x1024 (ix2 a b) = blkL x0 a b 2 := plane_gen arg2 harg2 x0 2 _ a b
theorem pl3 (a : Fin 128) (b : Fin 1024) :
    shapeCast S128x1024 (View.readAt (Elt Ideal) arg2.view
        (Rect.unit (s := S1x19x128x1024) ![0, 3, 0, 0] S1x1x128x1024.size inb_S1x19x128x1024_S1x1x128x1024_0_3_0_0).toLoadRect (harg2.unread x0))
      shapeCasts_S1x1x128x1024_S128x1024 (ix2 a b) = blkL x0 a b 3 := plane_gen arg2 harg2 x0 3 _ a b
theorem pl4 (a : Fin 128) (b : Fin 1024) :
    shapeCast S128x1024 (View.readAt (Elt Ideal) arg2.view
        (Rect.unit (s := S1x19x128x1024) ![0, 4, 0, 0] S1x1x128x1024.size inb_S1x19x128x1024_S1x1x128x1024_0_4_0_0).toLoadRect (harg2.unread x0))
      shapeCasts_S1x1x128x1024_S128x1024 (ix2 a b) = blkL x0 a b 4 := plane_gen arg2 harg2 x0 4 _ a b
theorem pl5 (a : Fin 128) (b : Fin 1024) :
    shapeCast S128x1024 (View.readAt (Elt Ideal) arg2.view
        (Rect.unit (s := S1x19x128x1024) ![0, 5, 0, 0] S1x1x128x1024.size inb_S1x19x128x1024_S1x1x128x1024_0_5_0_0).toLoadRect (harg2.unread x0))
      shapeCasts_S1x1x128x1024_S128x1024 (ix2 a b) = blkL x0 a b 5 := plane_gen arg2 harg2 x0 5 _ a b
theorem pl6 (a : Fin 128) (b : Fin 1024) :
    shapeCast S128x1024 (View.readAt (Elt Ideal) arg2.view
        (Rect.unit (s := S1x19x128x1024) ![0, 6, 0, 0] S1x1x128x1024.size inb_S1x19x128x1024_S1x1x128x1024_0_6_0_0).toLoadRect (harg2.unread x0))
      shapeCasts_S1x1x128x1024_S128x1024 (ix2 a b) = blkL x0 a b 6 := plane_gen arg2 harg2 x0 6 _ a b
theorem pl7 (a : Fin 128) (b : Fin 1024) :
    shapeCast S128x1024 (View.readAt (Elt Ideal) arg2.view
        (Rect.unit (s := S1x19x128x1024) ![0, 7, 0, 0] S1x1x128x1024.size inb_S1x19x128x1024_S1x1x128x1024_0_7_0_0).toLoadRect (harg2.unread x0))
      shapeCasts_S1x1x128x1024_S128x1024 (ix2 a b) = blkL x0 a b 7 := plane_gen arg2 harg2 x0 7 _ a b
theorem pl8 (a : Fin 128) (b : Fin 1024) :
    shapeCast S128x1024 (View.readAt (Elt Ideal) arg2.view
        (Rect.unit (s := S1x19x128x1024) ![0, 8, 0, 0] S1x1x128x1024.size inb_S1x19x128x1024_S1x1x128x1024_0_8_0_0).toLoadRect (harg2.unread x0))
      shapeCasts_S1x1x128x1024_S128x1024 (ix2 a b) = blkL x0 a b 8 := plane_gen arg2 harg2 x0 8 _ a b
theorem pl9 (a : Fin 128) (b : Fin 1024) :
    shapeCast S128x1024 (View.readAt (Elt Ideal) arg2.view
        (Rect.unit (s := S1x19x128x1024) ![0, 9, 0, 0] S1x1x128x1024.size inb_S1x19x128x1024_S1x1x128x1024_0_9_0_0).toLoadRect (harg2.unread x0))
      shapeCasts_S1x1x128x1024_S128x1024 (ix2 a b) = blkL x0 a b 9 := plane_gen arg2 harg2 x0 9 _ a b
theorem pl10 (a : Fin 128) (b : Fin 1024) :
    shapeCast S128x1024 (View.readAt (Elt Ideal) arg2.view
        (Rect.unit (s := S1x19x128x1024) ![0, 10, 0, 0] S1x1x128x1024.size inb_S1x19x128x1024_S1x1x128x1024_0_10_0_0).toLoadRect (harg2.unread x0))
      shapeCasts_S1x1x128x1024_S128x1024 (ix2 a b) = blkL x0 a b 10 := plane_gen arg2 harg2 x0 10 _ a b
theorem pl11 (a : Fin 128) (b : Fin 1024) :
    shapeCast S128x1024 (View.readAt (Elt Ideal) arg2.view
        (Rect.unit (s := S1x19x128x1024) ![0, 11, 0, 0] S1x1x128x1024.size inb_S1x19x128x1024_S1x1x128x1024_0_11_0_0).toLoadRect (harg2.unread x0))
      shapeCasts_S1x1x128x1024_S128x1024 (ix2 a b) = blkL x0 a b 11 := plane_gen arg2 harg2 x0 11 _ a b
theorem pl12 (a : Fin 128) (b : Fin 1024) :
    shapeCast S128x1024 (View.readAt (Elt Ideal) arg2.view
        (Rect.unit (s := S1x19x128x1024) ![0, 12, 0, 0] S1x1x128x1024.size inb_S1x19x128x1024_S1x1x128x1024_0_12_0_0).toLoadRect (harg2.unread x0))
      shapeCasts_S1x1x128x1024_S128x1024 (ix2 a b) = blkL x0 a b 12 := plane_gen arg2 harg2 x0 12 _ a b
theorem pl13 (a : Fin 128) (b : Fin 1024) :
    shapeCast S128x1024 (View.readAt (Elt Ideal) arg2.view
        (Rect.unit (s := S1x19x128x1024) ![0, 13, 0, 0] S1x1x128x1024.size inb_S1x19x128x1024_S1x1x128x1024_0_13_0_0).toLoadRect (harg2.unread x0))
      shapeCasts_S1x1x128x1024_S128x1024 (ix2 a b) = blkL x0 a b 13 := plane_gen arg2 harg2 x0 13 _ a b
theorem pl14 (a : Fin 128) (b : Fin 1024) :
    shapeCast S128x1024 (View.readAt (Elt Ideal) arg2.view
        (Rect.unit (s := S1x19x128x1024) ![0, 14, 0, 0] S1x1x128x1024.size inb_S1x19x128x1024_S1x1x128x1024_0_14_0_0).toLoadRect (harg2.unread x0))
      shapeCasts_S1x1x128x1024_S128x1024 (ix2 a b) = blkL x0 a b 14 := plane_gen arg2 harg2 x0 14 _ a b
theorem pl15 (a : Fin 128) (b : Fin 1024) :
    shapeCast S128x1024 (View.readAt (Elt Ideal) arg2.view
        (Rect.unit (s := S1x19x128x1024) ![0, 15, 0, 0] S1x1x128x1024.size inb_S1x19x128x1024_S1x1x128x1024_0_15_0_0).toLoadRect (harg2.unread x0))
      shapeCasts_S1x1x128x1024_S128x1024 (ix2 a b) = blkL x0 a b 15 := plane_gen arg2 harg2 x0 15 _ a b
theorem pl16 (a : Fin 128) (b : Fin 1024) :
    shapeCast S128x1024 (View.readAt (Elt Ideal) arg2.view
        (Rect.unit (s := S1x19x128x1024) ![0, 16, 0, 0] S1x1x128x1024.size inb_S1x19x128x1024_S1x1x128x1024_0_16_0_0).toLoadRect (harg2.unread x0))
      shapeCasts_S1x1x128x1024_S128x1024 (ix2 a b) = blkL x0 a b 16 := plane_gen arg2 harg2 x0 16 _ a b
theorem pl17 (a : Fin 128) (b : Fin 1024) :
    shapeCast S128x1024 (View.readAt (Elt Ideal) arg2.view
        (Rect.unit (s := S1x19x128x1024) ![0, 17, 0, 0] S1x1x128x1024.size inb_S1x19x128x1024_S1x1x128x1024_0_17_0_0).toLoadRect (harg2.unread x0))
      shapeCasts_S1x1x128x1024_S128x1024 (ix2 a b) = blkL x0 a b 17 := plane_gen arg2 harg2 x0 17 _ a b
theorem pl18 (a : Fin 128) (b : Fin 1024) :
    shapeCast S128x1024 (View.readAt (Elt Ideal) arg2.view
        (Rect.unit (s := S1x19x128x1024) ![0, 18, 0, 0] S1x1x128x1024.size inb_S1x19x128x1024_S1x1x128x1024_0_18_0_0).toLoadRect (harg2.unread x0))
      shapeCasts_S1x1x128x1024_S128x1024 (ix2 a b) = blkL x0 a b 18 := plane_gen arg2 harg2 x0 18 _ a b

theorem wt0 :
    extractAt ![0] (View.readAt (Elt Ideal) arg4.view
        (Rect.unit (s := S19) ![0] S1.size inb_S19_S1_0).toLoadRect (harg4.unread x2)) inpos_S1_p0 = wts x2 0 := wt_gen arg4 harg4 x2 0 _
theorem wt1 :
    extractAt ![0] (View.readAt (Elt Ideal) arg4.view
        (Rect.unit (s := S19) ![1] S1.size inb_S19_S1_1).toLoadRect (harg4.unread x2)) inpos_S1_p0 = wts x2 1 := wt_gen arg4 harg4 x2 1 _
theorem wt2 :
    extractAt ![0] (View.readAt (Elt Ideal) arg4.view
        (Rect.unit (s := S19) ![2] S1.size inb_S19_S1_2).toLoadRect (harg4.unread x2)) inpos_S1_p0 = wts x2 2 := wt_gen arg4 harg4 x2 2 _
theorem wt3 :
    extractAt ![0] (View.readAt (Elt Ideal) arg4.view
        (Rect.unit (s := S19) ![3] S1.size inb_S19_S1_3).toLoadRect (harg4.unread x2)) inpos_S1_p0 = wts x2 3 := wt_gen arg4 harg4 x2 3 _
theorem wt4 :
    extractAt ![0] (View.readAt (Elt Ideal) arg4.view
        (Rect.unit (s := S19) ![4] S1.size inb_S19_S1_4).toLoadRect (harg4.unread x2)) inpos_S1_p0 = wts x2 4 := wt_gen arg4 harg4 x2 4 _
theorem wt5 :
    extractAt ![0] (View.readAt (Elt Ideal) arg4.view
        (Rect.unit (s := S19) ![5] S1.size inb_S19_S1_5).toLoadRect (harg4.unread x2)) inpos_S1_p0 = wts x2 5 := wt_gen arg4 harg4 x2 5 _
theorem wt6 :
    extractAt ![0] (View.readAt (Elt Ideal) arg4.view
        (Rect.unit (s := S19) ![6] S1.size inb_S19_S1_6).toLoadRect (harg4.unread x2)) inpos_S1_p0 = wts x2 6 := wt_gen arg4 harg4 x2 6 _
theorem wt7 :
    extractAt ![0] (View.readAt (Elt Ideal) arg4.view
        (Rect.unit (s := S19) ![7] S1.size inb_S19_S1_7).toLoadRect (harg4.unread x2)) inpos_S1_p0 = wts x2 7 := wt_gen arg4 harg4 x2 7 _
theorem wt8 :
    extractAt ![0] (View.readAt (Elt Ideal) arg4.view
        (Rect.unit (s := S19) ![8] S1.size inb_S19_S1_8).toLoadRect (harg4.unread x2)) inpos_S1_p0 = wts x2 8 := wt_gen arg4 harg4 x2 8 _
theorem wt9 :
    extractAt ![0] (View.readAt (Elt Ideal) arg4.view
        (Rect.unit (s := S19) ![9] S1.size inb_S19_S1_9).toLoadRect (harg4.unread x2)) inpos_S1_p0 = wts x2 9 := wt_gen arg4 harg4 x2 9 _
theorem wt10 :
    extractAt ![0] (View.readAt (Elt Ideal) arg4.view
        (Rect.unit (s := S19) ![10] S1.size inb_S19_S1_10).toLoadRect (harg4.unread x2)) inpos_S1_p0 = wts x2 10 := wt_gen arg4 harg4 x2 10 _
theorem wt11 :
    extractAt ![0] (View.readAt (Elt Ideal) arg4.view
        (Rect.unit (s := S19) ![11] S1.size inb_S19_S1_11).toLoadRect (harg4.unread x2)) inpos_S1_p0 = wts x2 11 := wt_gen arg4 harg4 x2 11 _
theorem wt12 :
    extractAt ![0] (View.readAt (Elt Ideal) arg4.view
        (Rect.unit (s := S19) ![12] S1.size inb_S19_S1_12).toLoadRect (harg4.unread x2)) inpos_S1_p0 = wts x2 12 := wt_gen arg4 harg4 x2 12 _
theorem wt13 :
    extractAt ![0] (View.readAt (Elt Ideal) arg4.view
        (Rect.unit (s := S19) ![13] S1.size inb_S19_S1_13).toLoadRect (harg4.unread x2)) inpos_S1_p0 = wts x2 13 := wt_gen arg4 harg4 x2 13 _
theorem wt14 :
    extractAt ![0] (View.readAt (Elt Ideal) arg4.view
        (Rect.unit (s := S19) ![14] S1.size inb_S19_S1_14).toLoadRect (harg4.unread x2)) inpos_S1_p0 = wts x2 14 := wt_gen arg4 harg4 x2 14 _
theorem wt15 :
    extractAt ![0] (View.readAt (Elt Ideal) arg4.view
        (Rect.unit (s := S19) ![15] S1.size inb_S19_S1_15).toLoadRect (harg4.unread x2)) inpos_S1_p0 = wts x2 15 := wt_gen arg4 harg4 x2 15 _
theorem wt16 :
    extractAt ![0] (View.readAt (Elt Ideal) arg4.view
        (Rect.unit (s := S19) ![16] S1.size inb_S19_S1_16).toLoadRect (harg4.unread x2)) inpos_S1_p0 = wts x2 16 := wt_gen arg4 harg4 x2 16 _
theorem wt17 :
    extractAt ![0] (View.readAt (Elt Ideal) arg4.view
        (Rect.unit (s := S19) ![17] S1.size inb_S19_S1_17).toLoadRect (harg4.unread x2)) inpos_S1_p0 = wts x2 17 := wt_gen arg4 harg4 x2 17 _
theorem wt18 :
    extractAt ![0] (View.readAt (Elt Ideal) arg4.view
        (Rect.unit (s := S19) ![18] S1.size inb_S19_S1_18).toLoadRect (harg4.unread x2)) inpos_S1_p0 = wts x2 18 := wt_gen arg4 harg4 x2 18 _

/-! ## The running maximum -/

theorem max3_apply (c : Dev nD) (a : Fin 128) (b : Fin 1024) :
    kernelRun0_B.sl.r_2 (F := Ideal) c arg2 harg2 x0 (ix2 a b)
      = ([0, 1, 2, 3] : List (Fin 19)).foldl (fun acc ch => max acc (blkL x0 a b ch)) ⊥ := by
  unfold kernelRun0_B.sl.r_2 k0_pay5
  simp only [maximumf_apply, broadcast_apply, pl0 arg2 harg2 x0, pl1 arg2 harg2 x0, pl2 arg2 harg2 x0, pl3 arg2 harg2 x0, pl4 arg2 harg2 x0, pl5 arg2 harg2 x0, pl6 arg2 harg2 x0, pl7 arg2 harg2 x0, pl8 arg2 harg2 x0, pl9 arg2 harg2 x0, pl10 arg2 harg2 x0, pl11 arg2 harg2 x0, pl12 arg2 harg2 x0, pl13 arg2 harg2 x0, pl14 arg2 harg2 x0, pl15 arg2 harg2 x0, pl16 arg2 harg2 x0, pl17 arg2 harg2 x0, pl18 arg2 harg2 x0, sc_ninf, List.foldl]

theorem pl4' (c : Dev nD) (a : Fin 128) (b : Fin 1024) :
    kernelRun0_B.sl.r_3 (F := Ideal) c arg2 harg2 x0 (ix2 a b) = blkL x0 a b 4 := by
  unfold kernelRun0_B.sl.r_3 k0_pay6
  exact pl4 arg2 harg2 x0 a b

theorem max11_apply (c : Dev nD) (a : Fin 128) (b : Fin 1024) :
    kernelRun0_B.sl.r_4 (F := Ideal) c arg2 harg2 x0 (ix2 a b)
      = ([0, 1, 2, 3, 4, 5, 6, 7, 8, 9, 10, 11] : List (Fin 19)).foldl (fun acc ch => max acc (blkL x0 a b ch)) ⊥ := by
  unfold kernelRun0_B.sl.r_4 k0_pay7
  simp only [maximumf_apply, broadcast_apply, pl0 arg2 harg2 x0, pl1 arg2 harg2 x0, pl2 arg2 harg2 x0, pl3 arg2 harg2 x0, pl4 arg2 harg2 x0, pl5 arg2 harg2 x0, pl6 arg2 harg2 x0, pl7 arg2 harg2 x0, pl8 arg2 harg2 x0, pl9 arg2 harg2 x0, pl10 arg2 harg2 x0, pl11 arg2 harg2 x0, pl12 arg2 harg2 x0, pl13 arg2 harg2 x0, pl14 arg2 harg2 x0, pl15 arg2 harg2 x0, pl16 arg2 harg2 x0, pl17 arg2 harg2 x0, pl18 arg2 harg2 x0, max3_apply arg2 harg2 x0, pl4' arg2 harg2 x0, List.foldl]

/-- The maximum plane at a pixel is the running maximum of the pixel's logits. -/
theorem max_apply (c : Dev nD) (a : Fin 128) (b : Fin 1024) :
    kernelRun0_B.sl.r_5 (F := Ideal) c arg2 harg2 x0 (ix2 a b) = kMax (blkL x0 a b) := by
  unfold kernelRun0_B.sl.r_5 k0_pay8
  simp only [maximumf_apply, broadcast_apply, pl0 arg2 harg2 x0, pl1 arg2 harg2 x0, pl2 arg2 harg2 x0, pl3 arg2 harg2 x0, pl4 arg2 harg2 x0, pl5 arg2 harg2 x0, pl6 arg2 harg2 x0, pl7 arg2 harg2 x0, pl8 arg2 harg2 x0, pl9 arg2 harg2 x0, pl10 arg2 harg2 x0, pl11 arg2 harg2 x0, pl12 arg2 harg2 x0, pl13 arg2 harg2 x0, pl14 arg2 harg2 x0, pl15 arg2 harg2 x0, pl16 arg2 harg2 x0, pl17 arg2 harg2 x0, pl18 arg2 harg2 x0, max11_apply arg2 harg2 x0, kMax, classes, List.foldl]

/-! ## The running sum of exponentials -/

theorem se2_apply (c : Dev nD) (a : Fin 128) (b : Fin 1024) :
    kernelRun0_B.sl.r_6 (F := Ideal) c arg2 harg2 x0 (ix2 a b)
      = ([0, 1, 2] : List (Fin 19)).foldl (fun acc ch => acc + Ideal.exp (blkL x0 a b ch - kMax (blkL x0 a b))) 0 := by
  unfold kernelRun0_B.sl.r_6 k0_pay17
  simp only [kernelRun0_B.sl.r_9, kernelRun0_B.sl.r_12, kernelRun0_B.sl.r_14, kernelRun0_B.sl.r_21, kernelRun0_B.sl.r_24, kernelRun0_B.sl.r_26, k0_pay9, k0_pay10, k0_pay11, k0_pay12, k0_pay13, k0_pay14, k0_pay15, k0_pay16, k0_pay18, k0_pay21, k0_pay22, k0_pay23, k0_pay24, k0_pay25, k0_pay26, k0_pay29, k0_pay31, k0_pay32, k0_pay33, k0_pay34, k0_pay35, k0_pay36, k0_pay38, k0_pay41, k0_pay42, k0_pay43, k0_pay44, k0_pay45, k0_pay47, k0_pay50, k0_pay51, k0_pay52, k0_pay53, k0_pay54, k0_pay55, k0_pay58, k0_pay60, k0_pay61, k0_pay62, maximumf_apply, addf_apply, subf_apply, mulf_apply, select_apply, cmpi_apply, cmpfI_apply, andi_apply, broadcast_apply, exp_apply, log_apply, sc_zero, sc_ninf, pl0 arg2 harg2 x0, pl1 arg2 harg2 x0, pl2 arg2 harg2 x0, pl3 arg2 harg2 x0, pl4 arg2 harg2 x0, pl5 arg2 harg2 x0, pl6 arg2 harg2 x0, pl7 arg2 harg2 x0, pl8 arg2 harg2 x0, pl9 arg2 harg2 x0, pl10 arg2 harg2 x0, pl11 arg2 harg2 x0, pl12 arg2 harg2 x0, pl13 arg2 harg2 x0, pl14 arg2 harg2 x0, pl15 arg2 harg2 x0, pl16 arg2 harg2 x0, pl17 arg2 harg2 x0, pl18 arg2 harg2 x0, max_apply arg2 harg2 x0, List.foldl] <;> rfl

theorem se6_apply (c : Dev nD) (a : Fin 128) (b : Fin 1024) :
    kernelRun0_B.sl.r_13 (F := Ideal) c arg2 harg2 x0 (ix2 a b)
      = ([0, 1, 2, 3, 4, 5, 6] : List (Fin 19)).foldl (fun acc ch => acc + Ideal.exp (blkL x0 a b ch - kMax (blkL x0 a b))) 0 := by
  unfold kernelRun0_B.sl.r_13 k0_pay30
  simp only [kernelRun0_B.sl.r_9, kernelRun0_B.sl.r_12, kernelRun0_B.sl.r_14, kernelRun0_B.sl.r_21, kernelRun0_B.sl.r_24, kernelRun0_B.sl.r_26, k0_pay9, k0_pay10, k0_pay11, k0_pay12, k0_pay13, k0_pay14, k0_pay15, k0_pay16, k0_pay18, k0_pay21, k0_pay22, k0_pay23, k0_pay24, k0_pay25, k0_pay26, k0_pay29, k0_pay31, k0_pay32, k0_pay33, k0_pay34, k0_pay35, k0_pay36, k0_pay38, k0_pay41, k0_pay42, k0_pay43, k0_pay44, k0_pay45, k0_pay47, k0_pay50, k0_pay51, k0_pay52, k0_pay53, k0_pay54, k0_pay55, k0_pay58, k0_pay60, k0_pay61, k0_pay62, maximumf_apply, addf_apply, subf_apply, mulf_apply, select_apply, cmpi_apply, cmpfI_apply, andi_apply, broadcast_apply, exp_apply, log_apply, sc_zero, sc_ninf, pl0 arg2 harg2 x0, pl1 arg2 harg2 x0, pl2 arg2 harg2 x0, pl3 arg2 harg2 x0, pl4 arg2 harg2 x0, pl5 arg2 harg2 x0, pl6 arg2 harg2 x0, pl7 arg2 harg2 x0, pl8 arg2 harg2 x0, pl9 arg2 harg2 x0, pl10 arg2 harg2 x0, pl11 arg2 harg2 x0, pl12 arg2 harg2 x0, pl13 arg2 harg2 x0, pl14 arg2 harg2 x0, pl15 arg2 harg2 x0, pl16 arg2 harg2 x0, pl17 arg2 harg2 x0, pl18 arg2 harg2 x0, max_apply arg2 harg2 x0, se2_apply arg2 harg2 x0, List.foldl] <;> rfl

theorem se9_apply (c : Dev nD) (a : Fin 128) (b : Fin 1024) :
    kernelRun0_B.sl.r_15 (F := Ideal) c arg2 harg2 x0 (ix2 a b)
      = ([0, 1, 2, 3, 4, 5, 6, 7, 8, 9] : List (Fin 19)).foldl (fun acc ch => acc + Ideal.exp (blkL x0 a b ch - kMax (blkL x0 a b))) 0 := by
  unfold kernelRun0_B.sl.r_15 k0_pay37
  simp only [kernelRun0_B.sl.r_9, kernelRun0_B.sl.r_12, kernelRun0_B.sl.r_14, kernelRun0_B.sl.r_21, kernelRun0_B.sl.r_24, kernelRun0_B.sl.r_26, k0_pay9, k0_pay10, k0_pay11, k0_pay12, k0_pay13, k0_pay14, k0_pay15, k0_pay16, k0_pay18, k0_pay21, k0_pay22, k0_pay23, k0_pay24, k0_pay25, k0_pay26, k0_pay29, k0_pay31, k0_pay32, k0_pay33, k0_pay34, k0_pay35, k0_pay36, k0_pay38, k0_pay41, k0_pay42, k0_pay43, k0_pay44, k0_pay45, k0_pay47, k0_pay50, k0_pay51, k0_pay52, k0_pay53, k0_pay54, k0_pay55, k0_pay58, k0_pay60, k0_pay61, k0_pay62, maximumf_apply, addf_apply, subf_apply, mulf_apply, select_apply, cmpi_apply, cmpfI_apply, andi_apply, broadcast_apply, exp_apply, log_apply, sc_zero, sc_ninf, pl0 arg2 harg2 x0, pl1 arg2 harg2 x0, pl2 arg2 harg2 x0, pl3 arg2 harg2 x0, pl4 arg2 harg2 x0, pl5 arg2 harg2 x0, pl6 arg2 harg2 x0, pl7 arg2 harg2 x0, pl8 arg2 harg2 x0, pl9 arg2 harg2 x0, pl10 arg2 harg2 x0, pl11 arg2 harg2 x0, pl12 arg2 harg2 x0, pl13 arg2 harg2 x0, pl14 arg2 harg2 x0, pl15 arg2 harg2 x0, pl16 arg2 harg2 x0, pl17 arg2 harg2 x0, pl18 arg2 harg2 x0, max_apply arg2 harg2 x0, se6_apply arg2 harg2 x0, List.foldl] <;> rfl

theorem se12_apply (c : Dev nD) (a : Fin 128) (b : Fin 1024) :
    kernelRun0_B.sl.r_18 (F := Ideal) c arg2 harg2 x0 (ix2 a b)
      = ([0, 1, 2, 3, 4, 5, 6, 7, 8, 9, 10, 11, 12] : List (Fin 19)).foldl (fun acc ch => acc + Ideal.exp (blkL x0 a b ch - kMax (blkL x0 a b))) 0 := by
  unfold kernelRun0_B.sl.r_18 k0_pay46
  simp only [kernelRun0_B.sl.r_9, kernelRun0_B.sl.r_12, kernelRun0_B.sl.r_14, kernelRun0_B.sl.r_21, kernelRun0_B.sl.r_24, kernelRun0_B.sl.r_26, k0_pay9, k0_pay10, k0_pay11, k0_pay12, k0_pay13, k0_pay14, k0_pay15, k0_pay16, k0_pay18, k0_pay21, k0_pay22, k0_pay23, k0_pay24, k0_pay25, k0_pay26, k0_pay29, k0_pay31, k0_pay32, k0_pay33, k0_pay34, k0_pay35, k0_pay36, k0_pay38, k0_pay41, k0_pay42, k0_pay43, k0_pay44, k0_pay45, k0_pay47, k0_pay50, k0_pay51, k0_pay52, k0_pay53, k0_pay54, k0_pay55, k0_pay58, k0_pay60, k0_pay61, k0_pay62, maximumf_apply, addf_apply, subf_apply, mulf_apply, select_apply, cmpi_apply, cmpfI_apply, andi_apply, broadcast_apply, exp_apply, log_apply, sc_zero, sc_ninf, pl0 arg2 harg2 x0, pl1 arg2 harg2 x0, pl2 arg2 harg2 x0, pl3 arg2 harg2 x0, pl4 arg2 harg2 x0, pl5 arg2 harg2 x0, pl6 arg2 harg2 x0, pl7 arg2 harg2 x0, pl8 arg2 harg2 x0, pl9 arg2 harg2 x0, pl10 arg2 harg2 x0, pl11 arg2 harg2 x0, pl12 arg2 harg2 x0, pl13 arg2 harg2 x0, pl14 arg2 harg2 x0, pl15 arg2 harg2 x0, pl16 arg2 harg2 x0, pl17 arg2 harg2 x0, pl18 arg2 harg2 x0, max_apply arg2 harg2 x0, se9_apply arg2 harg2 x0, List.foldl] <;> rfl

theorem se16_apply (c : Dev nD) (a : Fin 128) (b : Fin 1024) :
    kernelRun0_B.sl.r_25 (F := Ideal) c arg2 harg2 x0 (ix2 a b)
      = ([0, 1, 2, 3, 4, 5, 6, 7, 8, 9, 10, 11, 12, 13, 14, 15, 16] : List (Fin 19)).foldl (fun acc ch => acc + Ideal.exp (blkL x0 a b ch - kMax (blkL x0 a b))) 0 := by
  unfold kernelRun0_B.sl.r_25 k0_pay59
  simp only [kernelRun0_B.sl.r_9, kernelRun0_B.sl.r_12, kernelRun0_B.sl.r_14, kernelRun0_B.sl.r_21, kernelRun0_B.sl.r_24, kernelRun0_B.sl.r_26, k0_pay9, k0_pay10, k0_pay11, k0_pay12, k0_pay13, k0_pay14, k0_pay15, k0_pay16, k0_pay18, k0_pay21, k0_pay22, k0_pay23, k0_pay24, k0_pay25, k0_pay26, k0_pay29, k0_pay31, k0_pay32, k0_pay33, k0_pay34, k0_pay35, k0_pay36, k0_pay38, k0_pay41, k0_pay42, k0_pay43, k0_pay44, k0_pay45, k0_pay47, k0_pay50, k0_pay51, k0_pay52, k0_pay53, k0_pay54, k0_pay55, k0_pay58, k0_pay60, k0_pay61, k0_pay62, maximumf_apply, addf_apply, subf_apply, mulf_apply, select_apply, cmpi_apply, cmpfI_apply, andi_apply, broadcast_apply, exp_apply, log_apply, sc_zero, sc_ninf, pl0 arg2 harg2 x0, pl1 arg2 harg2 x0, pl2 arg2 harg2 x0, pl3 arg2 harg2 x0, pl4 arg2 harg2 x0, pl5 arg2 harg2 x0, pl6 arg2 harg2 x0, pl7 arg2 harg2 x0, pl8 arg2 harg2 x0, pl9 arg2 harg2 x0, pl10 arg2 harg2 x0, pl11 arg2 harg2 x0, pl12 arg2 harg2 x0, pl13 arg2 harg2 x0, pl14 arg2 harg2 x0, pl15 arg2 harg2 x0, pl16 arg2 harg2 x0, pl17 arg2 harg2 x0, pl18 arg2 harg2 x0, max_apply arg2 harg2 x0, se12_apply arg2 harg2 x0, List.foldl] <;> rfl

/-! ## The labelled class's logit, by compare and select -/

theorem pk2_apply (c : Dev nD) (a : Fin 128) (b : Fin 1024) :
    kernelRun0_B.sl.r_7 (F := Ideal) c arg2 harg2 arg3 harg3 x0 x1 (ix2 a b)
      = ([0, 1, 2] : List (Fin 19)).foldl (fun acc ch => Scalar.select (IntOp.cmpi .eq (kClip (blkT x1 a b)) (BitVec.ofNat 32 ch.val)) (blkL x0 a b ch) acc) 0 := by
  unfold kernelRun0_B.sl.r_7 k0_pay19
  simp only [kernelRun0_B.sl.r_9, kernelRun0_B.sl.r_12, kernelRun0_B.sl.r_14, kernelRun0_B.sl.r_21, kernelRun0_B.sl.r_24, kernelRun0_B.sl.r_26, k0_pay9, k0_pay10, k0_pay11, k0_pay12, k0_pay13, k0_pay14, k0_pay15, k0_pay16, k0_pay18, k0_pay21, k0_pay22, k0_pay23, k0_pay24, k0_pay25, k0_pay26, k0_pay29, k0_pay31, k0_pay32, k0_pay33, k0_pay34, k0_pay35, k0_pay36, k0_pay38, k0_pay41, k0_pay42, k0_pay43, k0_pay44, k0_pay45, k0_pay47, k0_pay50, k0_pay51, k0_pay52, k0_pay53, k0_pay54, k0_pay55, k0_pay58, k0_pay60, k0_pay61, k0_pay62, maximumf_apply, addf_apply, subf_apply, mulf_apply, select_apply, cmpi_apply, cmpfI_apply, andi_apply, broadcast_apply, exp_apply, log_apply, sc_zero, sc_ninf, pl0 arg2 harg2 x0, pl1 arg2 harg2 x0, pl2 arg2 harg2 x0, pl3 arg2 harg2 x0, pl4 arg2 harg2 x0, pl5 arg2 harg2 x0, pl6 arg2 harg2 x0, pl7 arg2 harg2 x0, pl8 arg2 harg2 x0, pl9 arg2 harg2 x0, pl10 arg2 harg2 x0, pl11 arg2 harg2 x0, pl12 arg2 harg2 x0, pl13 arg2 harg2 x0, pl14 arg2 harg2 x0, pl15 arg2 harg2 x0, pl16 arg2 harg2 x0, pl17 arg2 harg2 x0, pl18 arg2 harg2 x0, clip_apply arg3 harg3 x1, List.foldl] <;> rfl

theorem pk5_apply (c : Dev nD) (a : Fin 128) (b : Fin 1024) :
    kernelRun0_B.sl.r_10 (F := Ideal) c arg2 harg2 arg3 harg3 x0 x1 (ix2 a b)
      = ([0, 1, 2, 3, 4, 5] : List (Fin 19)).foldl (fun acc ch => Scalar.select (IntOp.cmpi .eq (kClip (blkT x1 a b)) (BitVec.ofNat 32 ch.val)) (blkL x0 a b ch) acc) 0 := by
  unfold kernelRun0_B.sl.r_10 k0_pay27
  simp only [kernelRun0_B.sl.r_9, kernelRun0_B.sl.r_12, kernelRun0_B.sl.r_14, kernelRun0_B.sl.r_21, kernelRun0_B.sl.r_24, kernelRun0_B.sl.r_26, k0_pay9, k0_pay10, k0_pay11, k0_pay12, k0_pay13, k0_pay14, k0_pay15, k0_pay16, k0_pay18, k0_pay21, k0_pay22, k0_pay23, k0_pay24, k0_pay25, k0_pay26, k0_pay29, k0_pay31, k0_pay32, k0_pay33, k0_pay34, k0_pay35, k0_pay36, k0_pay38, k0_pay41, k0_pay42, k0_pay43, k0_pay44, k0_pay45, k0_pay47, k0_pay50, k0_pay51, k0_pay52, k0_pay53, k0_pay54, k0_pay55, k0_pay58, k0_pay60, k0_pay61, k0_pay62, maximumf_apply, addf_apply, subf_apply, mulf_apply, select_apply, cmpi_apply, cmpfI_apply, andi_apply, broadcast_apply, exp_apply, log_apply, sc_zero, sc_ninf, pl0 arg2 harg2 x0, pl1 arg2 harg2 x0, pl2 arg2 harg2 x0, pl3 arg2 harg2 x0, pl4 arg2 harg2 x0, pl5 arg2 harg2 x0, pl6 arg2 harg2 x0, pl7 arg2 harg2 x0, pl8 arg2 harg2 x0, pl9 arg2 harg2 x0, pl10 arg2 harg2 x0, pl11 arg2 harg2 x0, pl12 arg2 harg2 x0, pl13 arg2 harg2 x0, pl14 arg2 harg2 x0, pl15 arg2 harg2 x0, pl16 arg2 harg2 x0, pl17 arg2 harg2 x0, pl18 arg2 harg2 x0, clip_apply arg3 harg3 x1, pk2_apply arg2 harg2 arg3 harg3 x0 x1, List.foldl] <;> rfl

theorem pk9_apply (c : Dev nD) (a : Fin 128) (b : Fin 1024) :
    kernelRun0_B.sl.r_16 (F := Ideal) c arg2 harg2 arg3 harg3 x0 x1 (ix2 a b)
      = ([0, 1, 2, 3, 4, 5, 6, 7, 8, 9] : List (Fin 19)).foldl (fun acc ch => Scalar.select (IntOp.cmpi .eq (kClip (blkT x1 a b)) (BitVec.ofNat 32 ch.val)) (blkL x0 a b ch) acc) 0 := by
  unfold kernelRun0_B.sl.r_16 k0_pay39
  simp only [kernelRun0_B.sl.r_9, kernelRun0_B.sl.r_12, kernelRun0_B.sl.r_14, kernelRun0_B.sl.r_21, kernelRun0_B.sl.r_24, kernelRun0_B.sl.r_26, k0_pay9, k0_pay10, k0_pay11, k0_pay12, k0_pay13, k0_pay14, k0_pay15, k0_pay16, k0_pay18, k0_pay21, k0_pay22, k0_pay23, k0_pay24, k0_pay25, k0_pay26, k0_pay29, k0_pay31, k0_pay32, k0_pay33, k0_pay34, k0_pay35, k0_pay36, k0_pay38, k0_pay41, k0_pay42, k0_pay43, k0_pay44, k0_pay45, k0_pay47, k0_pay50, k0_pay51, k0_pay52, k0_pay53, k0_pay54, k0_pay55, k0_pay58, k0_pay60, k0_pay61, k0_pay62, maximumf_apply, addf_apply, subf_apply, mulf_apply, select_apply, cmpi_apply, cmpfI_apply, andi_apply, broadcast_apply, exp_apply, log_apply, sc_zero, sc_ninf, pl0 arg2 harg2 x0, pl1 arg2 harg2 x0, pl2 arg2 harg2 x0, pl3 arg2 harg2 x0, pl4 arg2 harg2 x0, pl5 arg2 harg2 x0, pl6 arg2 harg2 x0, pl7 arg2 harg2 x0, pl8 arg2 harg2 x0, pl9 arg2 harg2 x0, pl10 arg2 harg2 x0, pl11 arg2 harg2 x0, pl12 arg2 harg2 x0, pl13 arg2 harg2 x0, pl14 arg2 harg2 x0, pl15 arg2 harg2 x0, pl16 arg2 harg2 x0, pl17 arg2 harg2 x0, pl18 arg2 harg2 x0, clip_apply arg3 harg3 x1, pk5_apply arg2 harg2 arg3 harg3 x0 x1, List.foldl] <;> rfl

theorem pk12_apply (c : Dev nD) (a : Fin 128) (b : Fin 1024) :
    kernelRun0_B.sl.r_19 (F := Ideal) c arg2 harg2 arg3 harg3 x0 x1 (ix2 a b)
      = ([0, 1, 2, 3, 4, 5, 6, 7, 8, 9, 10, 11, 12] : List (Fin 19)).foldl (fun acc ch => Scalar.select (IntOp.cmpi .eq (kClip (blkT x1 a b)) (BitVec.ofNat 32 ch.val)) (blkL x0 a b ch) acc) 0 := by
  unfold kernelRun0_B.sl.r_19 k0_pay48
  simp only [kernelRun0_B.sl.r_9, kernelRun0_B.sl.r_12, kernelRun0_B.sl.r_14, kernelRun0_B.sl.r_21, kernelRun0_B.sl.r_24, kernelRun0_B.sl.r_26, k0_pay9, k0_pay10, k0_pay11, k0_pay12, k0_pay13, k0_pay14, k0_pay15, k0_pay16, k0_pay18, k0_pay21, k0_pay22, k0_pay23, k0_pay24, k0_pay25, k0_pay26, k0_pay29, k0_pay31, k0_pay32, k0_pay33, k0_pay34, k0_pay35, k0_pay36, k0_pay38, k0_pay41, k0_pay42, k0_pay43, k0_pay44, k0_pay45, k0_pay47, k0_pay50, k0_pay51, k0_pay52, k0_pay53, k0_pay54, k0_pay55, k0_pay58, k0_pay60, k0_pay61, k0_pay62, maximumf_apply, addf_apply, subf_apply, mulf_apply, select_apply, cmpi_apply, cmpfI_apply, andi_apply, broadcast_apply, exp_apply, log_apply, sc_zero, sc_ninf, pl0 arg2 harg2 x0, pl1 arg2 harg2 x0, pl2 arg2 harg2 x0, pl3 arg2 harg2 x0, pl4 arg2 harg2 x0, pl5 arg2 harg2 x0, pl6 arg2 harg2 x0, pl7 arg2 harg2 x0, pl8 arg2 harg2 x0, pl9 arg2 harg2 x0, pl10 arg2 harg2 x0, pl11 arg2 harg2 x0, pl12 arg2 harg2 x0, pl13 arg2 harg2 x0, pl14 arg2 harg2 x0, pl15 arg2 harg2 x0, pl16 arg2 harg2 x0, pl17 arg2 harg2 x0, pl18 arg2 harg2 x0, clip_apply arg3 harg3 x1, pk9_apply arg2 harg2 arg3 harg3 x0 x1, List.foldl] <;> rfl

theorem pk15_apply (c : Dev nD) (a : Fin 128) (b : Fin 1024) :
    kernelRun0_B.sl.r_22 (F := Ideal) c arg2 harg2 arg3 harg3 x0 x1 (ix2 a b)
      = ([0, 1, 2, 3, 4, 5, 6, 7, 8, 9, 10, 11, 12, 13, 14, 15] : List (Fin 19)).foldl (fun acc ch => Scalar.select (IntOp.cmpi .eq (kClip (blkT x1 a b)) (BitVec.ofNat 32 ch.val)) (blkL x0 a b ch) acc) 0 := by
  unfold kernelRun0_B.sl.r_22 k0_pay56
  simp only [kernelRun0_B.sl.r_9, kernelRun0_B.sl.r_12, kernelRun0_B.sl.r_14, kernelRun0_B.sl.r_21, kernelRun0_B.sl.r_24, kernelRun0_B.sl.r_26, k0_pay9, k0_pay10, k0_pay11, k0_pay12, k0_pay13, k0_pay14, k0_pay15, k0_pay16, k0_pay18, k0_pay21, k0_pay22, k0_pay23, k0_pay24, k0_pay25, k0_pay26, k0_pay29, k0_pay31, k0_pay32, k0_pay33, k0_pay34, k0_pay35, k0_pay36, k0_pay38, k0_pay41, k0_pay42, k0_pay43, k0_pay44, k0_pay45, k0_pay47, k0_pay50, k0_pay51, k0_pay52, k0_pay53, k0_pay54, k0_pay55, k0_pay58, k0_pay60, k0_pay61, k0_pay62, maximumf_apply, addf_apply, subf_apply, mulf_apply, select_apply, cmpi_apply, cmpfI_apply, andi_apply, broadcast_apply, exp_apply, log_apply, sc_zero, sc_ninf, pl0 arg2 harg2 x0, pl1 arg2 harg2 x0, pl2 arg2 harg2 x0, pl3 arg2 harg2 x0, pl4 arg2 harg2 x0, pl5 arg2 harg2 x0, pl6 arg2 harg2 x0, pl7 arg2 harg2 x0, pl8 arg2 harg2 x0, pl9 arg2 harg2 x0, pl10 arg2 harg2 x0, pl11 arg2 harg2 x0, pl12 arg2 harg2 x0, pl13 arg2 harg2 x0, pl14 arg2 harg2 x0, pl15 arg2 harg2 x0, pl16 arg2 harg2 x0, pl17 arg2 harg2 x0, pl18 arg2 harg2 x0, clip_apply arg3 harg3 x1, pk12_apply arg2 harg2 arg3 harg3 x0 x1, List.foldl] <;> rfl

/-! ## The labelled class's weight, by compare and select -/

theorem wk2_apply (c : Dev nD) (a : Fin 128) (b : Fin 1024) :
    kernelRun0_B.sl.r_8 (F := Ideal) c arg3 harg3 arg4 harg4 x1 x2 (ix2 a b)
      = ([0, 1, 2] : List (Fin 19)).foldl (fun acc ch => Scalar.select (IntOp.cmpi .eq (kClip (blkT x1 a b)) (BitVec.ofNat 32 ch.val)) (wts x2 ch) acc) 0 := by
  unfold kernelRun0_B.sl.r_8 k0_pay20
  simp only [kernelRun0_B.sl.r_9, kernelRun0_B.sl.r_12, kernelRun0_B.sl.r_14, kernelRun0_B.sl.r_21, kernelRun0_B.sl.r_24, kernelRun0_B.sl.r_26, k0_pay9, k0_pay10, k0_pay11, k0_pay12, k0_pay13, k0_pay14, k0_pay15, k0_pay16, k0_pay18, k0_pay21, k0_pay22, k0_pay23, k0_pay24, k0_pay25, k0_pay26, k0_pay29, k0_pay31, k0_pay32, k0_pay33, k0_pay34, k0_pay35, k0_pay36, k0_pay38, k0_pay41, k0_pay42, k0_pay43, k0_pay44, k0_pay45, k0_pay47, k0_pay50, k0_pay51, k0_pay52, k0_pay53, k0_pay54, k0_pay55, k0_pay58, k0_pay60, k0_pay61, k0_pay62, maximumf_apply, addf_apply, subf_apply, mulf_apply, select_apply, cmpi_apply, cmpfI_apply, andi_apply, broadcast_apply, exp_apply, log_apply, sc_zero, sc_ninf, wt0 arg4 harg4 x2, wt1 arg4 harg4 x2, wt2 arg4 harg4 x2, wt3 arg4 harg4 x2, wt4 arg4 harg4 x2, wt5 arg4 harg4 x2, wt6 arg4 harg4 x2, wt7 arg4 harg4 x2, wt8 arg4 harg4 x2, wt9 arg4 harg4 x2, wt10 arg4 harg4 x2, wt11 arg4 harg4 x2, wt12 arg4 harg4 x2, wt13 arg4 harg4 x2, wt14 arg4 harg4 x2, wt15 arg4 harg4 x2, wt16 arg4 harg4 x2, wt17 arg4 harg4 x2, wt18 arg4 harg4 x2, clip_apply arg3 harg3 x1, List.foldl] <;> rfl

theorem wk5_apply (c : Dev nD) (a : Fin 128) (b : Fin 1024) :
    kernelRun0_B.sl.r_11 (F := Ideal) c arg3 harg3 arg4 harg4 x1 x2 (ix2 a b)
      = ([0, 1, 2, 3, 4, 5] : List (Fin 19)).foldl (fun acc ch => Scalar.select (IntOp.cmpi .eq (kClip (blkT x1 a b)) (BitVec.ofNat 32 ch.val)) (wts x2 ch) acc) 0 := by
  unfold kernelRun0_B.sl.r_11 k0_pay28
  simp only [kernelRun0_B.sl.r_9, kernelRun0_B.sl.r_12, kernelRun0_B.sl.r_14, kernelRun0_B.sl.r_21, kernelRun0_B.sl.r_24, kernelRun0_B.sl.r_26, k0_pay9, k0_pay10, k0_pay11, k0_pay12, k0_pay13, k0_pay14, k0_pay15, k0_pay16, k0_pay18, k0_pay21, k0_pay22, k0_pay23, k0_pay24, k0_pay25, k0_pay26, k0_pay29, k0_pay31, k0_pay32, k0_pay33, k0_pay34, k0_pay35, k0_pay36, k0_pay38, k0_pay41, k0_pay42, k0_pay43, k0_pay44, k0_pay45, k0_pay47, k0_pay50, k0_pay51, k0_pay52, k0_pay53, k0_pay54, k0_pay55, k0_pay58, k0_pay60, k0_pay61, k0_pay62, maximumf_apply, addf_apply, subf_apply, mulf_apply, select_apply, cmpi_apply, cmpfI_apply, andi_apply, broadcast_apply, exp_apply, log_apply, sc_zero, sc_ninf, wt0 arg4 harg4 x2, wt1 arg4 harg4 x2, wt2 arg4 harg4 x2, wt3 arg4 harg4 x2, wt4 arg4 harg4 x2, wt5 arg4 harg4 x2, wt6 arg4 harg4 x2, wt7 arg4 harg4 x2, wt8 arg4 harg4 x2, wt9 arg4 harg4 x2, wt10 arg4 harg4 x2, wt11 arg4 harg4 x2, wt12 arg4 harg4 x2, wt13 arg4 harg4 x2, wt14 arg4 harg4 x2, wt15 arg4 harg4 x2, wt16 arg4 harg4 x2, wt17 arg4 harg4 x2, wt18 arg4 harg4 x2, clip_apply arg3 harg3 x1, wk2_apply arg3 harg3 arg4 harg4 x1 x2, List.foldl] <;> rfl

theorem wk9_apply (c : Dev nD) (a : Fin 128) (b : Fin 1024) :
    kernelRun0_B.sl.r_17 (F := Ideal) c arg3 harg3 arg4 harg4 x1 x2 (ix2 a b)
      = ([0, 1, 2, 3, 4, 5, 6, 7, 8, 9] : List (Fin 19)).foldl (fun acc ch => Scalar.select (IntOp.cmpi .eq (kClip (blkT x1 a b)) (BitVec.ofNat 32 ch.val)) (wts x2 ch) acc) 0 := by
  unfold kernelRun0_B.sl.r_17 k0_pay40
  simp only [kernelRun0_B.sl.r_9, kernelRun0_B.sl.r_12, kernelRun0_B.sl.r_14, kernelRun0_B.sl.r_21, kernelRun0_B.sl.r_24, kernelRun0_B.sl.r_26, k0_pay9, k0_pay10, k0_pay11, k0_pay12, k0_pay13, k0_pay14, k0_pay15, k0_pay16, k0_pay18, k0_pay21, k0_pay22, k0_pay23, k0_pay24, k0_pay25, k0_pay26, k0_pay29, k0_pay31, k0_pay32, k0_pay33, k0_pay34, k0_pay35, k0_pay36, k0_pay38, k0_pay41, k0_pay42, k0_pay43, k0_pay44, k0_pay45, k0_pay47, k0_pay50, k0_pay51, k0_pay52, k0_pay53, k0_pay54, k0_pay55, k0_pay58, k0_pay60, k0_pay61, k0_pay62, maximumf_apply, addf_apply, subf_apply, mulf_apply, select_apply, cmpi_apply, cmpfI_apply, andi_apply, broadcast_apply, exp_apply, log_apply, sc_zero, sc_ninf, wt0 arg4 harg4 x2, wt1 arg4 harg4 x2, wt2 arg4 harg4 x2, wt3 arg4 harg4 x2, wt4 arg4 harg4 x2, wt5 arg4 harg4 x2, wt6 arg4 harg4 x2, wt7 arg4 harg4 x2, wt8 arg4 harg4 x2, wt9 arg4 harg4 x2, wt10 arg4 harg4 x2, wt11 arg4 harg4 x2, wt12 arg4 harg4 x2, wt13 arg4 harg4 x2, wt14 arg4 harg4 x2, wt15 arg4 harg4 x2, wt16 arg4 harg4 x2, wt17 arg4 harg4 x2, wt18 arg4 harg4 x2, clip_apply arg3 harg3 x1, wk5_apply arg3 harg3 arg4 harg4 x1 x2, List.foldl] <;> rfl

theorem wk12_apply (c : Dev nD) (a : Fin 128) (b : Fin 1024) :
    kernelRun0_B.sl.r_20 (F := Ideal) c arg3 harg3 arg4 harg4 x1 x2 (ix2 a b)
      = ([0, 1, 2, 3, 4, 5, 6, 7, 8, 9, 10, 11, 12] : List (Fin 19)).foldl (fun acc ch => Scalar.select (IntOp.cmpi .eq (kClip (blkT x1 a b)) (BitVec.ofNat 32 ch.val)) (wts x2 ch) acc) 0 := by
  unfold kernelRun0_B.sl.r_20 k0_pay49
  simp only [kernelRun0_B.sl.r_9, kernelRun0_B.sl.r_12, kernelRun0_B.sl.r_14, kernelRun0_B.sl.r_21, kernelRun0_B.sl.r_24, kernelRun0_B.sl.r_26, k0_pay9, k0_pay10, k0_pay11, k0_pay12, k0_pay13, k0_pay14, k0_pay15, k0_pay16, k0_pay18, k0_pay21, k0_pay22, k0_pay23, k0_pay24, k0_pay25, k0_pay26, k0_pay29, k0_pay31, k0_pay32, k0_pay33, k0_pay34, k0_pay35, k0_pay36, k0_pay38, k0_pay41, k0_pay42, k0_pay43, k0_pay44, k0_pay45, k0_pay47, k0_pay50, k0_pay51, k0_pay52, k0_pay53, k0_pay54, k0_pay55, k0_pay58, k0_pay60, k0_pay61, k0_pay62, maximumf_apply, addf_apply, subf_apply, mulf_apply, select_apply, cmpi_apply, cmpfI_apply, andi_apply, broadcast_apply, exp_apply, log_apply, sc_zero, sc_ninf, wt0 arg4 harg4 x2, wt1 arg4 harg4 x2, wt2 arg4 harg4 x2, wt3 arg4 harg4 x2, wt4 arg4 harg4 x2, wt5 arg4 harg4 x2, wt6 arg4 harg4 x2, wt7 arg4 harg4 x2, wt8 arg4 harg4 x2, wt9 arg4 harg4 x2, wt10 arg4 harg4 x2, wt11 arg4 harg4 x2, wt12 arg4 harg4 x2, wt13 arg4 harg4 x2, wt14 arg4 harg4 x2, wt15 arg4 harg4 x2, wt16 arg4 harg4 x2, wt17 arg4 harg4 x2, wt18 arg4 harg4 x2, clip_apply arg3 harg3 x1, wk9_apply arg3 harg3 arg4 harg4 x1 x2, List.foldl] <;> rfl

theorem wk15_apply (c : Dev nD) (a : Fin 128) (b : Fin 1024) :
    kernelRun0_B.sl.r_23 (F := Ideal) c arg3 harg3 arg4 harg4 x1 x2 (ix2 a b)
      = ([0, 1, 2, 3, 4, 5, 6, 7, 8, 9, 10, 11, 12, 13, 14, 15] : List (Fin 19)).foldl (fun acc ch => Scalar.select (IntOp.cmpi .eq (kClip (blkT x1 a b)) (BitVec.ofNat 32 ch.val)) (wts x2 ch) acc) 0 := by
  unfold kernelRun0_B.sl.r_23 k0_pay57
  simp only [kernelRun0_B.sl.r_9, kernelRun0_B.sl.r_12, kernelRun0_B.sl.r_14, kernelRun0_B.sl.r_21, kernelRun0_B.sl.r_24, kernelRun0_B.sl.r_26, k0_pay9, k0_pay10, k0_pay11, k0_pay12, k0_pay13, k0_pay14, k0_pay15, k0_pay16, k0_pay18, k0_pay21, k0_pay22, k0_pay23, k0_pay24, k0_pay25, k0_pay26, k0_pay29, k0_pay31, k0_pay32, k0_pay33, k0_pay34, k0_pay35, k0_pay36, k0_pay38, k0_pay41, k0_pay42, k0_pay43, k0_pay44, k0_pay45, k0_pay47, k0_pay50, k0_pay51, k0_pay52, k0_pay53, k0_pay54, k0_pay55, k0_pay58, k0_pay60, k0_pay61, k0_pay62, maximumf_apply, addf_apply, subf_apply, mulf_apply, select_apply, cmpi_apply, cmpfI_apply, andi_apply, broadcast_apply, exp_apply, log_apply, sc_zero, sc_ninf, wt0 arg4 harg4 x2, wt1 arg4 harg4 x2, wt2 arg4 harg4 x2, wt3 arg4 harg4 x2, wt4 arg4 harg4 x2, wt5 arg4 harg4 x2, wt6 arg4 harg4 x2, wt7 arg4 harg4 x2, wt8 arg4 harg4 x2, wt9 arg4 harg4 x2, wt10 arg4 harg4 x2, wt11 arg4 harg4 x2, wt12 arg4 harg4 x2, wt13 arg4 harg4 x2, wt14 arg4 harg4 x2, wt15 arg4 harg4 x2, wt16 arg4 harg4 x2, wt17 arg4 harg4 x2, wt18 arg4 harg4 x2, clip_apply arg3 harg3 x1, wk12_apply arg3 harg3 arg4 harg4 x1 x2, List.foldl] <;> rfl

/-- The weight plane at a pixel is the weight picked at the pixel's clipped label. -/
theorem wpick_apply (c : Dev nD) (a : Fin 128) (b : Fin 1024) :
    kernelRun0_B.sl.r_27 (F := Ideal) c arg3 harg3 arg4 harg4 x1 x2 (ix2 a b) = kPick (blkT x1 a b) (wts x2) := by
  unfold kernelRun0_B.sl.r_27 k0_pay63
  simp only [kernelRun0_B.sl.r_9, kernelRun0_B.sl.r_12, kernelRun0_B.sl.r_14, kernelRun0_B.sl.r_21, kernelRun0_B.sl.r_24, kernelRun0_B.sl.r_26, k0_pay9, k0_pay10, k0_pay11, k0_pay12, k0_pay13, k0_pay14, k0_pay15, k0_pay16, k0_pay18, k0_pay21, k0_pay22, k0_pay23, k0_pay24, k0_pay25, k0_pay26, k0_pay29, k0_pay31, k0_pay32, k0_pay33, k0_pay34, k0_pay35, k0_pay36, k0_pay38, k0_pay41, k0_pay42, k0_pay43, k0_pay44, k0_pay45, k0_pay47, k0_pay50, k0_pay51, k0_pay52, k0_pay53, k0_pay54, k0_pay55, k0_pay58, k0_pay60, k0_pay61, k0_pay62, maximumf_apply, addf_apply, subf_apply, mulf_apply, select_apply, cmpi_apply, cmpfI_apply, andi_apply, broadcast_apply, exp_apply, log_apply, sc_zero, sc_ninf, wt0 arg4 harg4 x2, wt1 arg4 harg4 x2, wt2 arg4 harg4 x2, wt3 arg4 harg4 x2, wt4 arg4 harg4 x2, wt5 arg4 harg4 x2, wt6 arg4 harg4 x2, wt7 arg4 harg4 x2, wt8 arg4 harg4 x2, wt9 arg4 harg4 x2, wt10 arg4 harg4 x2, wt11 arg4 harg4 x2, wt12 arg4 harg4 x2, wt13 arg4 harg4 x2, wt14 arg4 harg4 x2, wt15 arg4 harg4 x2, wt16 arg4 harg4 x2, wt17 arg4 harg4 x2, wt18 arg4 harg4 x2, clip_apply arg3 harg3 x1, wk15_apply arg3 harg3 arg4 harg4 x1 x2, kPick, classes, List.foldl] <;> rfl

/-! ## The negative log-likelihood, the confidence and the masks -/

/-- The nll plane at a pixel: the maximum plus the logarithm of the sum of exponentials, less the picked logit. -/
theorem nll_apply (c : Dev nD) (a : Fin 128) (b : Fin 1024) :
    kernelRun0_B.sl.r_28 (F := Ideal) c arg2 harg2 arg3 harg3 x0 x1 (ix2 a b) = kNll (blkL x0 a b) (blkT x1 a b) := by
  unfold kernelRun0_B.sl.r_28 k0_pay64
  simp only [kernelRun0_B.sl.r_9, kernelRun0_B.sl.r_12, kernelRun0_B.sl.r_14, kernelRun0_B.sl.r_21, kernelRun0_B.sl.r_24, kernelRun0_B.sl.r_26, k0_pay9, k0_pay10, k0_pay11, k0_pay12, k0_pay13, k0_pay14, k0_pay15, k0_pay16, k0_pay18, k0_pay21, k0_pay22, k0_pay23, k0_pay24, k0_pay25, k0_pay26, k0_pay29, k0_pay31, k0_pay32, k0_pay33, k0_pay34, k0_pay35, k0_pay36, k0_pay38, k0_pay41, k0_pay42, k0_pay43, k0_pay44, k0_pay45, k0_pay47, k0_pay50, k0_pay51, k0_pay52, k0_pay53, k0_pay54, k0_pay55, k0_pay58, k0_pay60, k0_pay61, k0_pay62, maximumf_apply, addf_apply, subf_apply, mulf_apply, select_apply, cmpi_apply, cmpfI_apply, andi_apply, broadcast_apply, exp_apply, log_apply, sc_zero, sc_ninf, pl0 arg2 harg2 x0, pl1 arg2 harg2 x0, pl2 arg2 harg2 x0, pl3 arg2 harg2 x0, pl4 arg2 harg2 x0, pl5 arg2 harg2 x0, pl6 arg2 harg2 x0, pl7 arg2 harg2 x0, pl8 arg2 harg2 x0, pl9 arg2 harg2 x0, pl10 arg2 harg2 x0, pl11 arg2 harg2 x0, pl12 arg2 harg2 x0, pl13 arg2 harg2 x0, pl14 arg2 harg2 x0, pl15 arg2 harg2 x0, pl16 arg2 harg2 x0, pl17 arg2 harg2 x0, pl18 arg2 harg2 x0, clip_apply arg3 harg3 x1, max_apply arg2 harg2 x0, se16_apply arg2 harg2 x0, pk15_apply arg2 harg2 arg3 harg3 x0 x1,
    kNll, kSumExp, kPick, classes, List.foldl] <;> rfl

theorem sc_ofBits (w : BitVec 32) : (Scalar.ofBits .f32 w : Ideal .f32) = Ideal.ofBits .f32 w := rfl

/-- The valid plane at a pixel: the label is not the ignore label. -/
theorem valid_apply (c : Dev nD) (a : Fin 128) (b : Fin 1024) :
    kernelRun0_B.sl.r_29 (F := Ideal) c arg3 harg3 x1 (ix2 a b) = kValid (blkT x1 a b) := by
  unfold kernelRun0_B.sl.r_29 k0_pay66
  simp only [cmpi_apply, broadcast_apply, lab_apply arg3 harg3 x1, kValid]

/-- The easy plane at a pixel: valid, and the confidence reaches the upper threshold. -/
theorem easy_apply (c : Dev nD) (a : Fin 128) (b : Fin 1024) :
    kernelRun0_B.sl.r_30 (F := Ideal) c arg2 harg2 arg3 harg3 x0 x1 (ix2 a b) = kEasy (blkL x0 a b) (blkT x1 a b) := by
  have h := nll_apply arg2 harg2 arg3 harg3 x0 x1 c a b
  unfold kernelRun0_B.sl.r_28 at h
  unfold kernelRun0_B.sl.r_30 k0_pay67 k0_pay66 k0_pay65
  simp only [maximumf_apply, addf_apply, subf_apply, mulf_apply, select_apply, cmpi_apply, cmpfI_apply, andi_apply, broadcast_apply, exp_apply, log_apply, sc_zero, sc_ninf, sc_ofBits, Ideal.ofBits_zero_f32, lab_apply arg3 harg3 x1, h, kEasy, kValid, kConf] <;> rfl

/-- The plane of pixels whose confidence is below the lower threshold. -/
theorem low_apply (c : Dev nD) (a : Fin 128) (b : Fin 1024) :
    kernelRun0_B.sl.r_31 (F := Ideal) c arg2 harg2 arg3 harg3 x0 x1 (ix2 a b)
      = Ideal.cmp .olt (kConf (blkL x0 a b) (blkT x1 a b)) thLo := by
  have h := nll_apply arg2 harg2 arg3 harg3 x0 x1 c a b
  unfold kernelRun0_B.sl.r_28 at h
  unfold kernelRun0_B.sl.r_31 k0_pay68 k0_pay65
  simp only [maximumf_apply, addf_apply, subf_apply, mulf_apply, select_apply, cmpi_apply, cmpfI_apply, andi_apply, broadcast_apply, exp_apply, log_apply, sc_zero, sc_ninf, sc_ofBits, Ideal.ofBits_zero_f32, h, kConf] <;> rfl

/-! ## The two-stage sum and the padded tile -/

/-- The sum of a plane over the pixel grid, rows outermost. -/
def gsum (v : FVec Ideal S128x1024 .f32) : EReal := ∑ a : Fin 128, ∑ b : Fin 1024, v (ix2 a b)

/-- Summing a plane along the columns, then along the rows, leaves its sum over the grid. -/
theorem sum2_apply (v : FVec Ideal S128x1024 .f32) (u w : Fin 1) :
    shapeCast S1x1 (multiReduction .add [0] S1
        (shapeCast S128x1 (multiReduction .add [1] S128 v 0x00000000#32 reduces_S128x1024_S128 (.inl rfl) rfl) shapeCasts_S128_S128x1)
        0x00000000#32 reduces_S128x1_S1 (.inl rfl) rfl) shapeCasts_S1_S1x1 (ix2 u w) = gsum v := by
  refine (shapeCast_a_1a_apply _ shapeCasts_S1_S1x1 u w).trans ?_
  refine (Ideal.multiReduction_add_single _ _ reduces_S128x1_S1 _ _ _).trans ?_
  unfold gsum
  refine Finset.sum_congr rfl fun a _ => ?_
  refine (shapeCast_apply _ shapeCasts_S128_S128x1 _ (ix1 (⟨a.val, a.isLt⟩ : Fin 128)) (by
    rw [Shape.rowMajor_val_two, Shape.rowMajor_val_one]
    show a.val = a.val * 1 + w.val
    omega)).trans ?_
  refine (Ideal.multiReduction_add_single _ _ reduces_S128x1024_S128 _ _ _).trans ?_
  refine Finset.sum_congr rfl fun b _ => ?_
  refine congrArg v (funext fun d => Fin.ext ?_)
  match d with
  | ⟨0, _⟩ => rfl
  | ⟨1, _⟩ => rfl

/-- A weight plane kept where a mask holds, zero elsewhere. -/
def mw (M : IVec S128x1024 1) (W : FVec Ideal S128x1024 .f32) : FVec Ideal S128x1024 .f32 :=
  select M W (broadcast S128x1024 (Scalar.ofBits .f32 0x00000000#32))

/-- Row 0 of the tile, from the weight plane `W`, the nll plane `N` and the masks valid `V`, easy `E`, unsure `H`. -/
def tileRow (W N : FVec Ideal S128x1024 .f32) (V E H : IVec S128x1024 1) : ℕ → EReal
  | 0 => gsum (mw E W)
  | 1 => gsum (mulf (mw E W) N)
  | 2 => gsum (mw V W) - gsum (mw E W) - gsum (mw (andi V H) W)
  | 3 => gsum (mulf (mw V W) N) - gsum (mulf (mw E W) N) - gsum (mulf (mw (andi V H) W) N)
  | 4 => gsum (mw (andi V H) W)
  | 5 => gsum (mulf (mw (andi V H) W) N)
  | _ => 0

/-- The padded tile over any planes: row 0 holds the six sums in columns 0 … 5, every other entry is zero. -/
theorem tile_gen (W N : FVec Ideal S128x1024 .f32) (V E H : IVec S128x1024 1) (r : Fin 8) (j : Fin 128) :
    k0_pay69 (F := Ideal) W N V E H (ix2 r j) = if r.val = 0 then tileRow W N V E H j.val else 0 := by
  unfold k0_pay69
  dsimp only
  by_cases hr : r.val = 0
  · rw [if_pos hr]
    refine (concatenate_pair_apply_left (t := S8x128) (s₁ := S1x128) (s₂ := S7x128) (0 : Fin 2) _ _ concatenates_S1x128_S7x128_S8x128_d0 (ix2 r j) rfl (ix2 (0 : Fin 1) j)
      (fun b => match b with | ⟨0, _⟩ => hr.symm | ⟨1, _⟩ => rfl)).trans ?_
    obtain ⟨jv, hjv⟩ := j
    match jv, hjv with
    | 0, _ =>
      refine (concatenate_pair_apply_left (t := S1x128) (s₁ := S1x6) (s₂ := S1x122) (1 : Fin 2) _ _ concatenates_S1x6_S1x122_S1x128_d1 _ rfl (ix2 (0 : Fin 1) (0 : Fin 6))
          (fun b => match b with | ⟨0, _⟩ => rfl | ⟨1, _⟩ => rfl)).trans ?_
      refine (concatenate_apply_piece (t := S1x6) (1 : Fin 2) _ _ _ 0 (by show 0 < 6; omega) S1x1 _ rfl rfl 0 rfl
          (ix2 (0 : Fin 1) (0 : Fin 1)) (fun b hb => match b, hb with | ⟨0, _⟩, _ => rfl | ⟨1, _⟩, hb => absurd rfl hb) rfl).trans ?_
      exact sum2_apply _ _ _
    | 1, _ =>
      refine (concatenate_pair_apply_left (t := S1x128) (s₁ := S1x6) (s₂ := S1x122) (1 : Fin 2) _ _ concatenates_S1x6_S1x122_S1x128_d1 _ rfl (ix2 (0 : Fin 1) (1 : Fin 6))
          (fun b => match b with | ⟨0, _⟩ => rfl | ⟨1, _⟩ => rfl)).trans ?_
      refine (concatenate_apply_piece (t := S1x6) (1 : Fin 2) _ _ _ 1 (by show 1 < 6; omega) S1x1 _ rfl rfl 1 rfl
          (ix2 (0 : Fin 1) (0 : Fin 1)) (fun b hb => match b, hb with | ⟨0, _⟩, _ => rfl | ⟨1, _⟩, hb => absurd rfl hb) rfl).trans ?_
      exact sum2_apply _ _ _
    | 2, _ =>
      refine (concatenate_pair_apply_left (t := S1x128) (s₁ := S1x6) (s₂ := S1x122) (1 : Fin 2) _ _ concatenates_S1x6_S1x122_S1x128_d1 _ rfl (ix2 (0 : Fin 1) (2 : Fin 6))
          (fun b => match b with | ⟨0, _⟩ => rfl | ⟨1, _⟩ => rfl)).trans ?_
      refine (concatenate_apply_piece (t := S1x6) (1 : Fin 2) _ _ _ 2 (by show 2 < 6; omega) S1x1 _ rfl rfl 2 rfl
          (ix2 (0 : Fin 1) (0 : Fin 1)) (fun b hb => match b, hb with | ⟨0, _⟩, _ => rfl | ⟨1, _⟩, hb => absurd rfl hb) rfl).trans ?_
      rw [subf_apply, subf_apply, sum2_apply, sum2_apply, sum2_apply]
      rfl
    | 3, _ =>
      refine (concatenate_pair_apply_left (t := S1x128) (s₁ := S1x6) (s₂ := S1x122) (1 : Fin 2) _ _ concatenates_S1x6_S1x122_S1x128_d1 _ rfl (ix2 (0 : Fin 1) (3 : Fin 6))
          (fun b => match b with | ⟨0, _⟩ => rfl | ⟨1, _⟩ => rfl)).trans ?_
      refine (concatenate_apply_piece (t := S1x6) (1 : Fin 2) _ _ _ 3 (by show 3 < 6; omega) S1x1 _ rfl rfl 3 rfl
          (ix2 (0 : Fin 1) (0 : Fin 1)) (fun b hb => match b, hb with | ⟨0, _⟩, _ => rfl | ⟨1, _⟩, hb => absurd rfl hb) rfl).trans ?_
      rw [subf_apply, subf_apply, sum2_apply, sum2_apply, sum2_apply]
      rfl
    | 4, _ =>
      refine (concatenate_pair_apply_left (t := S1x128) (s₁ := S1x6) (s₂ := S1x122) (1 : Fin 2) _ _ concatenates_S1x6_S1x122_S1x128_d1 _ rfl (ix2 (0 : Fin 1) (4 : Fin 6))
          (fun b => match b with | ⟨0, _⟩ => rfl | ⟨1, _⟩ => rfl)).trans ?_
      refine (concatenate_apply_piece (t := S1x6) (1 : Fin 2) _ _ _ 4 (by show 4 < 6; omega) S1x1 _ rfl rfl 4 rfl
          (ix2 (0 : Fin 1) (0 : Fin 1)) (fun b hb => match b, hb with | ⟨0, _⟩, _ => rfl | ⟨1, _⟩, hb => absurd rfl hb) rfl).trans ?_
      exact sum2_apply _ _ _
    | 5, _ =>
      refine (concatenate_pair_apply_left (t := S1x128) (s₁ := S1x6) (s₂ := S1x122) (1 : Fin 2) _ _ concatenates_S1x6_S1x122_S1x128_d1 _ rfl (ix2 (0 : Fin 1) (5 : Fin 6))
          (fun b => match b with | ⟨0, _⟩ => rfl | ⟨1, _⟩ => rfl)).trans ?_
      refine (concatenate_apply_piece (t := S1x6) (1 : Fin 2) _ _ _ 5 (by show 5 < 6; omega) S1x1 _ rfl rfl 5 rfl
          (ix2 (0 : Fin 1) (0 : Fin 1)) (fun b hb => match b, hb with | ⟨0, _⟩, _ => rfl | ⟨1, _⟩, hb => absurd rfl hb) rfl).trans ?_
      exact sum2_apply _ _ _
    | n + 6, hn =>
      refine (concatenate_pair_apply_right (t := S1x128) (s₁ := S1x6) (s₂ := S1x122) (1 : Fin 2) _ _ concatenates_S1x6_S1x122_S1x128_d1 _ rfl rfl
        (ix2 (0 : Fin 1) (⟨n, by omega⟩ : Fin 122))
        (fun b hb => match b, hb with | ⟨0, _⟩, _ => rfl | ⟨1, _⟩, hb => absurd rfl hb) rfl).trans ?_
      exact sc_zero
  · rw [if_neg hr]
    refine (concatenate_pair_apply_right (t := S8x128) (s₁ := S1x128) (s₂ := S7x128) (0 : Fin 2) _ _ concatenates_S1x128_S7x128_S8x128_d0 (ix2 r j) rfl rfl
      (ix2 (⟨r.val - 1, by have := r.isLt; omega⟩ : Fin 7) j)
      (fun b hb => match b, hb with | ⟨0, _⟩, hb => absurd rfl hb | ⟨1, _⟩, _ => rfl)
      (by show r.val - 1 + 1 = r.val; omega)).trans ?_
    exact sc_zero

/-- A plane that at every pixel is a quantity of that pixel's logits and label sums to the band's sum of it. -/
theorem gsum_congr (v : FVec Ideal S128x1024 .f32) (f : (Fin 19 → EReal) → BitVec 32 → EReal)
    (h : ∀ a b, v (ix2 a b) = f (blkL x0 a b) (blkT x1 a b)) : gsum v = blkSum f x0 x1 := by
  unfold gsum blkSum
  exact Finset.sum_congr rfl fun a _ => Finset.sum_congr rfl fun b _ => h a b

/-! ## The six sums -/

theorem sumE (c : Dev nD) : gsum (mw (kernelRun0_B.sl.r_30 (F := Ideal) c arg2 harg2 arg3 harg3 x0 x1) (kernelRun0_B.sl.r_27 (F := Ideal) c arg3 harg3 arg4 harg4 x1 x2)) = blkSum (kE (wts x2)) x0 x1 :=
  gsum_congr x0 x1 _ _ fun a b => by
    unfold mw
    simp only [select_apply, mulf_apply, andi_apply, broadcast_apply, sc_zero, wpick_apply arg3 harg3 arg4 harg4 x1 x2, easy_apply arg2 harg2 arg3 harg3 x0 x1, kE, kMw]

theorem sumEN (c : Dev nD) : gsum (mulf (mw (kernelRun0_B.sl.r_30 (F := Ideal) c arg2 harg2 arg3 harg3 x0 x1) (kernelRun0_B.sl.r_27 (F := Ideal) c arg3 harg3 arg4 harg4 x1 x2)) (kernelRun0_B.sl.r_28 (F := Ideal) c arg2 harg2 arg3 harg3 x0 x1)) = blkSum (kEN (wts x2)) x0 x1 :=
  gsum_congr x0 x1 _ _ fun a b => by
    unfold mw
    simp only [select_apply, mulf_apply, andi_apply, broadcast_apply, sc_zero, wpick_apply arg3 harg3 arg4 harg4 x1 x2, easy_apply arg2 harg2 arg3 harg3 x0 x1, nll_apply arg2 harg2 arg3 harg3 x0 x1, kEN, kMw]

theorem sumV (c : Dev nD) : gsum (mw (kernelRun0_B.sl.r_29 (F := Ideal) c arg3 harg3 x1) (kernelRun0_B.sl.r_27 (F := Ideal) c arg3 harg3 arg4 harg4 x1 x2)) = blkSum (kV (wts x2)) x0 x1 :=
  gsum_congr x0 x1 _ _ fun a b => by
    unfold mw
    simp only [select_apply, mulf_apply, andi_apply, broadcast_apply, sc_zero, wpick_apply arg3 harg3 arg4 harg4 x1 x2, valid_apply arg3 harg3 x1, kV, kMw]

theorem sumVN (c : Dev nD) : gsum (mulf (mw (kernelRun0_B.sl.r_29 (F := Ideal) c arg3 harg3 x1) (kernelRun0_B.sl.r_27 (F := Ideal) c arg3 harg3 arg4 harg4 x1 x2)) (kernelRun0_B.sl.r_28 (F := Ideal) c arg2 harg2 arg3 harg3 x0 x1)) = blkSum (kVN (wts x2)) x0 x1 :=
  gsum_congr x0 x1 _ _ fun a b => by
    unfold mw
    simp only [select_apply, mulf_apply, andi_apply, broadcast_apply, sc_zero, wpick_apply arg3 harg3 arg4 harg4 x1 x2, valid_apply arg3 harg3 x1, nll_apply arg2 harg2 arg3 harg3 x0 x1, kVN, kMw]

theorem sumH (c : Dev nD) : gsum (mw (andi (kernelRun0_B.sl.r_29 (F := Ideal) c arg3 harg3 x1) (kernelRun0_B.sl.r_31 (F := Ideal) c arg2 harg2 arg3 harg3 x0 x1)) (kernelRun0_B.sl.r_27 (F := Ideal) c arg3 harg3 arg4 harg4 x1 x2)) = blkSum (kH (wts x2)) x0 x1 :=
  gsum_congr x0 x1 _ _ fun a b => by
    unfold mw
    simp only [select_apply, mulf_apply, andi_apply, broadcast_apply, sc_zero, wpick_apply arg3 harg3 arg4 harg4 x1 x2, valid_apply arg3 harg3 x1, low_apply arg2 harg2 arg3 harg3 x0 x1, kH, kMw, kHard]

theorem sumHN (c : Dev nD) : gsum (mulf (mw (andi (kernelRun0_B.sl.r_29 (F := Ideal) c arg3 harg3 x1) (kernelRun0_B.sl.r_31 (F := Ideal) c arg2 harg2 arg3 harg3 x0 x1)) (kernelRun0_B.sl.r_27 (F := Ideal) c arg3 harg3 arg4 harg4 x1 x2)) (kernelRun0_B.sl.r_28 (F := Ideal) c arg2 harg2 arg3 harg3 x0 x1)) = blkSum (kHN (wts x2)) x0 x1 :=
  gsum_congr x0 x1 _ _ fun a b => by
    unfold mw
    simp only [select_apply, mulf_apply, andi_apply, broadcast_apply, sc_zero, wpick_apply arg3 harg3 arg4 harg4 x1 x2, valid_apply arg3 harg3 x1, low_apply arg2 harg2 arg3 harg3 x0 x1, nll_apply arg2 harg2 arg3 harg3 x0 x1, kHN, kMw, kHard]

/-! The rows of the two tiles, one equation per column. -/
section Rows
variable (W N : FVec Ideal S128x1024 .f32) (V E H : IVec S128x1024 1)
theorem tileRow_0 : tileRow W N V E H 0 = gsum (mw E W) := rfl
theorem tileRow_1 : tileRow W N V E H 1 = gsum (mulf (mw E W) N) := rfl
theorem tileRow_2 : tileRow W N V E H 2 = gsum (mw V W) - gsum (mw E W) - gsum (mw (andi V H) W) := rfl
theorem tileRow_3 : tileRow W N V E H 3
    = gsum (mulf (mw V W) N) - gsum (mulf (mw E W) N) - gsum (mulf (mw (andi V H) W) N) := rfl
theorem tileRow_4 : tileRow W N V E H 4 = gsum (mw (andi V H) W) := rfl
theorem tileRow_5 : tileRow W N V E H 5 = gsum (mulf (mw (andi V H) W) N) := rfl
theorem tileRow_ge (n : ℕ) : tileRow W N V E H (n + 6) = 0 := rfl
end Rows
theorem blockRow_0 : blockRow x0 x1 x2 0 = blkSum (kE (wts x2)) x0 x1 := rfl
theorem blockRow_1 : blockRow x0 x1 x2 1 = blkSum (kEN (wts x2)) x0 x1 := rfl
theorem blockRow_2 : blockRow x0 x1 x2 2
    = blkSum (kV (wts x2)) x0 x1 - blkSum (kE (wts x2)) x0 x1 - blkSum (kH (wts x2)) x0 x1 := rfl
theorem blockRow_3 : blockRow x0 x1 x2 3
    = blkSum (kVN (wts x2)) x0 x1 - blkSum (kEN (wts x2)) x0 x1 - blkSum (kHN (wts x2)) x0 x1 := rfl
theorem blockRow_4 : blockRow x0 x1 x2 4 = blkSum (kH (wts x2)) x0 x1 := rfl
theorem blockRow_5 : blockRow x0 x1 x2 5 = blkSum (kHN (wts x2)) x0 x1 := rfl
theorem blockRow_ge (n : ℕ) : blockRow x0 x1 x2 (n + 6) = 0 := rfl

/-- Row 0 of the tile over the run's planes is the band's row. -/
theorem tileRow_eq (c : Dev nD) (n : ℕ) :
    tileRow (kernelRun0_B.sl.r_27 (F := Ideal) c arg3 harg3 arg4 harg4 x1 x2) (kernelRun0_B.sl.r_28 (F := Ideal) c arg2 harg2 arg3 harg3 x0 x1) (kernelRun0_B.sl.r_29 (F := Ideal) c arg3 harg3 x1) (kernelRun0_B.sl.r_30 (F := Ideal) c arg2 harg2 arg3 harg3 x0 x1) (kernelRun0_B.sl.r_31 (F := Ideal) c arg2 harg2 arg3 harg3 x0 x1) n = blockRow x0 x1 x2 n := by
  match n with
  | 0 => rw [tileRow_0, blockRow_0]; exact sumE arg2 harg2 arg3 harg3 arg4 harg4 x0 x1 x2 c
  | 1 => rw [tileRow_1, blockRow_1]; exact sumEN arg2 harg2 arg3 harg3 arg4 harg4 x0 x1 x2 c
  | 2 => rw [tileRow_2, blockRow_2, sumV arg3 harg3 arg4 harg4 x0 x1 x2 c, sumE arg2 harg2 arg3 harg3 arg4 harg4 x0 x1 x2 c, sumH arg2 harg2 arg3 harg3 arg4 harg4 x0 x1 x2 c]
  | 3 => rw [tileRow_3, blockRow_3, sumVN arg2 harg2 arg3 harg3 arg4 harg4 x0 x1 x2 c, sumEN arg2 harg2 arg3 harg3 arg4 harg4 x0 x1 x2 c, sumHN arg2 harg2 arg3 harg3 arg4 harg4 x0 x1 x2 c]
  | 4 => rw [tileRow_4, blockRow_4]; exact sumH arg2 harg2 arg3 harg3 arg4 harg4 x0 x1 x2 c
  | 5 => rw [tileRow_5, blockRow_5]; exact sumHN arg2 harg2 arg3 harg3 arg4 harg4 x0 x1 x2 c
  | n + 6 => rw [tileRow_ge, blockRow_ge]

end Loads

/-- The 8 × 128 tile the body computes from its three input blocks is the band's tile. -/
theorem vec_eq (c : Dev nD) (arg2 : Memref sig .tc .vmem S1x19x128x1024 .f32) (harg2 : arg2.IsWhole)
    (arg3 : Memref sig .tc .vmem S1x128x1024 .i32) (harg3 : arg3.IsWhole) (arg4 : Memref sig .tc .vmem S19 .f32) (harg4 : arg4.IsWhole)
    (x0 : Vec Ideal S1x19x128x1024 .f32) (x1 : Vec Ideal S1x128x1024 .i32) (x2 : Vec Ideal S19 .f32) :
    kernelRun0_B.sl.r_32 (F := Ideal) c arg2 harg2 arg3 harg3 arg4 harg4 x0 x1 x2
      = fun y : S8x128.Idx => blockVec x0 x1 x2 (ix3 0 ⟨(y 0).val, (y 0).isLt⟩ ⟨(y 1).val, (y 1).isLt⟩) := by
  funext y
  have hy : y = ix2 (⟨(y 0).val, (y 0).isLt⟩ : Fin 8) (⟨(y 1).val, (y 1).isLt⟩ : Fin 128) := by
    funext d
    match d with
    | ⟨0, _⟩ => rfl
    | ⟨1, _⟩ => rfl
  unfold kernelRun0_B.sl.r_32
  refine (congrArg _ hy).trans ?_
  refine (tile_gen _ _ _ _ _ _ _).trans ?_
  unfold blockVec
  show (if (y 0).val = 0 then _ else 0) = if (y 0).val = 0 then blockRow x0 x1 x2 (y 1).val else 0
  rw [tileRow_eq arg2 harg2 arg3 harg3 arg4 harg4 x0 x1 x2 c]

end Cert.KernelIdeal.BodyPixel

end
-- ==== Proof.BodyValue.lean ====
/-
  What the kernel body leaves in its accumulator tile, at the extended reals.

  At a band that opens an image (its first of four) the body zeroes the tile and adds the band's tile; at the other
  bands it adds the band's tile to what the band before left. The band's tile is `OhemSpec.blockVec`: the per-pixel
  running maximum, sum of exponentials, per-class compare-and-select of logit and weight, the three masks, and the
  two-stage row-then-column sums, read pixel by pixel.
-/
import proofs.«401014_j32229434589492_3_alg».proof.Proof.BodyPixel

set_option maxRecDepth 16384

noncomputable section

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.BodyValue

open Cert.KernelIdeal Cert.KernelIdeal.Gen OhemSpec

/-- The tile is loaded and stored whole: through the rectangle at zero offsets. -/
theorem hz3 : (![0, 0, 0] : Fin 3 → Nat) = fun _ => 0 := funext fun a => by fin_cases a <;> rfl

/-- Whether or not the band opens an image, the body computes the band's tile by the same operations of the same
    loads. -/
theorem vecA_eq_vecB (c : Dev nD) (arg2 : Memref sig .tc .vmem S1x19x128x1024 .f32) (harg2 : arg2.IsWhole)
    (arg3 : Memref sig .tc .vmem S1x128x1024 .i32) (harg3 : arg3.IsWhole) (arg4 : Memref sig .tc .vmem S19 .f32) (harg4 : arg4.IsWhole)
    (x0 : Vec Ideal S1x19x128x1024 .f32) (x1 : Vec Ideal S1x128x1024 .i32) (x2 : Vec Ideal S19 .f32) :
    kernelRun0_A.sl.r_32 (F := Ideal) c arg2 harg2 arg3 harg3 arg4 harg4 x0 x1 x2
      = kernelRun0_B.sl.r_32 (F := Ideal) c arg2 harg2 arg3 harg3 arg4 harg4 x0 x1 x2 := rfl

/-- The accumulate step at one entry: the tile's entry `(u, r, q)` becomes the old entry plus the band's tile there
    (the 8 × 128 tile is added with its leading unit axis dropped, and the sum is given the axis back). -/
theorem accumulate_apply (x0 : Vec Ideal S1x19x128x1024 .f32) (x1 : Vec Ideal S1x128x1024 .i32) (x2 : Vec Ideal S19 .f32)
    (old : Vec Ideal S1x8x128 .f32) (y : S1x8x128.Idx) :
    k0_pay1 (F := Ideal) (fun y : S8x128.Idx => blockVec x0 x1 x2 (ix3 0 ⟨(y 0).val, (y 0).isLt⟩ ⟨(y 1).val, (y 1).isLt⟩)) old y
      = (old y : EReal) + blockVec x0 x1 x2 y := by
  obtain ⟨u, r, q, rfl⟩ : ∃ (u : Fin 1) (r : Fin 8) (q : Fin 128), y = ix3 u r q := ⟨y 0, y 1, y 2, eq_ix3 y⟩
  have hu : u = 0 := Subsingleton.elim _ _
  subst hu
  unfold k0_pay1
  dsimp only
  rw [shapeCast_ab_1ab_apply]
  show (shapeCast S8x128 old shapeCasts_S1x8x128_S8x128 (ix2 r q) : EReal) + _ = _
  rw [shapeCast_1ab_ab_apply]

/-- A band that opens an image leaves the band's tile (added to the zero tile). -/
theorem out_A (c : Dev nD) (i : grid0.Coords) (arg2 : Memref sig .tc .vmem S1x19x128x1024 .f32) (harg2 : arg2.IsWhole)
    (arg3 : Memref sig .tc .vmem S1x128x1024 .i32) (harg3 : arg3.IsWhole) (arg4 : Memref sig .tc .vmem S19 .f32) (harg4 : arg4.IsWhole)
    (arg5 : Memref sig .tc .vmem S1x8x128 .f32) (harg5 : arg5.IsWhole) (hc0 : cond0_0 i)
    (x0 : Vec Ideal S1x19x128x1024 .f32) (x1 : Vec Ideal S1x128x1024 .i32) (x2 : Vec Ideal S19 .f32) :
    out0_A_3 c i arg2 harg2 arg3 harg3 arg4 harg4 arg5 harg5 hc0 x0 x1 x2 = blockVec x0 x1 x2 := by
  unfold out0_A_3
  rw [View.read_writes_eq_canon _ _ _ (cover0_A_3 c i arg2 harg2 arg3 harg3 arg4 harg4 arg5 harg5 hc0 x0 x1 x2)]
  unfold kernelRun0_A
  dsimp only
  rw [View.canon_cons_unit_zero (S := S1x8x128) hz3, vecA_eq_vecB, BodyPixel.vec_eq]
  unfold kernelRun0_A.sl.v411 kernelRun0_A.sl.H3_1
  rw [View.readCov_unit_zero (S := S1x8x128) _ hz3]
  funext y
  rw [accumulate_apply]
  -- the tile read back after the reset is zero at every entry
  have h0 : (k0_pay2 (F := Ideal) y : EReal) = 0 := by
    obtain ⟨u, r, q, rfl⟩ : ∃ (u : Fin 1) (r : Fin 8) (q : Fin 128), y = ix3 u r q := ⟨y 0, y 1, y 2, eq_ix3 y⟩
    unfold k0_pay2
    rw [shapeCast_ab_1ab_apply]
    exact Ideal.ofBits_zero_f32
  rw [h0, zero_add]

/-- Any other band adds its tile to what the tile held. -/
theorem out_B (c : Dev nD) (i : grid0.Coords) (arg2 : Memref sig .tc .vmem S1x19x128x1024 .f32) (harg2 : arg2.IsWhole)
    (arg3 : Memref sig .tc .vmem S1x128x1024 .i32) (harg3 : arg3.IsWhole) (arg4 : Memref sig .tc .vmem S19 .f32) (harg4 : arg4.IsWhole)
    (arg5 : Memref sig .tc .vmem S1x8x128 .f32) (harg5 : arg5.IsWhole) (hc0 : ¬cond0_0 i)
    (x0 : Vec Ideal S1x19x128x1024 .f32) (x1 : Vec Ideal S1x128x1024 .i32) (x2 : Vec Ideal S19 .f32) (xo3 : Vec Ideal S1x8x128 .f32) :
    out0_B_3 c i arg2 harg2 arg3 harg3 arg4 harg4 arg5 harg5 hc0 x0 x1 x2 xo3 = fun y => (xo3 y : EReal) + blockVec x0 x1 x2 y := by
  unfold out0_B_3
  rw [View.read_writes_eq_canon _ _ _ (cover0_B_3 c i arg2 harg2 arg3 harg3 arg4 harg4 arg5 harg5 hc0 x0 x1 x2 xo3)]
  unfold kernelRun0_B
  dsimp only
  rw [View.canon_unit_zero hz3, BodyPixel.vec_eq]
  simp only [View.readAt_eq_ld, harg5.read_unread, View.ld_unit_zero (S := S1x8x128) hz3]
  funext y
  exact accumulate_apply x0 x1 x2 xo3 y

end Cert.KernelIdeal.BodyValue

end
-- ==== Proof.KernelArray.lean ====
/-
  What the accumulator array holds when the grid is done.

  The grid runs image by image, and within an image band by band (point `4 n + h` is band `h` of image `n`). Each
  point's three input blocks are the band's logits, the band's labels, and all the weights. The image's tile is
  reset at its first band, accumulated over its four bands, and written back after the fourth: so tile `n` of the
  result array ends as the sum of image `n`'s four band tiles.
-/
import proofs.«401014_j32229434589492_3_alg».proof.Proof.BodyValue

set_option maxRecDepth 16384

noncomputable section

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.ArrayValue

open Cert.KernelIdeal Cert.KernelIdeal.Gen OhemSpec

variable (m : (ℓ : Loc nD τ sig) → Buf (Elt Ideal) ℓ)

/-- The three argument arrays as the region finds them. -/
abbrev X0 (c : Dev nD) : Vec Ideal S8x19x512x1024 .f32 := m ((c.tc : Thread nD τ).loc main_arg0)
abbrev X1 (c : Dev nD) : Vec Ideal S8x512x1024 .i32 := m ((c.tc : Thread nD τ).loc main_arg1)
abbrev X2 (c : Dev nD) : Vec Ideal S19 .f32 := m ((c.tc : Thread nD τ).loc main_arg2)

/-- The three input blocks at a grid point, at their literal types. -/
abbrev lblk (c : Dev nD) (t : Fin cfg0.N) : Vec Ideal S1x19x128x1024 .f32 := iblk m c 0 t
abbrev tblk (c : Dev nD) (t : Fin cfg0.N) : Vec Ideal S1x128x1024 .i32 := iblk m c 1 t
abbrev wblk (c : Dev nD) (t : Fin cfg0.N) : Vec Ideal S19 .f32 := iblk m c 2 t

/-- Grid point `4 n + h`: band `h` of image `n`. -/
def pt (n : Fin 8) (h : Fin 4) : Fin cfg0.N := ⟨4 * n.val + h.val, by rw [show cfg0.N = 32 from N_0]; omega⟩

/-- Where each block sits at grid point `t`: the logits block at image `t / 4`, class block 0, row band `t % 4`,
    column block 0; the labels block at image `t / 4`, row band `t % 4`, column block 0; the weights block at 0;
    the result tile at image `t / 4`, row block 0, column block 0. -/
theorem idx_facts : ∀ t : Fin cfg0.N,
    win0_0.index t (0 : Fin 4) = t.val / 4 ∧ win0_0.index t (1 : Fin 4) = 0 ∧ win0_0.index t (2 : Fin 4) = t.val % 4
    ∧ win0_0.index t (3 : Fin 4) = 0
    ∧ win0_1.index t (0 : Fin 3) = t.val / 4 ∧ win0_1.index t (1 : Fin 3) = t.val % 4 ∧ win0_1.index t (2 : Fin 3) = 0
    ∧ win0_2.index t (0 : Fin 1) = 0
    ∧ win0_3.index t (0 : Fin 3) = t.val / 4 ∧ win0_3.index t (1 : Fin 3) = 0 ∧ win0_3.index t (2 : Fin 3) = 0 :=
  (by decide +kernel : ∀ t : Fin grid0.N, _)

/-- Point `pt n h` is the number `4 n + h`. -/
theorem pt_val (n : Fin 8) (h : Fin 4) : (pt n h).val = 4 * n.val + h.val := by unfold pt; rfl

/-- The logits block at band `h` of image `n` is that band of the logits array. -/
theorem lblk_eq (c : Dev nD) (n : Fin 8) (h : Fin 4) : lblk m c (pt n h) = bandL (X0 m c) n h := by
  obtain ⟨e0, e1, e2, e3, -⟩ := idx_facts (pt n h)
  rw [pt_val] at e0 e2
  have hn := n.isLt
  have hh := h.isLt
  funext j
  delta lblk iblk bandL
  rw [View.read_apply]
  show V m c main_arg0 _ = m (c.tc.loc main_arg0) _
  refine congrArg (m (c.tc.loc main_arg0)) (funext fun a => Fin.ext ?_)
  match a with
  | ⟨0, _⟩ => show win0_0.index (pt n h) (0 : Fin 4) * 1 + 1 * (j 0).val = n.val
              have h0 : (j 0).val < 1 := (j 0).isLt
              rw [e0]; omega
  | ⟨1, _⟩ => show win0_0.index (pt n h) (1 : Fin 4) * 19 + 1 * (j 1).val = (j 1).val
              rw [e1]; omega
  | ⟨2, _⟩ => show win0_0.index (pt n h) (2 : Fin 4) * 128 + 1 * (j 2).val = 128 * h.val + (j 2).val
              rw [e2]; omega
  | ⟨3, _⟩ => show win0_0.index (pt n h) (3 : Fin 4) * 1024 + 1 * (j 3).val = (j 3).val
              rw [e3]; omega
/-- The labels block likewise. -/
theorem tblk_eq (c : Dev nD) (n : Fin 8) (h : Fin 4) : tblk m c (pt n h) = bandT (X1 m c) n h := by
  obtain ⟨-, -, -, -, e0, e1, e2, -⟩ := idx_facts (pt n h)
  rw [pt_val] at e0 e1
  have hn := n.isLt
  have hh := h.isLt
  funext j
  delta tblk iblk bandT
  rw [View.read_apply]
  show V m c main_arg1 _ = m (c.tc.loc main_arg1) _
  refine congrArg (m (c.tc.loc main_arg1)) (funext fun a => Fin.ext ?_)
  match a with
  | ⟨0, _⟩ => show win0_1.index (pt n h) (0 : Fin 3) * 1 + 1 * (j 0).val = n.val
              have h0 : (j 0).val < 1 := (j 0).isLt
              rw [e0]; omega
  | ⟨1, _⟩ => show win0_1.index (pt n h) (1 : Fin 3) * 128 + 1 * (j 1).val = 128 * h.val + (j 1).val
              rw [e1]; omega
  | ⟨2, _⟩ => show win0_1.index (pt n h) (2 : Fin 3) * 1024 + 1 * (j 2).val = (j 2).val
              rw [e2]; omega
/-- The weights block is all the weights, at every point. -/
theorem wblk_eq (c : Dev nD) (t : Fin cfg0.N) : wblk m c t = X2 m c := by
  obtain ⟨-, -, -, -, -, -, -, e0, -⟩ := idx_facts t
  funext j
  delta wblk iblk
  rw [View.read_apply]
  show V m c main_arg2 _ = m (c.tc.loc main_arg2) _
  refine congrArg (m (c.tc.loc main_arg2)) (funext fun a => Fin.ext ?_)
  match a with
  | ⟨0, _⟩ => show win0_2.index t (0 : Fin 1) * 19 + 1 * (j 0).val = (j 0).val
              rw [e0]; omega

/-- What the result array ends holding: tile `n` is the sum of image `n`'s four band tiles. -/
def accSum (c : Dev nD) : S8x8x128.Idx → EReal := fun i =>
  ∑ h : Fin 4, blockVec (bandL (X0 m c) ⟨(i 0).val, (i 0).isLt⟩ h) (bandT (X1 m c) ⟨(i 0).val, (i 0).isLt⟩ h) (X2 m c)
    (ix3 0 ⟨(i 1).val, (i 1).isLt⟩ ⟨(i 2).val, (i 2).isLt⟩)

/-- The same, as contents of the result array. -/
def accTiles (c : Dev nD) : Buf (Elt Ideal) ((c.tc : Thread nD τ).loc main_v0) := accSum m c

/-- The tile band `h` of image `n` adds: the band's six masked sums in row 0, zeros elsewhere. -/
def bandVec (c : Dev nD) (n : Fin 8) (h : Fin 4) : S1x8x128.Idx → EReal :=
  blockVec (bandL (X0 m c) n h) (bandT (X1 m c) n h) (X2 m c)

/-- What image `n`'s tile holds after its band `h`: the first band's tile, then each later band's tile added to it. -/
def runAcc (c : Dev nD) (n : Fin 8) : (h : ℕ) → h < 4 → S1x8x128.Idx → EReal
  | 0, hh => bandVec m c n ⟨0, hh⟩
  | h + 1, hh => fun y => runAcc c n h (Nat.lt_of_succ_lt hh) y + bandVec m c n ⟨h + 1, hh⟩ y

/-- The tile's contents after a point depend on the point's number only. -/
theorem outsAt0_congr (c : Dev nD) {a b : ℕ} (e : a = b) (ha : a < cfg0.N) (hb : b < cfg0.N) :
    outsAt0 m c a ha = outsAt0 m c b hb := by subst e; rfl

/-- After band `h` of image `n` the tile holds the sum of the image's band tiles up to `h`: the first band resets the
    tile and adds its own, every later band adds its own to what the band before left. By induction on the band. -/
theorem outsAt_eq (c : Dev nD) (n : Fin 8) : ∀ (h : ℕ) (hh : h < 4),
    outsAt0 m c (pt n ⟨h, hh⟩).val (pt n ⟨h, hh⟩).isLt = runAcc m c n h hh
  | 0, hh => by
    have h0 : (pt n ⟨0, hh⟩).val % 4 = 0 := by rw [pt_val]; dsimp only; omega
    refine (outsAt0_A m c (pt n ⟨0, hh⟩) h0).trans ((BodyValue.out_A c (grid0.coords (pt n ⟨0, hh⟩))
      (ms0_0 (pt n ⟨0, hh⟩)) (hs0_0 (pt n ⟨0, hh⟩)) (ms0_1 (pt n ⟨0, hh⟩)) (hs0_1 (pt n ⟨0, hh⟩))
      (ms0_2 (pt n ⟨0, hh⟩)) (hs0_2 (pt n ⟨0, hh⟩)) (ms0_3 (pt n ⟨0, hh⟩)) (hs0_3 (pt n ⟨0, hh⟩))
      ((hcond0_0 (pt n ⟨0, hh⟩)).mpr h0) (iblk m c 0 (pt n ⟨0, hh⟩)) (iblk m c 1 (pt n ⟨0, hh⟩))
      (iblk m c 2 (pt n ⟨0, hh⟩))).trans ?_)
    show blockVec (lblk m c (pt n ⟨0, hh⟩)) (tblk m c (pt n ⟨0, hh⟩)) (wblk m c (pt n ⟨0, hh⟩)) = bandVec m c n ⟨0, hh⟩
    rw [lblk_eq, tblk_eq, wblk_eq]
    rfl
  | h + 1, hh => by
    have hB : ¬(pt n ⟨h + 1, hh⟩).val % 4 = 0 := by rw [pt_val]; dsimp only; omega
    refine (outsAt0_B m c (pt n ⟨h + 1, hh⟩) hB).trans ((BodyValue.out_B c (grid0.coords (pt n ⟨h + 1, hh⟩))
      (ms0_0 (pt n ⟨h + 1, hh⟩)) (hs0_0 (pt n ⟨h + 1, hh⟩)) (ms0_1 (pt n ⟨h + 1, hh⟩)) (hs0_1 (pt n ⟨h + 1, hh⟩))
      (ms0_2 (pt n ⟨h + 1, hh⟩)) (hs0_2 (pt n ⟨h + 1, hh⟩)) (ms0_3 (pt n ⟨h + 1, hh⟩)) (hs0_3 (pt n ⟨h + 1, hh⟩))
      (fun hc => hB ((hcond0_0 (pt n ⟨h + 1, hh⟩)).mp hc)) (iblk m c 0 (pt n ⟨h + 1, hh⟩))
      (iblk m c 1 (pt n ⟨h + 1, hh⟩)) (iblk m c 2 (pt n ⟨h + 1, hh⟩))
      (outsAt0 m c ((pt n ⟨h + 1, hh⟩).val - 1)
        (Nat.lt_of_le_of_lt (Nat.sub_le _ _) (pt n ⟨h + 1, hh⟩).isLt))).trans ?_)
    funext y
    have e := outsAt0_congr m c
      (show (pt n ⟨h + 1, hh⟩).val - 1 = (pt n ⟨h, Nat.lt_of_succ_lt hh⟩).val from by
        rw [pt_val, pt_val]; dsimp only; omega)
      (Nat.lt_of_le_of_lt (Nat.sub_le _ _) (pt n ⟨h + 1, hh⟩).isLt) (pt n ⟨h, Nat.lt_of_succ_lt hh⟩).isLt
    rw [e, outsAt_eq c n h (Nat.lt_of_succ_lt hh)]
    show runAcc m c n h _ y
        + blockVec (lblk m c (pt n ⟨h + 1, hh⟩)) (tblk m c (pt n ⟨h + 1, hh⟩)) (wblk m c (pt n ⟨h + 1, hh⟩)) y
      = runAcc m c n h _ y + bandVec m c n ⟨h + 1, hh⟩ y
    rw [lblk_eq, tblk_eq, wblk_eq]
    rfl

/-- A point's tile at an index depends on the index's row and column only. -/
theorem blockVec_congr (x0 : SBlkL.Idx → EReal) (x1 : SBlkT.Idx → BitVec 32) (x2 : SWts.Idx → EReal) (y y' : STile.Idx)
    (h1 : (y 1).val = (y' 1).val) (h2 : (y 2).val = (y' 2).val) : blockVec x0 x1 x2 y = blockVec x0 x1 x2 y' := by
  show (if (y 1).val = 0 then blockRow x0 x1 x2 (y 2).val else 0) = (if (y' 1).val = 0 then blockRow x0 x1 x2 (y' 2).val else 0)
  rw [h1, h2]

theorem three_lt : 3 < 4 := by decide

/-- The sum over the four bands, read at an index of tile `n`, is what the tile holds after the fourth band: the
    four-term sum is the chain `((b₀ + b₁) + b₂) + b₃` as it stands. -/
theorem accSum_apply (c : Dev nD) (n : Fin 8) (i : S8x8x128.Idx) (y : S1x8x128.Idx) (h0 : (i 0).val = n.val)
    (h1 : (i 1).val = (y 1).val) (h2 : (i 2).val = (y 2).val) : accSum m c i = runAcc m c n 3 three_lt y := by
  have en : (⟨(i 0).val, (i 0).isLt⟩ : Fin 8) = n := Fin.ext h0
  have ey : ∀ (x0 : SBlkL.Idx → EReal) (x1 : SBlkT.Idx → BitVec 32) (x2 : SWts.Idx → EReal),
      blockVec x0 x1 x2 (ix3 0 ⟨(i 1).val, (i 1).isLt⟩ ⟨(i 2).val, (i 2).isLt⟩) = blockVec x0 x1 x2 y :=
    fun x0 x1 x2 => blockVec_congr x0 x1 x2 _ y h1 h2
  unfold accSum
  rw [en, Fin.sum_univ_four, ey, ey, ey, ey]
  simp only [runAcc, bandVec]
  rfl

/-- What the last band of image `n` writes back is tile `n` of the four-band sums. -/
theorem flushed_eq (c : Dev nD) (t : Fin cfg0.N) (hf : (cfg0.win 3).flush t = true) :
    (dats m 0 c).flushed 3 t = ((cfg0.win 3).blk t).view.read (Elt Ideal) (accTiles m c) := by
  have h3 : t.val % 4 = 3 := (flush0_3 t).mp hf
  have hN : t.val < 32 := lt_of_lt_of_eq t.isLt (show cfg0.N = 32 from N_0)
  obtain ⟨n, rfl⟩ : ∃ n : Fin 8, t = pt n ⟨3, three_lt⟩ :=
    ⟨⟨t.val / 4, by omega⟩, Fin.ext (by rw [pt_val]; dsimp only; omega)⟩
  obtain ⟨-, -, -, -, -, -, -, -, e0, e1, e2⟩ := idx_facts (pt n ⟨3, three_lt⟩)
  rw [pt_val] at e0
  have hn := n.isLt
  show (cfg0.win 3).cut (grid0.coords (pt n ⟨3, three_lt⟩)) ((dats m 0 c).after 3 (pt n ⟨3, three_lt⟩)) = _
  rw [after0_3, outsAt_eq m c n 3 three_lt]
  funext y
  rw [View.read_apply]
  unfold accTiles
  show runAcc m c n 3 three_lt ((cfg0.win 3).xinj _ y) = accSum m c (((cfg0.win 3).blk (pt n ⟨3, three_lt⟩)).view.emb y)
  have hy0 : (y 0).val < 1 := (y 0).isLt
  refine (accSum_apply m c n _ _ ?_ ?_ ?_).symm
  · show win0_3.index (pt n ⟨3, three_lt⟩) (0 : Fin 3) * 1 + 1 * (y 0).val = n.val
    rw [e0]; dsimp only; omega
  · show win0_3.index (pt n ⟨3, three_lt⟩) (1 : Fin 3) * 8 + 1 * (y 1).val = (y 1).val
    rw [e1]; omega
  · show win0_3.index (pt n ⟨3, three_lt⟩) (2 : Fin 3) * 128 + 1 * (y 2).val = (y 2).val
    rw [e2]; omega

/-- The result array after the grid. -/
theorem final_tiles (c : Dev nD) : (dats m 0 c).arrAt 3 cfg0.N = accTiles m c := by
  refine (dats m 0 c).arrAt_eq_of_cover 3 (accTiles m c) (flushed_eq m c) fun i => ?_
  -- an index of tile `n = i₀` lies in the block the fourth band of image `n` writes back
  have hi0 : (i 0 : Nat) < 8 := (i 0).isLt
  have hi1 : (i 1 : Nat) < 8 := (i 1).isLt
  have hi2 : (i 2 : Nat) < 128 := (i 2).isLt
  obtain ⟨-, -, -, -, -, -, -, -, e0, e1, e2⟩ := idx_facts (pt ⟨(i 0 : Nat), hi0⟩ ⟨3, three_lt⟩)
  rw [pt_val] at e0
  refine ⟨pt ⟨(i 0 : Nat), hi0⟩ ⟨3, three_lt⟩, (flush0_3 _).mpr (by rw [pt_val]; dsimp only; omega), ?_⟩
  show i ∈ ((View.whole main_v0).slice (win0_3.rect (pt ⟨(i 0 : Nat), hi0⟩ ⟨3, three_lt⟩))).set
  rw [View.set_slice_whole, Rect.mem_set_unit]
  intro a
  match a with
  | ⟨0, _⟩ =>
    show win0_3.index (pt ⟨(i 0 : Nat), hi0⟩ ⟨3, three_lt⟩) (0 : Fin 3) * 1 ≤ (i 0 : Nat)
      ∧ (i 0 : Nat) < win0_3.index (pt ⟨(i 0 : Nat), hi0⟩ ⟨3, three_lt⟩) (0 : Fin 3) * 1 + 1
    rw [e0]; dsimp only; omega
  | ⟨1, _⟩ =>
    show win0_3.index (pt ⟨(i 0 : Nat), hi0⟩ ⟨3, three_lt⟩) (1 : Fin 3) * 8 ≤ (i 1 : Nat)
      ∧ (i 1 : Nat) < win0_3.index (pt ⟨(i 0 : Nat), hi0⟩ ⟨3, three_lt⟩) (1 : Fin 3) * 8 + 8
    rw [e1]; omega
  | ⟨2, _⟩ =>
    show win0_3.index (pt ⟨(i 0 : Nat), hi0⟩ ⟨3, three_lt⟩) (2 : Fin 3) * 128 ≤ (i 2 : Nat)
      ∧ (i 2 : Nat) < win0_3.index (pt ⟨(i 0 : Nat), hi0⟩ ⟨3, three_lt⟩) (2 : Fin 3) * 128 + 128
    rw [e2]; omega

end Cert.KernelIdeal.ArrayValue

end
-- ==== Proof.KernelRun.lean ====
/-
  The kernel program's run, read: after the grid, @main takes row 0, columns 0 … 5 of every image's tile, sums them
  over the images, and forms the loss from the six sums. So its result is `lossOf` of the six column sums
  `OhemSpec.kCol` of the argument arrays, and the arguments end unchanged.
-/
import proofs.«401014_j32229434589492_3_alg».proof.Proof.KernelArray
import Idealize.ShloMosaic.Lib.StableHlo.Run

set_option maxRecDepth 16384

noncomputable section

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.RunValue

open Cert.KernelIdeal Cert.KernelIdeal.Gen Cert.KernelIdeal.ArrayValue OhemSpec

variable (m : (ℓ : Loc nD τ sig) → Buf (Elt Ideal) ℓ) (ρ : Dev nD → PrngReg)

/-- The kernel program's result. -/
def result (c : Dev nD) : Buf (Elt Ideal) ((c.tc : Thread nD τ).loc main_v23) :=
  fun _ => lossOf (kCol (X0 m c) (X1 m c) (X2 m c))

/-! ## The scalar formed from the tiles -/

/-- One of the six sums as the program forms it from the tiles `x`: row 0, columns 0 … 5 of every image's tile, added
    over the images starting from zero, and the entry at offset `off` of the six taken out as a scalar. -/
def colTerm (x : Vec Ideal S8x8x128 .f32) (off : Fin 1 → ℕ) (h : S6.Slices off S1) : Vec Ideal S_ .f32 :=
  fun i => shapeCast S_
    (extractStridedSlice S1 off
      (Host.reduceAdd (F := Ideal)
        (fun i => shapeCast S8x6 (extractStridedSlice S8x1x6 ![0, 0, 0] x slices_S8x8x128_S8x1x6_0_0_0) shapeCasts_S8x1x6_S8x6 i)
        (constant (F := Ideal) S_ .f32 0x00000000#32) reducesTo_S8x6_S6_d0 h_S_)
      h)
    shapeCasts_S1_S_ i

/-- The scalar the program forms from the tiles `x`: with `s j` the sum of column `j`, the quotients
    `s 1 / max (s 0) ε`, `s 3 / max (s 2) ε`, `s 5 / max (s 4) ε`, the first two added, then the third. -/
def tailVal (x : Vec Ideal S8x8x128 .f32) : Vec Ideal S_ .f32 :=
  addf (F := Ideal)
    (addf (F := Ideal)
      (Host.divf (F := Ideal) (colTerm x ![1] slices_S6_S1_1)
        (maximumf (F := Ideal) (colTerm x ![0] slices_S6_S1_0) (constant (F := Ideal) S_ .f32 0x2B8CBCCC#32)))
      (Host.divf (F := Ideal) (colTerm x ![3] slices_S6_S1_3)
        (maximumf (F := Ideal) (colTerm x ![2] slices_S6_S1_2) (constant (F := Ideal) S_ .f32 0x2B8CBCCC#32))))
    (Host.divf (F := Ideal) (colTerm x ![5] slices_S6_S1_5)
      (maximumf (F := Ideal) (colTerm x ![4] slices_S6_S1_4) (constant (F := Ideal) S_ .f32 0x2B8CBCCC#32)))

set_option maxHeartbeats 2000000 in
/-- From any contents `W`, the operations that follow the grid leave the result buffer at `tailVal` of what the
    tile array holds in `W`. -/
theorem tail_after (W : Valuation τ sig (Elt Ideal)) :
    StableHlo.after (hostOps1 (F := Ideal)) W (Proc.devRef .tc main_v23) = tailVal (W (Proc.devRef .tc main_v0)) := by
  after_results_simp
  rfl

/-- One of the six sums, read: entry `k` is the sum over the eight images of the tile's entry in row 0, column `k`
    (the initial zero adds nothing). -/
theorem colTerm_apply (x : Vec Ideal S8x8x128 .f32) (k : ℕ) (hk : k < 6) (h : S6.Slices ![k] S1) (i : S_.Idx) :
    colTerm x ![k] h i = ∑ n : Fin 8, x (ix3 n 0 ⟨k, by omega⟩) := by
  unfold colTerm
  -- the scalar is the one entry of the length-one slice
  refine (shapeCast_apply _ shapeCasts_S1_S_ i (ix1 0) ?_).trans ?_
  · rw [Shape.rowMajor_val_one]
    have h0 := (S_.rowMajor i).isLt
    have h1 : S_.numel = 1 := by decide
    show 0 = _
    omega
  -- which is entry `k` of the six sums
  refine (extractStridedSlice_apply ![k] _ h (ix1 0) (ix1 ⟨k, hk⟩) (fun a => match a with
    | ⟨0, _⟩ => by show k = k + 0; omega)).trans ?_
  -- which is zero plus the sum over the images of the 8 × 6 array's column `k`
  simp only [Host.reduceAdd, Ideal.hostReduceAdd_def]
  rw [Ideal.hostReduceAdd_single reducesTo_S8x6_S6_d0 (by decide)]
  rw [constant_apply, Ideal.ofBits_zero_f32, zero_add]
  refine Finset.sum_congr rfl fun n _ => ?_
  have hl : (Shape.Reduces.lift (s := S8x6) (t := S6) (a := 0) (by decide) (ix1 (⟨k, hk⟩ : Fin 6)) n : S8x6.Idx)
      = ix2 (⟨n.val, n.isLt⟩ : Fin 8) (⟨k, hk⟩ : Fin 6) :=
    funext fun a => Fin.ext (by match a with | ⟨0, _⟩ => rfl | ⟨1, _⟩ => rfl)
  rw [hl]
  -- entry (n, k) of the 8 × 6 array is entry (n, 0, k) of the 8 × 1 × 6 one, which is entry (n, 0, k) of the tiles
  refine (shapeCast_apply _ shapeCasts_S8x1x6_S8x6 _ (ix3 (⟨n.val, n.isLt⟩ : Fin 8) (0 : Fin 1) (⟨k, hk⟩ : Fin 6)) ?_).trans ?_
  · rw [Shape.rowMajor_val_three, Shape.rowMajor_val_two]
    show (n.val * 1 + 0) * 6 + k = n.val * 6 + k
    omega
  exact extractStridedSlice_apply ![0, 0, 0] x slices_S8x8x128_S8x1x6_0_0_0 _ (ix3 (⟨n.val, n.isLt⟩ : Fin 8) (0 : Fin 8) (⟨k, by omega⟩ : Fin 128))
    (fun a => match a with
      | ⟨0, _⟩ => by show n.val = 0 + n.val; omega
      | ⟨1, _⟩ => by show 0 = 0 + 0; omega
      | ⟨2, _⟩ => by show k = 0 + k; omega)

/-! ## At the tiles the grid leaves -/

/-- Column `k` of row 0 of the tiles the grid leaves, summed over the images, is the column sum `kCol`: tile `n` is
    the sum of image `n`'s four band tiles, and a band tile's row 0 is `blockRow`. -/
theorem col_acc (c : Dev nD) (k : ℕ) (hk : k < 6) :
    ∑ n : Fin 8, accSum m c (ix3 n 0 ⟨k, by omega⟩) = kCol (X0 m c) (X1 m c) (X2 m c) k := by
  unfold kCol accSum
  refine Finset.sum_congr rfl fun n _ => Finset.sum_congr rfl fun h _ => ?_
  show blockVec (bandL (X0 m c) n h) (bandT (X1 m c) n h) (X2 m c) (ix3 0 0 ⟨k, by omega⟩) = _
  unfold blockVec
  exact if_pos rfl

/-- The scalar formed from the tiles the grid leaves is the loss of the six column sums. -/
theorem tailVal_acc (c : Dev nD) (i : S_.Idx) :
    tailVal (accSum m c) i = lossOf (kCol (X0 m c) (X1 m c) (X2 m c)) := by
  unfold tailVal lossOf
  show (Ideal.div (colTerm (accSum m c) ![1] slices_S6_S1_1 i) (max (colTerm (accSum m c) ![0] slices_S6_S1_0 i) floorW)
      + Ideal.div (colTerm (accSum m c) ![3] slices_S6_S1_3 i) (max (colTerm (accSum m c) ![2] slices_S6_S1_2 i) floorW))
      + Ideal.div (colTerm (accSum m c) ![5] slices_S6_S1_5 i) (max (colTerm (accSum m c) ![4] slices_S6_S1_4 i) floorW) = _
  rw [colTerm_apply (accSum m c) 0 (by omega) slices_S6_S1_0 i, colTerm_apply (accSum m c) 1 (by omega) slices_S6_S1_1 i,
    colTerm_apply (accSum m c) 2 (by omega) slices_S6_S1_2 i, colTerm_apply (accSum m c) 3 (by omega) slices_S6_S1_3 i,
    colTerm_apply (accSum m c) 4 (by omega) slices_S6_S1_4 i, colTerm_apply (accSum m c) 5 (by omega) slices_S6_S1_5 i,
    col_acc m c 0 (by omega), col_acc m c 1 (by omega), col_acc m c 2 (by omega), col_acc m c 3 (by omega),
    col_acc m c 4 (by omega), col_acc m c 5 (by omega)]

/-- What the result buffer holds at the end: the operations that follow the grid start from the tile array at the
    tiles the grid leaves, and every other buffer as the grid found it. -/
theorem tail_read (c : Dev nD) :
    Pipeline.afterTail₀ cfgs (dats m) 0 (V0 m) [hostOps1] c main_v23 = result m c := by
  unfold Pipeline.afterTail₀
  simp only [List.flatten_cons, List.flatten_nil, List.append_nil]
  refine (tail_after _).trans ?_
  rw [show Pipeline.withArrays (cfgs 0).spec c (V0 m c) (fun w => (dats m 0 c).arrAt w (cfgs 0).N) (Proc.devRef .tc main_v0)
      = accTiles m c from (Pipeline.withArrays_arr spec0 launch0.win.arr_inj c _ _ 3).trans (final_tiles m c)]
  funext i
  exact tailVal_acc m c i

/-- Every weakly fair execution ends with the result at `result` and the arguments as they were. -/
theorem run : θ_run defs (onTc (τ := τ) (main (F := Ideal))) ⟨m, fun _ => 0, ρ⟩ fun r => ∀ c : Dev nD,
      r.2.mem ((c.tc : Thread nD τ).loc main_v23) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).2 main_v23 (by decide)).trans (tail_read m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c)))⟩) (run_main m ρ)

end Cert.KernelIdeal.RunValue

end
-- ==== Proof.RefStages.lean ====
/-
  The reference program's operations, folded: the result buffer ends at the last stage.

  The reference's @main is a straight line of 115 operations. Read in four stretches — the log-softmax of every
  pixel's logits, with the label made safe and the validity mask; the gather at the label and the negative
  log-likelihood; the confidence, the three bucket masks and the gathered class weight; the six masked sums and the
  loss — each stretch takes a few named values from the one before (at any memory that holds them) and leaves a few
  named values, each the stage function of the arguments that the reading module defines for its buffer.
-/
import proofs.«401014_j32229434589492_3_alg».proof.Proof.RefRun
import proofs.«401014_j32229434589492_3_alg».proof.Proof.RefRead
import Idealize.ShloMosaic.Lib.Pipeline.Frame

set_option maxRecDepth 65536

noncomputable section

namespace Cert.ReferenceIdeal.RefStages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ### A value through a typed reference

An operation of a called function reads its operands and stores its result through references that carry the type of
the tensor they hold. The passage to the buffer's own type and back changes nothing: in a pair it cancels for any
reference, and alone it is the identity at each literal buffer, whose type is the carried one. -/

/-- A value stored through a typed reference and read back through it is the value. -/
theorem ofBuf_toBuf {Val : EltTy → Type} {T : BufTy} (x : TRef sig T) (v : T.Contents Val) :
    x.ofBuf (x.toBuf v) = v := by
  rcases x with ⟨r, rfl, _, _⟩
  rfl

/-- Read at the type of its value, what the buffer `main_v4` holds is unchanged. -/
theorem ofBuf_main_v4 {Val : EltTy → Type} (p1 : main_v4.ty = ⟨S4194304, .i1⟩) (p2 : main_v4.space ≠ .host) (p3 : main_v4.isScoped = false) (v : main_v4.ty.Contents Val) :
    (TRef.of (sig := sig) (T := ⟨S4194304, .i1⟩) main_v4 p1 p2 p3).ofBuf v = v := rfl

/-- Read at the type of its value, what the buffer `main_v2` holds is unchanged. -/
theorem ofBuf_main_v2 {Val : EltTy → Type} (p1 : main_v2.ty = ⟨S4194304, .i32⟩) (p2 : main_v2.space ≠ .host) (p3 : main_v2.isScoped = false) (v : main_v2.ty.Contents Val) :
    (TRef.of (sig := sig) (T := ⟨S4194304, .i32⟩) main_v2 p1 p2 p3).ofBuf v = v := rfl

/-- Read at the type of its value, what the buffer `main_c_0` holds is unchanged. -/
theorem ofBuf_main_c_0 {Val : EltTy → Type} (p1 : main_c_0.ty = ⟨S_, .i32⟩) (p2 : main_c_0.space ≠ .host) (p3 : main_c_0.isScoped = false) (v : main_c_0.ty.Contents Val) :
    (TRef.of (sig := sig) (T := ⟨S_, .i32⟩) main_c_0 p1 p2 p3).ofBuf v = v := rfl

/-- Read at the type of its value, what the buffer `main_v1` holds is unchanged. -/
theorem ofBuf_main_v1 {Val : EltTy → Type} (p1 : main_v1.ty = ⟨S4194304x19, .f32⟩) (p2 : main_v1.space ≠ .host) (p3 : main_v1.isScoped = false) (v : main_v1.ty.Contents Val) :
    (TRef.of (sig := sig) (T := ⟨S4194304x19, .f32⟩) main_v1 p1 p2 p3).ofBuf v = v := rfl

/-- Read at the type of its value, what the buffer `main_v7` holds is unchanged. -/
theorem ofBuf_main_v7 {Val : EltTy → Type} (p1 : main_v7.ty = ⟨S4194304x1, .i32⟩) (p2 : main_v7.space ≠ .host) (p3 : main_v7.isScoped = false) (v : main_v7.ty.Contents Val) :
    (TRef.of (sig := sig) (T := ⟨S4194304x1, .i32⟩) main_v7 p1 p2 p3).ofBuf v = v := rfl

/-- Read at the type of its value, what the buffer `main_v6` holds is unchanged. -/
theorem ofBuf_main_v6 {Val : EltTy → Type} (p1 : main_v6.ty = ⟨S4194304x19, .f32⟩) (p2 : main_v6.space ≠ .host) (p3 : main_v6.isScoped = false) (v : main_v6.ty.Contents Val) :
    (TRef.of (sig := sig) (T := ⟨S4194304x19, .f32⟩) main_v6 p1 p2 p3).ofBuf v = v := rfl

/-- Read at the type of its value, what the buffer `main_call2_v5` holds is unchanged. -/
theorem ofBuf_main_call2_v5 {Val : EltTy → Type} (p1 : main_call2_v5.ty = ⟨S4194304x1x1, .i32⟩) (p2 : main_call2_v5.space ≠ .host) (p3 : main_call2_v5.isScoped = false) (v : main_call2_v5.ty.Contents Val) :
    (TRef.of (sig := sig) (T := ⟨S4194304x1x1, .i32⟩) main_call2_v5 p1 p2 p3).ofBuf v = v := rfl

/-- Read at the type of its value, what the buffer `main_cst_6` holds is unchanged. -/
theorem ofBuf_main_cst_6 {Val : EltTy → Type} (p1 : main_cst_6.ty = ⟨S_, .f32⟩) (p2 : main_cst_6.space ≠ .host) (p3 : main_cst_6.isScoped = false) (v : main_cst_6.ty.Contents Val) :
    (TRef.of (sig := sig) (T := ⟨S_, .f32⟩) main_cst_6 p1 p2 p3).ofBuf v = v := rfl

/-- Read at the type of its value, what the buffer `main_v15` holds is unchanged. -/
theorem ofBuf_main_v15 {Val : EltTy → Type} (p1 : main_v15.ty = ⟨S4194304, .i1⟩) (p2 : main_v15.space ≠ .host) (p3 : main_v15.isScoped = false) (v : main_v15.ty.Contents Val) :
    (TRef.of (sig := sig) (T := ⟨S4194304, .i1⟩) main_v15 p1 p2 p3).ofBuf v = v := rfl

/-- Read at the type of its value, what the buffer `main_v31` holds is unchanged. -/
theorem ofBuf_main_v31 {Val : EltTy → Type} (p1 : main_v31.ty = ⟨S4194304, .f32⟩) (p2 : main_v31.space ≠ .host) (p3 : main_v31.isScoped = false) (v : main_v31.ty.Contents Val) :
    (TRef.of (sig := sig) (T := ⟨S4194304, .f32⟩) main_v31 p1 p2 p3).ofBuf v = v := rfl

/-- Read at the type of its value, what the buffer `main_cst_10` holds is unchanged. -/
theorem ofBuf_main_cst_10 {Val : EltTy → Type} (p1 : main_cst_10.ty = ⟨S_, .f32⟩) (p2 : main_cst_10.space ≠ .host) (p3 : main_cst_10.isScoped = false) (v : main_cst_10.ty.Contents Val) :
    (TRef.of (sig := sig) (T := ⟨S_, .f32⟩) main_cst_10 p1 p2 p3).ofBuf v = v := rfl

/-- Read at the type of its value, what the buffer `main_v21` holds is unchanged. -/
theorem ofBuf_main_v21 {Val : EltTy → Type} (p1 : main_v21.ty = ⟨S4194304, .i1⟩) (p2 : main_v21.space ≠ .host) (p3 : main_v21.isScoped = false) (v : main_v21.ty.Contents Val) :
    (TRef.of (sig := sig) (T := ⟨S4194304, .i1⟩) main_v21 p1 p2 p3).ofBuf v = v := rfl

/-- Read at the type of its value, what the buffer `main_cst_14` holds is unchanged. -/
theorem ofBuf_main_cst_14 {Val : EltTy → Type} (p1 : main_cst_14.ty = ⟨S_, .f32⟩) (p2 : main_cst_14.space ≠ .host) (p3 : main_cst_14.isScoped = false) (v : main_cst_14.ty.Contents Val) :
    (TRef.of (sig := sig) (T := ⟨S_, .f32⟩) main_cst_14 p1 p2 p3).ofBuf v = v := rfl

/-- Read at the type of its value, what the buffer `main_v24` holds is unchanged. -/
theorem ofBuf_main_v24 {Val : EltTy → Type} (p1 : main_v24.ty = ⟨S4194304, .i1⟩) (p2 : main_v24.space ≠ .host) (p3 : main_v24.isScoped = false) (v : main_v24.ty.Contents Val) :
    (TRef.of (sig := sig) (T := ⟨S4194304, .i1⟩) main_v24 p1 p2 p3).ofBuf v = v := rfl

/-- Stored at the buffer `main_v5`, a value of its type is unchanged. -/
theorem toBuf_main_v5 {Val : EltTy → Type} (p1 : main_v5.ty = ⟨S4194304, .i32⟩) (p2 : main_v5.space ≠ .host) (p3 : main_v5.isScoped = false) (v : (⟨S4194304, .i32⟩ : BufTy).Contents Val) :
    (TRef.of (sig := sig) (T := ⟨S4194304, .i32⟩) main_v5 p1 p2 p3).toBuf v = v := rfl

/-- Stored at the buffer `main_v6`, a value of its type is unchanged. -/
theorem toBuf_main_v6 {Val : EltTy → Type} (p1 : main_v6.ty = ⟨S4194304x19, .f32⟩) (p2 : main_v6.space ≠ .host) (p3 : main_v6.isScoped = false) (v : (⟨S4194304x19, .f32⟩ : BufTy).Contents Val) :
    (TRef.of (sig := sig) (T := ⟨S4194304x19, .f32⟩) main_v6 p1 p2 p3).toBuf v = v := rfl

/-- Stored at the buffer `main_call2_v4`, a value of its type is unchanged. -/
theorem toBuf_main_call2_v4 {Val : EltTy → Type} (p1 : main_call2_v4.ty = ⟨S4194304x1, .i32⟩) (p2 : main_call2_v4.space ≠ .host) (p3 : main_call2_v4.isScoped = false) (v : (⟨S4194304x1, .i32⟩ : BufTy).Contents Val) :
    (TRef.of (sig := sig) (T := ⟨S4194304x1, .i32⟩) main_call2_v4 p1 p2 p3).toBuf v = v := rfl

/-- Stored at the buffer `main_v8`, a value of its type is unchanged. -/
theorem toBuf_main_v8 {Val : EltTy → Type} (p1 : main_v8.ty = ⟨S4194304x1, .f32⟩) (p2 : main_v8.space ≠ .host) (p3 : main_v8.isScoped = false) (v : (⟨S4194304x1, .f32⟩ : BufTy).Contents Val) :
    (TRef.of (sig := sig) (T := ⟨S4194304x1, .f32⟩) main_v8 p1 p2 p3).toBuf v = v := rfl

/-- Stored at the buffer `main_v32`, a value of its type is unchanged. -/
theorem toBuf_main_v32 {Val : EltTy → Type} (p1 : main_v32.ty = ⟨S4194304, .f32⟩) (p2 : main_v32.space ≠ .host) (p3 : main_v32.isScoped = false) (v : (⟨S4194304, .f32⟩ : BufTy).Contents Val) :
    (TRef.of (sig := sig) (T := ⟨S4194304, .f32⟩) main_v32 p1 p2 p3).toBuf v = v := rfl

/-- Stored at the buffer `main_v38`, a value of its type is unchanged. -/
theorem toBuf_main_v38 {Val : EltTy → Type} (p1 : main_v38.ty = ⟨S4194304, .f32⟩) (p2 : main_v38.space ≠ .host) (p3 : main_v38.isScoped = false) (v : (⟨S4194304, .f32⟩ : BufTy).Contents Val) :
    (TRef.of (sig := sig) (T := ⟨S4194304, .f32⟩) main_v38 p1 p2 p3).toBuf v = v := rfl

/-- Stored at the buffer `main_v45`, a value of its type is unchanged. -/
theorem toBuf_main_v45 {Val : EltTy → Type} (p1 : main_v45.ty = ⟨S4194304, .f32⟩) (p2 : main_v45.space ≠ .host) (p3 : main_v45.isScoped = false) (v : (⟨S4194304, .f32⟩ : BufTy).Contents Val) :
    (TRef.of (sig := sig) (T := ⟨S4194304, .f32⟩) main_v45 p1 p2 p3).toBuf v = v := rfl

/-! ### The four stretches of the program -/

/-- Operations 1 to 25: the logits moved class-last and flattened to one row per pixel, the labels flattened, the validity mask (label ≠ 255), the safe label (0 where invalid), and the log-softmax of every row. -/
abbrev opsA : List (HloOp τ sig (Elt F)) :=
  [ unary main_arg0 main_v0 ((transpose S8x512x1024x19 [0, 2, 3, 1] · transposes_S8x19x512x1024_S8x512x1024x19_0_2_3_1) : (⟨S8x19x512x1024, .f32⟩ : BufTy).Contents (Elt F) → (⟨S8x512x1024x19, .f32⟩ : BufTy).Contents (Elt F)),
    reshape main_v0 main_v1 rfl shapeCasts_S8x512x1024x19_S4194304x19,
    reshape main_arg1 main_v2 rfl shapeCasts_S8x512x1024_S4194304,
    nullary main_c (constantI S_ 32 255#32),
    unary main_c main_v3 (broadcastInDim S4194304 ![] bcast_S_S4194304 : (⟨S_, .i32⟩ : BufTy).Contents (Elt F) → (⟨S4194304, .i32⟩ : BufTy).Contents (Elt F)),
    binary main_v2 main_v3 main_v4 (cmpi .ne : (⟨S4194304, .i32⟩ : BufTy).Contents (Elt F) → (⟨S4194304, .i32⟩ : BufTy).Contents (Elt F) → (⟨S4194304, .i1⟩ : BufTy).Contents (Elt F)),
    nullary main_c_0 (constantI S_ 32 0#32),
    TRef.unary (TRef.of (T := ⟨S_, .i32⟩) main_c_0) (TRef.of (T := ⟨S_, .i32⟩) main_call0_v0) id,
    TRef.unary (TRef.of (T := ⟨S_, .i32⟩) main_call0_v0) (TRef.of (T := ⟨S4194304, .i32⟩) main_call0_v1) (broadcastInDim S4194304 ![] bcast_S_S4194304),
    TRef.ternary (TRef.of (T := ⟨S4194304, .i1⟩) main_v4) (TRef.of (T := ⟨S4194304, .i32⟩) main_v2) (TRef.of (T := ⟨S4194304, .i32⟩) main_call0_v1) (TRef.of (T := ⟨S4194304, .i32⟩) main_v5) select,
    TRef.nullary (TRef.of (T := ⟨S_, .f32⟩) main_call1_cst) (constant S_ .f32 0xFF800000#32),
    TRef.binary (TRef.of (T := ⟨S4194304x19, .f32⟩) main_v1) (TRef.of (T := ⟨S_, .f32⟩) main_call1_cst) (TRef.of (T := ⟨S4194304, .f32⟩) main_call1_v0) (fun x v => Host.reduce FloatOps.maximumf x v reducesTo_S4194304x19_S4194304_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S4194304, .f32⟩) main_call1_v1) (broadcastInDim S4194304 ![] bcast_S_S4194304),
    TRef.binary (TRef.of (T := ⟨S4194304, .f32⟩) main_call1_v1) (TRef.of (T := ⟨S4194304, .f32⟩) main_call1_v0) (TRef.of (T := ⟨S4194304, .f32⟩) main_call1_v2) maximumf,
    TRef.unary (TRef.of (T := ⟨S4194304, .f32⟩) main_call1_v2) (TRef.of (T := ⟨S4194304x1, .f32⟩) main_call1_v3) (broadcastInDim S4194304x1 ![0] bcast_S4194304_S4194304x1_0),
    TRef.unary (TRef.of (T := ⟨S4194304x1, .f32⟩) main_call1_v3) (TRef.of (T := ⟨S4194304x19, .f32⟩) main_call1_v4) (broadcastInDim S4194304x19 ![0, 1] bcast_S4194304x1_S4194304x19_0_1),
    TRef.binary (TRef.of (T := ⟨S4194304x19, .f32⟩) main_v1) (TRef.of (T := ⟨S4194304x19, .f32⟩) main_call1_v4) (TRef.of (T := ⟨S4194304x19, .f32⟩) main_call1_v5) subf,
    TRef.unary (TRef.of (T := ⟨S4194304x19, .f32⟩) main_call1_v5) (TRef.of (T := ⟨S4194304x19, .f32⟩) main_call1_v6) Host.exp,
    TRef.nullary (TRef.of (T := ⟨S_, .f32⟩) main_call1_cst_1) (constant S_ .f32 0x00000000#32),
    TRef.binary (TRef.of (T := ⟨S4194304x19, .f32⟩) main_call1_v6) (TRef.of (T := ⟨S_, .f32⟩) main_call1_cst_1) (TRef.of (T := ⟨S4194304, .f32⟩) main_call1_v7) (fun x v => Host.reduceAdd x v reducesTo_S4194304x19_S4194304_d1 h_S_),
    TRef.unary (TRef.of (T := ⟨S4194304, .f32⟩) main_call1_v7) (TRef.of (T := ⟨S4194304x1, .f32⟩) main_call1_v8) (broadcastInDim S4194304x1 ![0] bcast_S4194304_S4194304x1_0),
    TRef.unary (TRef.of (T := ⟨S4194304x1, .f32⟩) main_call1_v8) (TRef.of (T := ⟨S4194304x1, .f32⟩) main_call1_v9) Host.log,
    TRef.unary (TRef.of (T := ⟨S4194304x1, .f32⟩) main_call1_v9) (TRef.of (T := ⟨S4194304x19, .f32⟩) main_call1_v10) (broadcastInDim S4194304x19 ![0, 1] bcast_S4194304x1_S4194304x19_0_1),
    TRef.binary (TRef.of (T := ⟨S4194304x19, .f32⟩) main_call1_v5) (TRef.of (T := ⟨S4194304x19, .f32⟩) main_call1_v10) (TRef.of (T := ⟨S4194304x19, .f32⟩) main_v6) subf ]

/-- Operations 26 to 50: the log-probability gathered at each pixel's safe label (an index below 0 wrapped by 19, a not-a-number where the index is outside 0 … 18), flattened and negated: the negative log-likelihood. -/
abbrev opsB : List (HloOp τ sig (Elt F)) :=
  [ unary main_v5 main_v7 (broadcastInDim S4194304x1 ![0] bcast_S4194304_S4194304x1_0 : (⟨S4194304, .i32⟩ : BufTy).Contents (Elt F) → (⟨S4194304x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S4194304x1, .i32⟩) main_call2_v0) (broadcastInDim S4194304x1 ![] bcast_S_S4194304x1),
    TRef.binary (TRef.of (T := ⟨S4194304x1, .i32⟩) main_v7) (TRef.of (T := ⟨S4194304x1, .i32⟩) main_call2_v0) (TRef.of (T := ⟨S4194304x1, .i1⟩) main_call2_v1) (cmpi .slt),
    TRef.nullary (TRef.of (T := ⟨S_, .i32⟩) main_call2_c_0) (constantI S_ 32 19#32),
    TRef.unary (TRef.of (T := ⟨S_, .i32⟩) main_call2_c_0) (TRef.of (T := ⟨S4194304x1, .i32⟩) main_call2_v2) (broadcastInDim S4194304x1 ![] bcast_S_S4194304x1),
    TRef.binary (TRef.of (T := ⟨S4194304x1, .i32⟩) main_v7) (TRef.of (T := ⟨S4194304x1, .i32⟩) main_call2_v2) (TRef.of (T := ⟨S4194304x1, .i32⟩) main_call2_v3) addi,
    TRef.ternary (TRef.of (T := ⟨S4194304x1, .i1⟩) main_call2_v1) (TRef.of (T := ⟨S4194304x1, .i32⟩) main_call2_v3) (TRef.of (T := ⟨S4194304x1, .i32⟩) main_v7) (TRef.of (T := ⟨S4194304x1, .i32⟩) main_call2_v4) select,
    TRef.reshape (TRef.of (T := ⟨S4194304x1, .i32⟩) main_call2_v4) (TRef.of (T := ⟨S4194304x1x1, .i32⟩) main_call2_v5) rfl shapeCasts_S4194304x1_S4194304x1x1,
    TRef.nullary (TRef.of (T := ⟨S1, .i32⟩) main_call2_c_1) (constantI S1 32 18#32),
    TRef.nullary (TRef.of (T := ⟨S_, .i32⟩) main_call2_c_2) (constantI S_ 32 0#32),
    TRef.unary (TRef.of (T := ⟨S_, .i32⟩) main_call2_c_2) (TRef.of (T := ⟨S4194304x1x1, .i32⟩) main_call2_v6) (broadcastInDim S4194304x1x1 ![] bcast_S_S4194304x1x1),
    TRef.binary (TRef.of (T := ⟨S4194304x1x1, .i32⟩) main_call2_v5) (TRef.of (T := ⟨S4194304x1x1, .i32⟩) main_call2_v6) (TRef.of (T := ⟨S4194304x1x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S4194304x1x1, .i32⟩) main_call2_v9) (broadcastInDim S4194304x1x1 ![0, 1, 2] bcast_S1x1x1_S4194304x1x1_0_1_2),
    TRef.binary (TRef.of (T := ⟨S4194304x1x1, .i32⟩) main_call2_v5) (TRef.of (T := ⟨S4194304x1x1, .i32⟩) main_call2_v9) (TRef.of (T := ⟨S4194304x1x1, .i1⟩) main_call2_v10) (cmpi .sle),
    TRef.binary (TRef.of (T := ⟨S4194304x1x1, .i1⟩) main_call2_v7) (TRef.of (T := ⟨S4194304x1x1, .i1⟩) main_call2_v10) (TRef.of (T := ⟨S4194304x1x1, .i1⟩) main_call2_v11) andi,
    TRef.nullary (TRef.of (T := ⟨S_, .i1⟩) main_call2_c_3) (constantI S_ 1 1#1),
    TRef.binary (TRef.of (T := ⟨S4194304x1x1, .i1⟩) main_call2_v11) (TRef.of (T := ⟨S_, .i1⟩) main_call2_c_3) (TRef.of (T := ⟨S4194304x1, .i1⟩) main_call2_v12) (fun x v => Host.reduce IntOp.andi x v reducesTo_S4194304x1x1_S4194304x1_d2 h_S_),
    TRef.binary (TRef.of (T := ⟨S4194304x19, .f32⟩) main_v6) (TRef.of (T := ⟨S4194304x1x1, .i32⟩) main_call2_v5) (TRef.of (T := ⟨S4194304x1, .f32⟩) main_call2_v13) (fun x i => Host.gather gather_S4194304x19_S4194304x1x1_S4194304x1_n_1_0_0_1_2_11 x i),
    TRef.nullary (TRef.of (T := ⟨S_, .f32⟩) main_call2_cst) (constant S_ .f32 0x7FC00000#32),
    TRef.unary (TRef.of (T := ⟨S_, .f32⟩) main_call2_cst) (TRef.of (T := ⟨S4194304x1, .f32⟩) main_call2_v14) (broadcastInDim S4194304x1 ![] bcast_S_S4194304x1),
    TRef.ternary (TRef.of (T := ⟨S4194304x1, .i1⟩) main_call2_v12) (TRef.of (T := ⟨S4194304x1, .f32⟩) main_call2_v13) (TRef.of (T := ⟨S4194304x1, .f32⟩) main_call2_v14) (TRef.of (T := ⟨S4194304x1, .f32⟩) main_v8) select,
    reshape main_v8 main_v9 rfl shapeCasts_S4194304x1_S4194304,
    unary main_v9 main_v10 (Host.negf : (⟨S4194304, .f32⟩ : BufTy).Contents (Elt F) → (⟨S4194304, .f32⟩ : BufTy).Contents (Elt F)) ]

/-- Operations 51 to 77: the confidence exp(−nll), the three bucket masks (valid and confidence ≥ 0.8; valid, below 0.8 and ≥ 0.5; valid and below 0.5) and the class weight gathered at the safe label. -/
abbrev opsC : List (HloOp τ sig (Elt F)) :=
  [ unary main_v10 main_v11 (Host.negf : (⟨S4194304, .f32⟩ : BufTy).Contents (Elt F) → (⟨S4194304, .f32⟩ : BufTy).Contents (Elt F)),
    unary main_v11 main_v12 (Host.exp : (⟨S4194304, .f32⟩ : BufTy).Contents (Elt F) → (⟨S4194304, .f32⟩ : BufTy).Contents (Elt F)),
    nullary main_cst (constant S_ .f32 0x3F4CCCCD#32),
    unary main_cst main_v13 (broadcastInDim S4194304 ![] bcast_S_S4194304 : (⟨S_, .f32⟩ : BufTy).Contents (Elt F) → (⟨S4194304, .f32⟩ : BufTy).Contents (Elt F)),
    binary main_v12 main_v13 main_v14 (cmpf .oge : (⟨S4194304, .f32⟩ : BufTy).Contents (Elt F) → (⟨S4194304, .f32⟩ : BufTy).Contents (Elt F) → (⟨S4194304, .i1⟩ : BufTy).Contents (Elt F)),
    binary main_v4 main_v14 main_v15 (andi : (⟨S4194304, .i1⟩ : BufTy).Contents (Elt F) → (⟨S4194304, .i1⟩ : BufTy).Contents (Elt F) → (⟨S4194304, .i1⟩ : BufTy).Contents (Elt F)),
    nullary main_cst_1 (constant S_ .f32 0x3F4CCCCD#32),
    unary main_cst_1 main_v16 (broadcastInDim S4194304 ![] bcast_S_S4194304 : (⟨S_, .f32⟩ : BufTy).Contents (Elt F) → (⟨S4194304, .f32⟩ : BufTy).Contents (Elt F)),
    binary main_v12 main_v16 main_v17 (cmpf .olt : (⟨S4194304, .f32⟩ : BufTy).Contents (Elt F) → (⟨S4194304, .f32⟩ : BufTy).Contents (Elt F) → (⟨S4194304, .i1⟩ : BufTy).Contents (Elt F)),
    binary main_v4 main_v17 main_v18 (andi : (⟨S4194304, .i1⟩ : BufTy).Contents (Elt F) → (⟨S4194304, .i1⟩ : BufTy).Contents (Elt F) → (⟨S4194304, .i1⟩ : BufTy).Contents (Elt F)),
    nullary main_cst_2 (constant S_ .f32 0x3F000000#32),
    unary main_cst_2 main_v19 (broadcastInDim S4194304 ![] bcast_S_S4194304 : (⟨S_, .f32⟩ : BufTy).Contents (Elt F) → (⟨S4194304, .f32⟩ : BufTy).Contents (Elt F)),
    binary main_v12 main_v19 main_v20 (cmpf .oge : (⟨S4194304, .f32⟩ : BufTy).Contents (Elt F) → (⟨S4194304, .f32⟩ : BufTy).Contents (Elt F) → (⟨S4194304, .i1⟩ : BufTy).Contents (Elt F)),
    binary main_v18 main_v20 main_v21 (andi : (⟨S4194304, .i1⟩ : BufTy).Contents (Elt F) → (⟨S4194304, .i1⟩ : BufTy).Contents (Elt F) → (⟨S4194304, .i1⟩ : BufTy).Contents (Elt F)),
    nullary main_cst_3 (constant S_ .f32 0x3F000000#32),
    unary main_cst_3 main_v22 (broadcastInDim S4194304 ![] bcast_S_S4194304 : (⟨S_, .f32⟩ : BufTy).Contents (Elt F) → (⟨S4194304, .f32⟩ : BufTy).Contents (Elt F)),
    binary main_v12 main_v22 main_v23 (cmpf .olt : (⟨S4194304, .f32⟩ : BufTy).Contents (Elt F) → (⟨S4194304, .f32⟩ : BufTy).Contents (Elt F) → (⟨S4194304, .i1⟩ : BufTy).Contents (Elt F)),
    binary main_v4 main_v23 main_v24 (andi : (⟨S4194304, .i1⟩ : BufTy).Contents (Elt F) → (⟨S4194304, .i1⟩ : BufTy).Contents (Elt F) → (⟨S4194304, .i1⟩ : BufTy).Contents (Elt F)),
    nullary main_c_4 (constantI S_ 32 0#32),
    unary main_c_4 main_v25 (broadcastInDim S4194304 ![] bcast_S_S4194304 : (⟨S_, .i32⟩ : BufTy).Contents (Elt F) → (⟨S4194304, .i32⟩ : BufTy).Contents (Elt F)),
    binary main_v5 main_v25 main_v26 (cmpi .slt : (⟨S4194304, .i32⟩ : BufTy).Contents (Elt F) → (⟨S4194304, .i32⟩ : BufTy).Contents (Elt F) → (⟨S4194304, .i1⟩ : BufTy).Contents (Elt F)),
    nullary main_c_5 (constantI S_ 32 19#32),
    unary main_c_5 main_v27 (broadcastInDim S4194304 ![] bcast_S_S4194304 : (⟨S_, .i32⟩ : BufTy).Contents (Elt F) → (⟨S4194304, .i32⟩ : BufTy).Contents (Elt F)),
    binary main_v5 main_v27 main_v28 (addi : (⟨S4194304, .i32⟩ : BufTy).Contents (Elt F) → (⟨S4194304, .i32⟩ : BufTy).Contents (Elt F) → (⟨S4194304, .i32⟩ : BufTy).Contents (Elt F)),
    ternary main_v26 main_v28 main_v5 main_v29 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v29 main_v30 (broadcastInDim S4194304x1 ![0] bcast_S4194304_S4194304x1_0 : (⟨S4194304, .i32⟩ : BufTy).Contents (Elt F) → (⟨S4194304x1, .i32⟩ : BufTy).Contents (Elt F)),
    binary main_arg2 main_v30 main_v31 ((fun x i => Host.gather gather_S19_S4194304x1_S4194304_n_0_n_n_0_1_1 x i) : (⟨S19, .f32⟩ : BufTy).Contents (Elt F) → (⟨S4194304x1, .i32⟩ : BufTy).Contents (Elt F) → (⟨S4194304, .f32⟩ : BufTy).Contents (Elt F)) ]

/-- Operations 78 to 115: for each bucket the weight masked by it, the sum of the masked weights, the sum of masked weight times negative log-likelihood, their quotient with the denominator kept at least 1e-12; the three quotients added. -/
abbrev opsD : List (HloOp τ sig (Elt F)) :=
  [ nullary main_cst_6 (constant S_ .f32 0x00000000#32),
    TRef.unary (TRef.of (T := ⟨S_, .f32⟩) main_cst_6) (TRef.of (T := ⟨S_, .f32⟩) main_call3_v0) id,
    TRef.unary (TRef.of (T := ⟨S_, .f32⟩) main_call3_v0) (TRef.of (T := ⟨S4194304, .f32⟩) main_call3_v1) (broadcastInDim S4194304 ![] bcast_S_S4194304),
    TRef.ternary (TRef.of (T := ⟨S4194304, .i1⟩) main_v15) (TRef.of (T := ⟨S4194304, .f32⟩) main_v31) (TRef.of (T := ⟨S4194304, .f32⟩) main_call3_v1) (TRef.of (T := ⟨S4194304, .f32⟩) main_v32) select,
    nullary main_cst_7 (constant S_ .f32 0x00000000#32),
    binary main_v32 main_cst_7 main_v33 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    binary main_v32 main_v10 main_v34 (mulf : (⟨S4194304, .f32⟩ : BufTy).Contents (Elt F) → (⟨S4194304, .f32⟩ : BufTy).Contents (Elt F) → (⟨S4194304, .f32⟩ : BufTy).Contents (Elt F)),
    nullary main_cst_8 (constant S_ .f32 0x00000000#32),
    binary main_v34 main_cst_8 main_v35 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    nullary main_cst_9 (constant S_ .f32 0x2B8CBCCC#32),
    binary main_v33 main_cst_9 main_v36 (maximumf : (⟨S_, .f32⟩ : BufTy).Contents (Elt F) → (⟨S_, .f32⟩ : BufTy).Contents (Elt F) → (⟨S_, .f32⟩ : BufTy).Contents (Elt F)),
    binary main_v35 main_v36 main_v37 (Host.divf : (⟨S_, .f32⟩ : BufTy).Contents (Elt F) → (⟨S_, .f32⟩ : BufTy).Contents (Elt F) → (⟨S_, .f32⟩ : BufTy).Contents (Elt F)),
    nullary main_cst_10 (constant S_ .f32 0x00000000#32),
    TRef.unary (TRef.of (T := ⟨S_, .f32⟩) main_cst_10) (TRef.of (T := ⟨S_, .f32⟩) main_call4_v0) id,
    TRef.unary (TRef.of (T := ⟨S_, .f32⟩) main_call4_v0) (TRef.of (T := ⟨S4194304, .f32⟩) main_call4_v1) (broadcastInDim S4194304 ![] bcast_S_S4194304),
    TRef.ternary (TRef.of (T := ⟨S4194304, .i1⟩) main_v21) (TRef.of (T := ⟨S4194304, .f32⟩) main_v31) (TRef.of (T := ⟨S4194304, .f32⟩) main_call4_v1) (TRef.of (T := ⟨S4194304, .f32⟩) main_v38) select,
    nullary main_cst_11 (constant S_ .f32 0x00000000#32),
    binary main_v38 main_cst_11 main_v39 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    binary main_v38 main_v10 main_v40 (mulf : (⟨S4194304, .f32⟩ : BufTy).Contents (Elt F) → (⟨S4194304, .f32⟩ : BufTy).Contents (Elt F) → (⟨S4194304, .f32⟩ : BufTy).Contents (Elt F)),
    nullary main_cst_12 (constant S_ .f32 0x00000000#32),
    binary main_v40 main_cst_12 main_v41 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    nullary main_cst_13 (constant S_ .f32 0x2B8CBCCC#32),
    binary main_v39 main_cst_13 main_v42 (maximumf : (⟨S_, .f32⟩ : BufTy).Contents (Elt F) → (⟨S_, .f32⟩ : BufTy).Contents (Elt F) → (⟨S_, .f32⟩ : BufTy).Contents (Elt F)),
    binary main_v41 main_v42 main_v43 (Host.divf : (⟨S_, .f32⟩ : BufTy).Contents (Elt F) → (⟨S_, .f32⟩ : BufTy).Contents (Elt F) → (⟨S_, .f32⟩ : BufTy).Contents (Elt F)),
    binary main_v37 main_v43 main_v44 (addf : (⟨S_, .f32⟩ : BufTy).Contents (Elt F) → (⟨S_, .f32⟩ : BufTy).Contents (Elt F) → (⟨S_, .f32⟩ : BufTy).Contents (Elt F)),
    nullary main_cst_14 (constant S_ .f32 0x00000000#32),
    TRef.unary (TRef.of (T := ⟨S_, .f32⟩) main_cst_14) (TRef.of (T := ⟨S_, .f32⟩) main_call5_v0) id,
    TRef.unary (TRef.of (T := ⟨S_, .f32⟩) main_call5_v0) (TRef.of (T := ⟨S4194304, .f32⟩) main_call5_v1) (broadcastInDim S4194304 ![] bcast_S_S4194304),
    TRef.ternary (TRef.of (T := ⟨S4194304, .i1⟩) main_v24) (TRef.of (T := ⟨S4194304, .f32⟩) main_v31) (TRef.of (T := ⟨S4194304, .f32⟩) main_call5_v1) (TRef.of (T := ⟨S4194304, .f32⟩) main_v45) select,
    nullary main_cst_15 (constant S_ .f32 0x00000000#32),
    binary main_v45 main_cst_15 main_v46 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    binary main_v45 main_v10 main_v47 (mulf : (⟨S4194304, .f32⟩ : BufTy).Contents (Elt F) → (⟨S4194304, .f32⟩ : BufTy).Contents (Elt F) → (⟨S4194304, .f32⟩ : BufTy).Contents (Elt F)),
    nullary main_cst_16 (constant S_ .f32 0x00000000#32),
    binary main_v47 main_cst_16 main_v48 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    nullary main_cst_17 (constant S_ .f32 0x2B8CBCCC#32),
    binary main_v46 main_cst_17 main_v49 (maximumf : (⟨S_, .f32⟩ : BufTy).Contents (Elt F) → (⟨S_, .f32⟩ : BufTy).Contents (Elt F) → (⟨S_, .f32⟩ : BufTy).Contents (Elt F)),
    binary main_v48 main_v49 main_v50 (Host.divf : (⟨S_, .f32⟩ : BufTy).Contents (Elt F) → (⟨S_, .f32⟩ : BufTy).Contents (Elt F) → (⟨S_, .f32⟩ : BufTy).Contents (Elt F)),
    binary main_v44 main_v50 main_v51 (addf : (⟨S_, .f32⟩ : BufTy).Contents (Elt F) → (⟨S_, .f32⟩ : BufTy).Contents (Elt F) → (⟨S_, .f32⟩ : BufTy).Contents (Elt F)) ]

/-- The program is the four stretches in a row. -/
theorem ops_split : (ops (F := F)) = opsA ++ (opsB ++ (opsC ++ opsD)) := rfl

/-! ### Stretch A: from the arguments -/

/-- After the first stretch the mask buffer holds the validity mask of the labels. -/
theorem stretchA_v4 (V : Valuation τ sig (Elt F)) :
    after (opsA (F := F)) V (Proc.devRef .tc main_v4) = val_main_v4 (F := F) (V (Proc.devRef .tc main_arg1)) := by
  after_results_simp
  rfl

/-- After the first stretch the safe-label buffer holds the labels with 0 in place of an ignored one. -/
theorem stretchA_v5 (V : Valuation τ sig (Elt F)) :
    after (opsA (F := F)) V (Proc.devRef .tc main_v5) = val_main_v5 (F := F) (V (Proc.devRef .tc main_arg1)) := by
  after_results_simp
  simp only [ofBuf_toBuf, ofBuf_main_v4, ofBuf_main_v2, ofBuf_main_c_0, ofBuf_main_v1, ofBuf_main_v7, ofBuf_main_v6, ofBuf_main_call2_v5, ofBuf_main_cst_6, ofBuf_main_v15, ofBuf_main_v31, ofBuf_main_cst_10, ofBuf_main_v21, ofBuf_main_cst_14, ofBuf_main_v24, toBuf_main_v5, toBuf_main_v6, toBuf_main_call2_v4, toBuf_main_v8, toBuf_main_v32, toBuf_main_v38, toBuf_main_v45]
  rfl

/-- After the first stretch the log-probability buffer holds the log-softmax of every pixel's logits. -/
theorem stretchA_v6 (V : Valuation τ sig (Elt F)) :
    after (opsA (F := F)) V (Proc.devRef .tc main_v6) = val_main_v6 (F := F) (V (Proc.devRef .tc main_arg0)) := by
  after_results_simp
  simp only [ofBuf_toBuf, ofBuf_main_v4, ofBuf_main_v2, ofBuf_main_c_0, ofBuf_main_v1, ofBuf_main_v7, ofBuf_main_v6, ofBuf_main_call2_v5, ofBuf_main_cst_6, ofBuf_main_v15, ofBuf_main_v31, ofBuf_main_cst_10, ofBuf_main_v21, ofBuf_main_cst_14, ofBuf_main_v24, toBuf_main_v5, toBuf_main_v6, toBuf_main_call2_v4, toBuf_main_v8, toBuf_main_v32, toBuf_main_v38, toBuf_main_v45]
  rfl

/-- The first stretch leaves the class weights as they were. -/
theorem stretchA_keeps_main_arg2 (W : Valuation τ sig (Elt F)) :
    after (opsA (F := F)) W (Proc.devRef .tc main_arg2) = W (Proc.devRef .tc main_arg2) := by
  after_results_simp

/-! ### Stretch B: the negative log-likelihood -/

/-- From any contents whose safe-label and log-probability buffers hold those stages of `x1` and `x0`, the second
    stretch leaves the negative log-likelihood of `x0` at the labels `x1`. -/
theorem stretchB_v10 (W : Valuation τ sig (Elt F)) (x0 : (⟨S8x19x512x1024, .f32⟩ : BufTy).Contents (Elt F)) (x1 : (⟨S8x512x1024, .i32⟩ : BufTy).Contents (Elt F))
    (h5 : W (Proc.devRef .tc main_v5) = val_main_v5 (F := F) x1) (h6 : W (Proc.devRef .tc main_v6) = val_main_v6 (F := F) x0) :
    after (opsB (F := F)) W (Proc.devRef .tc main_v10) = val_main_v10 (F := F) x0 x1 := by
  after_results_simp
  simp only [ofBuf_toBuf, ofBuf_main_v4, ofBuf_main_v2, ofBuf_main_c_0, ofBuf_main_v1, ofBuf_main_v7, ofBuf_main_v6, ofBuf_main_call2_v5, ofBuf_main_cst_6, ofBuf_main_v15, ofBuf_main_v31, ofBuf_main_cst_10, ofBuf_main_v21, ofBuf_main_cst_14, ofBuf_main_v24, toBuf_main_v5, toBuf_main_v6, toBuf_main_call2_v4, toBuf_main_v8, toBuf_main_v32, toBuf_main_v38, toBuf_main_v45]
  simp only [h5, h6]
  rfl

/-- The second stretch leaves the validity mask as it was. -/
theorem stretchB_keeps_main_v4 (W : Valuation τ sig (Elt F)) :
    after (opsB (F := F)) W (Proc.devRef .tc main_v4) = W (Proc.devRef .tc main_v4) := by
  after_results_simp

/-- The second stretch leaves the safe label as it was. -/
theorem stretchB_keeps_main_v5 (W : Valuation τ sig (Elt F)) :
    after (opsB (F := F)) W (Proc.devRef .tc main_v5) = W (Proc.devRef .tc main_v5) := by
  after_results_simp

/-- The second stretch leaves the class weights as they were. -/
theorem stretchB_keeps_main_arg2 (W : Valuation τ sig (Elt F)) :
    after (opsB (F := F)) W (Proc.devRef .tc main_arg2) = W (Proc.devRef .tc main_arg2) := by
  after_results_simp

/-! ### Stretch C: the bucket masks and the gathered weight -/

/-- From any contents holding the validity mask of `x1` and the negative log-likelihood of `x0`, `x1`, the third
    stretch leaves the mask of the easy bucket: valid and confidence at least 0.8. -/
theorem stretchC_v15 (W : Valuation τ sig (Elt F)) (x0 : (⟨S8x19x512x1024, .f32⟩ : BufTy).Contents (Elt F)) (x1 : (⟨S8x512x1024, .i32⟩ : BufTy).Contents (Elt F))
    (h4 : W (Proc.devRef .tc main_v4) = val_main_v4 (F := F) x1) (h10 : W (Proc.devRef .tc main_v10) = val_main_v10 (F := F) x0 x1) :
    after (opsC (F := F)) W (Proc.devRef .tc main_v15) = val_main_v15 (F := F) x0 x1 := by
  after_results_simp
  simp only [h4, h10]
  rfl

/-- The same for the middle bucket: valid, confidence below 0.8 and at least 0.5. -/
theorem stretchC_v21 (W : Valuation τ sig (Elt F)) (x0 : (⟨S8x19x512x1024, .f32⟩ : BufTy).Contents (Elt F)) (x1 : (⟨S8x512x1024, .i32⟩ : BufTy).Contents (Elt F))
    (h4 : W (Proc.devRef .tc main_v4) = val_main_v4 (F := F) x1) (h10 : W (Proc.devRef .tc main_v10) = val_main_v10 (F := F) x0 x1) :
    after (opsC (F := F)) W (Proc.devRef .tc main_v21) = val_main_v21 (F := F) x0 x1 := by
  after_results_simp
  simp only [h4, h10]
  rfl

/-- The same for the hard bucket: valid and confidence below 0.5. -/
theorem stretchC_v24 (W : Valuation τ sig (Elt F)) (x0 : (⟨S8x19x512x1024, .f32⟩ : BufTy).Contents (Elt F)) (x1 : (⟨S8x512x1024, .i32⟩ : BufTy).Contents (Elt F))
    (h4 : W (Proc.devRef .tc main_v4) = val_main_v4 (F := F) x1) (h10 : W (Proc.devRef .tc main_v10) = val_main_v10 (F := F) x0 x1) :
    after (opsC (F := F)) W (Proc.devRef .tc main_v24) = val_main_v24 (F := F) x0 x1 := by
  after_results_simp
  simp only [h4, h10]
  rfl

/-- From any contents holding the safe label of `x1` and the class weights `x2`, the third stretch leaves each pixel's
    class weight, `x2` gathered at the safe label. -/
theorem stretchC_v31 (W : Valuation τ sig (Elt F)) (x1 : (⟨S8x512x1024, .i32⟩ : BufTy).Contents (Elt F)) (x2 : (⟨S19, .f32⟩ : BufTy).Contents (Elt F))
    (h5 : W (Proc.devRef .tc main_v5) = val_main_v5 (F := F) x1) (ha2 : W (Proc.devRef .tc main_arg2) = x2) :
    after (opsC (F := F)) W (Proc.devRef .tc main_v31) = val_main_v31 (F := F) x1 x2 := by
  after_results_simp
  simp only [h5, ha2]
  rfl

/-- The third stretch leaves the negative log-likelihood as it was. -/
theorem stretchC_keeps_main_v10 (W : Valuation τ sig (Elt F)) :
    after (opsC (F := F)) W (Proc.devRef .tc main_v10) = W (Proc.devRef .tc main_v10) := by
  after_results_simp

/-! ### Stretch D: the three masked means and their sum -/

/-- From any contents holding the negative log-likelihood, the three bucket masks and the gathered weight of the
    arguments, the last stretch leaves the loss: the sum over the buckets of Σ w·nll / max(Σ w, 1e-12). -/
theorem stretchD_v51 (W : Valuation τ sig (Elt F)) (x0 : (⟨S8x19x512x1024, .f32⟩ : BufTy).Contents (Elt F)) (x1 : (⟨S8x512x1024, .i32⟩ : BufTy).Contents (Elt F)) (x2 : (⟨S19, .f32⟩ : BufTy).Contents (Elt F))
    (h10 : W (Proc.devRef .tc main_v10) = val_main_v10 (F := F) x0 x1)
    (h15 : W (Proc.devRef .tc main_v15) = val_main_v15 (F := F) x0 x1)
    (h21 : W (Proc.devRef .tc main_v21) = val_main_v21 (F := F) x0 x1)
    (h24 : W (Proc.devRef .tc main_v24) = val_main_v24 (F := F) x0 x1)
    (h31 : W (Proc.devRef .tc main_v31) = val_main_v31 (F := F) x1 x2) :
    after (opsD (F := F)) W (Proc.devRef .tc main_v51) = val_main_v51 (F := F) x0 x1 x2 := by
  after_results_simp
  simp only [ofBuf_toBuf, ofBuf_main_v4, ofBuf_main_v2, ofBuf_main_c_0, ofBuf_main_v1, ofBuf_main_v7, ofBuf_main_v6, ofBuf_main_call2_v5, ofBuf_main_cst_6, ofBuf_main_v15, ofBuf_main_v31, ofBuf_main_cst_10, ofBuf_main_v21, ofBuf_main_cst_14, ofBuf_main_v24, toBuf_main_v5, toBuf_main_v6, toBuf_main_call2_v4, toBuf_main_v8, toBuf_main_v32, toBuf_main_v38, toBuf_main_v45]
  simp only [h10, h15, h21, h24, h31]
  rfl

/-! ### The whole program -/

/-- From any contents `V` of the device's buffers, after the 115 operations the result buffer holds the last stage
    of the three arguments as `V` has them. -/
theorem fold_result (V : Valuation τ sig (Elt F)) :
    after (ops (F := F)) V (Proc.devRef .tc main_v51)
      = val_main_v51 (F := F) (V (Proc.devRef .tc main_arg0)) (V (Proc.devRef .tc main_arg1)) (V (Proc.devRef .tc main_arg2)) := by
  rw [ops_split, after_append, after_append, after_append]
  have a4 := stretchA_v4 (F := F) V
  have a5 := stretchA_v5 (F := F) V
  have a6 := stretchA_v6 (F := F) V
  have a2 := stretchA_keeps_main_arg2 (F := F) V
  have b10 := stretchB_v10 (after opsA V) _ _ a5 a6
  have b4 := (stretchB_keeps_main_v4 (after opsA V)).trans a4
  have b5 := (stretchB_keeps_main_v5 (after opsA V)).trans a5
  have b2 := (stretchB_keeps_main_arg2 (after opsA V)).trans a2
  have c15 := stretchC_v15 (after opsB (after opsA V)) _ _ b4 b10
  have c21 := stretchC_v21 (after opsB (after opsA V)) _ _ b4 b10
  have c24 := stretchC_v24 (after opsB (after opsA V)) _ _ b4 b10
  have c31 := stretchC_v31 (after opsB (after opsA V)) _ _ b5 b2
  have c10 := (stretchC_keeps_main_v10 (after opsB (after opsA V))).trans b10
  exact stretchD_v51 (after opsC (after opsB (after opsA V))) _ _ _ c10 c15 c21 c24 c31

end Cert.ReferenceIdeal.RefStages

end
-- ==== Proof.RefNll.lean ====
/-
  The reference's negative log-likelihood, pixel by pixel.

  The reference flattens the pixels (image-major, then row, then column), takes the log-softmax of each pixel's
  nineteen logits — the maximum, capped below by `-∞`; the logits minus it; minus the log of the sum of their
  exponentials — gathers it at the label (the ignore label replaced by class zero; a negative index wrapped; the
  gather clamps; out of bounds a junk value is selected instead), and negates it. Read at one flat pixel this is
  `OhemSpec.rNll` of that pixel's logits and label.
-/
import proofs.«401014_j32229434589492_3_alg».proof.Proof.RefRead
import proofs.«401014_j32229434589492_3_alg».proof.Proof.BlockSpec
import Idealize.ShloMosaic.Lib.ValueIdx
import Idealize.ShloMosaic.Lib.ValueLayout
import Idealize.ShloMosaic.PureOps.Ideal.Laws

set_option maxRecDepth 16384

noncomputable section

namespace Cert.ReferenceIdeal.RefNll

open Cert.ReferenceIdeal Cert.ReferenceIdeal.Gen Cert.ReferenceIdeal.ReadP Idealize.ShloMosaic Idealize.ShloMosaic.ValueIdx OhemSpec

variable (x0 : (⟨S8x19x512x1024, .f32⟩ : BufTy).Contents (Elt Ideal)) (x1 : (⟨S8x512x1024, .i32⟩ : BufTy).Contents (Elt Ideal))

/-- The label plane is cut into images, rows and columns exactly as a flat pixel is decoded. -/
private theorem idx_v2_eq (p : S4194304.Idx) : idx_main_v2 p = ix3 (flatN p) (flatR p) (flatQ p) := by
  funext a
  match a with
  | ⟨0, _⟩ => rfl
  | ⟨1, _⟩ => rfl
  | ⟨2, _⟩ => rfl

/-- The flattened labels at a pixel: that pixel's label. -/
private theorem v2_apply (p : S4194304.Idx) : val_main_v2 (F := Ideal) x1 p = flatT x1 p := by
  rw [val_main_v2_apply, idx_v2_eq]
  rfl

/-- The label compared with the ignore label. -/
private theorem valid_at (p : S4194304.Idx) : val_main_v4 (F := Ideal) x1 p = rValid (flatT x1 p) := by
  rw [val_main_v4_apply, v2_apply, val_main_v3_apply, val_main_c_apply]
  rfl

/-- The safe label plane (the ignore label replaced by class zero). -/
theorem safe_apply (p : S4194304.Idx) : val_main_v5 (F := Ideal) x1 p = rSafe (flatT x1 p) := by
  rw [val_main_v5_apply, valid_at, v2_apply, val_main_call0_v1_apply, val_main_call0_v0_apply, val_main_c_0_apply]
  rfl

/-- The validity mask. -/
theorem valid_apply (p : S4194304.Idx) : val_main_v4 (F := Ideal) x1 p = rValid (flatT x1 p) := by
  exact valid_at x1 p

/-- The logits, moved class-last and flattened: at pixel `q` and class `ch` stands that pixel's logit of that class. -/
private theorem v1_apply (q : Fin 4194304) (ch : Fin 19) :
    val_main_v1 (F := Ideal) x0 (ix2 q ch) = flatL x0 (ix1 q) ch := by
  rw [val_main_v1_apply, val_main_v0_apply]
  show x0 _ = x0 _
  congr 1
  funext a
  apply Fin.ext
  have hq : q.val < 4194304 := q.isLt
  have hc : ch.val < 19 := ch.isLt
  match a with
  | ⟨0, _⟩ => show (q.val * 19 + ch.val) / 9961472 = q.val / 524288; omega
  | ⟨1, _⟩ => show (q.val * 19 + ch.val) % 19 = ch.val; omega
  | ⟨2, _⟩ => show (q.val * 19 + ch.val) / 19456 % 512 = q.val / 1024 % 512; omega
  | ⟨3, _⟩ => show (q.val * 19 + ch.val) / 19 % 1024 = q.val % 1024; omega

/-- The word of minus infinity denotes the least extended real. -/
private theorem neg_inf : Ideal.ofBits .f32 0xFF800000#32 = (⊥ : EReal) := by
  simp [Ideal.ofBits, Ideal.ieee]

/-- Dropping the class axis of the pixel-by-class plane leaves the pixels. -/
private theorem red19 : S4194304x19.Reduces [1] S4194304 := by decide

/-- Pixel `q` with class `k` put back on the dropped axis is the point (q, k). -/
private theorem lift19 (q : Fin 4194304) (k : Fin (S4194304x19.size 1)) :
    red19.lift (ix1 q) k = ix2 q (⟨k.val, k.isLt⟩ : Fin 19) := by
  funext c
  apply Fin.ext
  match c with
  | ⟨0, _⟩ => rfl
  | ⟨1, _⟩ => rfl

/-- The reduction over the classes, from minus infinity, is the largest of the pixel's nineteen logits. -/
private theorem max_apply (q : Fin 4194304) :
    val_main_call1_v0 (F := Ideal) x0 (ix1 q) = Finset.univ.sup' Finset.univ_nonempty (flatL x0 (ix1 q)) := by
  unfold val_main_call1_v0
  rw [Host.reduce_eq_fold_single FloatOps.maximumf _ _ reducesTo_S4194304x19_S4194304_d1 red19 h_S_]
  have hf : (val_main_v1 (F := Ideal) x0 ∘ red19.lift (ix1 q)) = fun k : Fin 19 => flatL x0 (ix1 q) k :=
    funext fun k => by
      show val_main_v1 (F := Ideal) x0 (red19.lift (ix1 q) k) = _
      rw [lift19, v1_apply]
      rfl
  rw [hf, Finset.sup'_eq_sup, val_main_call1_cst_apply]
  show Finset.fold max (Ideal.ofBits .f32 0xFF800000#32) (fun k => flatL x0 (ix1 q) k) Finset.univ = _
  rw [neg_inf]
  rfl

/-- Capped below by minus infinity, it is the reference's maximum of the pixel's logits. -/
private theorem rmax_apply (q : Fin 4194304) :
    val_main_call1_v2 (F := Ideal) x0 (ix1 q) = rMax (flatL x0 (ix1 q)) := by
  rw [val_main_call1_v2_apply, val_main_call1_v1_apply, val_main_call1_cst_0_apply, max_apply]
  show max (Ideal.ofBits .f32 0xFF800000#32) _ = _
  rw [neg_inf]
  rfl

/-- Spread over the classes, the maximum stands at every class of the pixel. -/
private theorem v4_apply (q : Fin 4194304) (ch : Fin 19) :
    val_main_call1_v4 (F := Ideal) x0 (ix2 q ch) = rMax (flatL x0 (ix1 q)) := by
  rw [val_main_call1_v4_apply, val_main_call1_v3_apply]
  have e : idx_main_call1_v3 (idx_main_call1_v4 (ix2 q ch)) = ix1 q := by
    funext a
    match a with
    | ⟨0, _⟩ => rfl
  rw [e, rmax_apply]

/-- The logit less the maximum. -/
private theorem v5_apply (q : Fin 4194304) (ch : Fin 19) :
    val_main_call1_v5 (F := Ideal) x0 (ix2 q ch) = flatL x0 (ix1 q) ch - rMax (flatL x0 (ix1 q)) := by
  rw [val_main_call1_v5_apply, v1_apply, v4_apply]
  rfl

/-- Its exponential. -/
private theorem v6_apply (q : Fin 4194304) (ch : Fin 19) :
    val_main_call1_v6 (F := Ideal) x0 (ix2 q ch) = Ideal.exp (flatL x0 (ix1 q) ch - rMax (flatL x0 (ix1 q))) := by
  rw [val_main_call1_v6_apply, v5_apply]
  rfl

/-- The sum of the exponentials over the classes, from zero. -/
private theorem v7_apply (q : Fin 4194304) :
    val_main_call1_v7 (F := Ideal) x0 (ix1 q)
      = 0 + ∑ k : Fin 19, Ideal.exp (flatL x0 (ix1 q) k - rMax (flatL x0 (ix1 q))) := by
  rw [val_main_call1_v7_apply, val_main_call1_cst_1_apply]
  show Ideal.ofBits .f32 0x00000000#32 + _ = _
  rw [Ideal.ofBits_zero_f32]
  refine congrArg (0 + ·) (Finset.sum_congr rfl fun k _ => ?_)
  have e : idx_main_call1_v7 (ix1 q) k = ix2 q k := by
    funext a
    match a with
    | ⟨0, _⟩ => rfl
    | ⟨1, _⟩ => rfl
  rw [e, v6_apply]

/-- The log-softmax of class `ch` at pixel `q`. -/
private theorem logp_apply (q : Fin 4194304) (ch : Fin 19) :
    val_main_v6 (F := Ideal) x0 (ix2 q ch) = rLogp (flatL x0 (ix1 q)) ch := by
  rw [val_main_v6_apply, v5_apply, val_main_call1_v10_apply, val_main_call1_v9_apply, val_main_call1_v8_apply]
  have e : idx_main_call1_v8 (idx_main_call1_v10 (ix2 q ch)) = ix1 q := by
    funext a
    match a with
    | ⟨0, _⟩ => rfl
  rw [e, v7_apply]
  rfl

/-- The safe labels stood up as a column. -/
private theorem v7m_apply (q : Fin 4194304) :
    val_main_v7 (F := Ideal) x1 (ix2 q (0 : Fin 1)) = rSafe (flatT x1 (ix1 q)) := by
  rw [val_main_v7_apply]
  have e : idx_main_v7 (ix2 q (0 : Fin 1)) = ix1 q := by
    funext a
    match a with
    | ⟨0, _⟩ => rfl
  rw [e, safe_apply]

/-- A negative index counts from the end: nineteen is added to it. -/
private theorem wrap_apply (q : Fin 4194304) :
    val_main_call2_v4 (F := Ideal) x1 (ix2 q (0 : Fin 1)) = rWrap (rSafe (flatT x1 (ix1 q))) := by
  rw [val_main_call2_v4_apply, val_main_call2_v1_apply, val_main_call2_v3_apply, v7m_apply,
    val_main_call2_v0_apply, val_main_call2_c_apply, val_main_call2_v2_apply, val_main_call2_c_0_apply]
  rfl

/-- The wrapped index with a unit axis more. -/
private theorem v5c_apply (q : Fin 4194304) :
    val_main_call2_v5 (F := Ideal) x1 (ix3 q (0 : Fin 1) (0 : Fin 1)) = rWrap (rSafe (flatT x1 (ix1 q))) := by
  rw [val_main_call2_v5_apply]
  have e : idx_main_call2_v5 (ix3 q (0 : Fin 1) (0 : Fin 1)) = ix2 q (0 : Fin 1) := by
    funext a
    match a with
    | ⟨0, _⟩ => apply Fin.ext; show ((q.val * 1 + 0) * 1 + 0) / 1 = q.val; omega
    | ⟨1, _⟩ => rfl
  rw [e, wrap_apply]

/-- The bounds test: at least zero and at most eighteen. -/
private theorem inb3_apply (q : Fin 4194304) :
    val_main_call2_v11 (F := Ideal) x1 (ix3 q (0 : Fin 1) (0 : Fin 1)) = rInb (rWrap (rSafe (flatT x1 (ix1 q)))) := by
  rw [val_main_call2_v11_apply, val_main_call2_v7_apply, val_main_call2_v10_apply, v5c_apply,
    val_main_call2_v6_apply, val_main_call2_c_2_apply, val_main_call2_v9_apply, val_main_call2_v8_apply,
    val_main_call2_c_1_apply]
  rfl

/-- Dropping the last unit axis. -/
private theorem red1 : S4194304x1x1.Reduces [2] S4194304x1 := by decide

/-- The one point over (q, 0) on the dropped unit axis. -/
private theorem lift1 (q : Fin 4194304) (k : Fin (S4194304x1x1.size 2)) :
    red1.lift (ix2 q (0 : Fin 1)) k = ix3 q (0 : Fin 1) (0 : Fin 1) := by
  funext c
  apply Fin.ext
  have hk : k.val < 1 := k.isLt
  match c with
  | ⟨0, _⟩ => rfl
  | ⟨1, _⟩ => rfl
  | ⟨2, _⟩ => show k.val = 0; omega

/-- A conjunction with the true bit changes nothing. -/
private theorem andi_true (b : BitVec 1) : IntOp.andi b 1#1 = b := by
  revert b; decide

/-- The conjunction over the unit axis of the bounds test is the bounds test. -/
private theorem inb_apply (q : Fin 4194304) :
    val_main_call2_v12 (F := Ideal) x1 (ix2 q (0 : Fin 1)) = rInb (rWrap (rSafe (flatT x1 (ix1 q)))) := by
  unfold val_main_call2_v12
  rw [Host.reduce_eq_fold_single IntOp.andi _ _ reducesTo_S4194304x1x1_S4194304x1_d2 red1 h_S_]
  have hf : (val_main_call2_v11 (F := Ideal) x1 ∘ red1.lift (ix2 q (0 : Fin 1)))
      = fun _ : Fin 1 => rInb (rWrap (rSafe (flatT x1 (ix1 q)))) :=
    funext fun k => by
      show val_main_call2_v11 (F := Ideal) x1 (red1.lift (ix2 q (0 : Fin 1)) k) = _
      rw [lift1, inb3_apply]
  rw [hf, val_main_call2_c_3_apply]
  show Finset.fold IntOp.andi 1#1 (fun _ : Fin 1 => rInb (rWrap (rSafe (flatT x1 (ix1 q)))))
    (Finset.univ : Finset (Fin 1)) = _
  rw [Finset.univ_unique, Finset.fold_singleton, andi_true]

/-- The gather's dimension numbers: the pixel axis is a batching axis, the class axis is collapsed and indexed. -/
private abbrev GD : GatherDims S4194304x19 S4194304x1x1 S4194304x1 := gather_S4194304x19_S4194304x1x1_S4194304x1_n_1_0_0_1_2_11

/-- Where the gather looks up its start index for pixel `q`: the one entry of that pixel's row of the index plane. -/
private theorem siIdx_eq (q : Fin 4194304) (c : Fin GD.startIndexMap.length) :
    GD.siIdx (ix2 q (0 : Fin 1)) c = ix3 q (0 : Fin 1) (0 : Fin 1) := by
  funext b
  apply Fin.ext
  have hc : c.val < 1 := c.isLt
  match b with
  | ⟨0, _⟩ => rfl
  | ⟨1, _⟩ => rfl
  | ⟨2, _⟩ => show c.val = 0; omega

/-- The pixel axis is carried over as it is. -/
private theorem batch0 (q : Fin 4194304) : GD.batchCoord (ix2 q (0 : Fin 1)) 0 = q.val := rfl

/-- The gather reads, at pixel `q`, the plane at (q, the index clamped into the classes). -/
private theorem gather_idx (q : Fin 4194304) :
    GD.operandIdx (ix2 q (0 : Fin 1)) (val_main_call2_v5 (F := Ideal) x1)
      = ix2 q (rClass (rWrap (rSafe (flatT x1 (ix1 q))))) := by
  funext a
  apply Fin.ext
  match a with
  | ⟨0, _⟩ =>
    show GD.start (ix2 q (0 : Fin 1)) (val_main_call2_v5 (F := Ideal) x1) 0
      + GD.batchCoord (ix2 q (0 : Fin 1)) 0 + GD.offCoord (ix2 q (0 : Fin 1)) 0 = q.val
    rw [GD.start_batching _ _ 0 (by decide), GD.offCoord_eq_zero _ 0 (by rw [GatherDims.mem_sKept]; decide), batch0]
    omega
  | ⟨1, _⟩ =>
    show GD.start (ix2 q (0 : Fin 1)) (val_main_call2_v5 (F := Ideal) x1) 1
      + GD.batchCoord (ix2 q (0 : Fin 1)) 1 + GD.offCoord (ix2 q (0 : Fin 1)) 1
      = (rClass (rWrap (rSafe (flatT x1 (ix1 q))))).val
    rw [GD.batchCoord_eq_zero _ 1 (by decide), GD.offCoord_eq_zero _ 1 (by rw [GatherDims.mem_sKept]; decide)]
    unfold GatherDims.start
    rw [dif_pos (by decide), siIdx_eq, v5c_apply]
    generalize rWrap (rSafe (flatT x1 (ix1 q))) = s
    show min s.toInt.toNat (19 - 1) + 0 + 0 = (max 0 (min s.toInt 18)).toNat
    omega

/-- The gathered value at pixel `q`: the log-softmax of the clamped class. -/
private theorem gather_apply (q : Fin 4194304) :
    val_main_call2_v13 (F := Ideal) x0 x1 (ix2 q (0 : Fin 1))
      = rLogp (flatL x0 (ix1 q)) (rClass (rWrap (rSafe (flatT x1 (ix1 q))))) := by
  unfold val_main_call2_v13 Host.gather
  show val_main_v6 (F := Ideal) x0 (GD.operandIdx (ix2 q (0 : Fin 1)) (val_main_call2_v5 (F := Ideal) x1)) = _
  rw [gather_idx, logp_apply]

/-- The gathered value where the index is in bounds, the junk word elsewhere. -/
private theorem v8m_apply (q : Fin 4194304) :
    val_main_v8 (F := Ideal) x0 x1 (ix2 q (0 : Fin 1))
      = Scalar.select (rInb (rWrap (rSafe (flatT x1 (ix1 q)))))
          (rLogp (flatL x0 (ix1 q)) (rClass (rWrap (rSafe (flatT x1 (ix1 q)))))) (Ideal.ofBits .f32 0x7FC00000#32) := by
  rw [val_main_v8_apply, inb_apply, gather_apply, val_main_call2_v14_apply, val_main_call2_cst_apply]
  rfl

/-- The negative log-likelihood at pixel `q`. -/
private theorem nll_at (q : Fin 4194304) :
    val_main_v10 (F := Ideal) x0 x1 (ix1 q) = rNll (flatL x0 (ix1 q)) (flatT x1 (ix1 q)) := by
  rw [val_main_v10_apply, val_main_v9_apply]
  have e : idx_main_v9 (ix1 q) = ix2 q (0 : Fin 1) := by
    funext a
    match a with
    | ⟨0, _⟩ => apply Fin.ext; show q.val / 1 = q.val; omega
    | ⟨1, _⟩ => rfl
  rw [e, v8m_apply]
  rfl

/-- The negative log-likelihood plane. -/
theorem nll_apply (p : S4194304.Idx) : val_main_v10 (F := Ideal) x0 x1 p = rNll (flatL x0 p) (flatT x1 p) := by
  obtain ⟨q, rfl⟩ : ∃ q : Fin 4194304, p = ix1 q := ⟨p 0, eq_ix1 p⟩
  exact nll_at x0 x1 q

end Cert.ReferenceIdeal.RefNll

end
-- ==== Proof.RefPixel.lean ====
/-
  The reference's six masked planes, pixel by pixel.

  From the negative log-likelihood the reference forms the confidence `exp (-nll)`, the three bucket masks (easy:
  valid and at least the upper threshold; middle: valid, below the upper and at least the lower; hard: valid and below
  the lower), gathers the class weight at the safe label (a negative index wrapped; the gather clamps), and masks it.
  Read at one flat pixel, each of the six planes it then sums is one of `OhemSpec`'s reference-side scalars of that
  pixel's logits, label and the weights.
-/
import proofs.«401014_j32229434589492_3_alg».proof.Proof.RefNll

set_option maxRecDepth 16384

noncomputable section

namespace Cert.ReferenceIdeal.RefPixel

open Cert.ReferenceIdeal Cert.ReferenceIdeal.Gen Cert.ReferenceIdeal.ReadP Cert.ReferenceIdeal.RefNll
open Idealize.ShloMosaic Idealize.ShloMosaic.ValueIdx OhemSpec

variable (x0 : (⟨S8x19x512x1024, .f32⟩ : BufTy).Contents (Elt Ideal)) (x1 : (⟨S8x512x1024, .i32⟩ : BufTy).Contents (Elt Ideal))
  (x2 : (⟨S19, .f32⟩ : BufTy).Contents (Elt Ideal))

/-! ## The confidence and the three bucket masks -/

/-- The confidence plane: the exponential of minus the negative log-likelihood. -/
theorem pixConf_apply (p : S4194304.Idx) : val_main_v12 (F := Ideal) x0 x1 p = rConf (flatL x0 p) (flatT x1 p) := by
  rw [val_main_v12_apply, val_main_v11_apply, RefNll.nll_apply]
  rfl

/-- The upper threshold, broadcast (its two copies). -/
theorem pixHi13_apply (p : S4194304.Idx) : val_main_v13 (F := Ideal) p = thHi := by
  rw [val_main_v13_apply, val_main_cst_apply]; rfl
theorem pixHi16_apply (p : S4194304.Idx) : val_main_v16 (F := Ideal) p = thHi := by
  rw [val_main_v16_apply, val_main_cst_1_apply]; rfl
/-- The lower threshold, broadcast (its two copies). -/
theorem pixLo19_apply (p : S4194304.Idx) : val_main_v19 (F := Ideal) p = thLo := by
  rw [val_main_v19_apply, val_main_cst_2_apply]; rfl
theorem pixLo22_apply (p : S4194304.Idx) : val_main_v22 (F := Ideal) p = thLo := by
  rw [val_main_v22_apply, val_main_cst_3_apply]; rfl

/-- The easy mask: valid and the confidence at least the upper threshold. -/
theorem pixEasyMask_apply (p : S4194304.Idx) : val_main_v15 (F := Ideal) x0 x1 p = rEasy (flatL x0 p) (flatT x1 p) := by
  rw [val_main_v15_apply, val_main_v14_apply, RefNll.valid_apply, pixConf_apply, pixHi13_apply]
  rfl

/-- The middle mask: valid, the confidence below the upper threshold and at least the lower one. -/
theorem pixMidMask_apply (p : S4194304.Idx) : val_main_v21 (F := Ideal) x0 x1 p = rMid (flatL x0 p) (flatT x1 p) := by
  rw [val_main_v21_apply, val_main_v18_apply, val_main_v17_apply, val_main_v20_apply, RefNll.valid_apply, pixConf_apply,
    pixHi16_apply, pixLo19_apply]
  rfl

/-- The hard mask: valid and the confidence below the lower threshold. -/
theorem pixHardMask_apply (p : S4194304.Idx) : val_main_v24 (F := Ideal) x0 x1 p = rHard (flatL x0 p) (flatT x1 p) := by
  rw [val_main_v24_apply, val_main_v23_apply, RefNll.valid_apply, pixConf_apply, pixLo22_apply]
  rfl

/-! ## The class weight at the safe label -/

/-- The wrapped safe label: a negative label counts from the end of the nineteen classes. -/
theorem pixWrap_apply (p : S4194304.Idx) : val_main_v29 (F := Ideal) x1 p = rWrap (rSafe (flatT x1 p)) := by
  rw [val_main_v29_apply, val_main_v26_apply, val_main_v28_apply, RefNll.safe_apply, val_main_v25_apply, val_main_c_4_apply,
    val_main_v27_apply, val_main_c_5_apply]
  rfl

/-- The start index the gather reads for pixel `y`: row `y` of the one-column index array. -/
abbrev pixStartIx (y : S4194304.Idx) : S4194304x1.Idx := fun a => match a with
  | ⟨0, _⟩ => ⟨(y 0).val, (y 0).isLt⟩
  | ⟨1, _⟩ => ⟨0, Nat.one_pos⟩

/-- The gather of a nineteen-entry table at a one-column array of start indices reads, at pixel `y`, the table at the
    start index of row `y`, taken signed and clamped into the table. -/
theorem pixGather_apply {α : Type} (x : S19.Idx → α) (idx : IVec S4194304x1 32) (y : S4194304.Idx) :
    Host.gather gather_S19_S4194304x1_S4194304_n_0_n_n_0_1_1 x idx y
      = x (ix1 ⟨min (idx (pixStartIx y)).toInt.toNat 18, by omega⟩) := by
  unfold Host.gather
  congr 1
  funext a
  obtain rfl : a = 0 := Subsingleton.elim _ _
  refine Fin.ext ?_
  show gather_S19_S4194304x1_S4194304_n_0_n_n_0_1_1.start y idx 0
      + gather_S19_S4194304x1_S4194304_n_0_n_n_0_1_1.batchCoord y 0
      + gather_S19_S4194304x1_S4194304_n_0_n_n_0_1_1.offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S19_S4194304x1_S4194304_n_0_n_n_0_1_1.startIndexMap from List.mem_singleton.mpr rfl)]
  have hsi : gather_S19_S4194304x1_S4194304_n_0_n_n_0_1_1.siIdx y
      ⟨List.idxOf (0 : Fin 1) gather_S19_S4194304x1_S4194304_n_0_n_n_0_1_1.startIndexMap,
        List.idxOf_lt_length_iff.2 (List.mem_singleton.mpr rfl)⟩ = pixStartIx y := by
    funext b; refine Fin.ext ?_
    match b with
    | ⟨0, _⟩ => rfl
    | ⟨1, _⟩ => rfl
  rw [hsi]
  rfl

/-- Clamping a signed word into the nineteen classes, in the two spellings. -/
theorem pixClamp_eq (s : BitVec 32) : min s.toInt.toNat 18 = (max 0 (min s.toInt 18)).toNat := by
  omega

/-- The table at a clamped signed word is the weight of the class the word names. -/
theorem pixWts_clamp (s : BitVec 32) : x2 (ix1 ⟨min s.toInt.toNat 18, by omega⟩) = wts x2 (rClass s) := by
  unfold wts rClass
  congr 1
  funext a; match a with
  | ⟨0, _⟩ => exact Fin.ext (pixClamp_eq s)

/-- The one-column index array holds, in row `p`, the wrapped safe label of pixel `p`. -/
theorem pixStart_apply (p : S4194304.Idx) : val_main_v30 (F := Ideal) x1 (pixStartIx p) = rWrap (rSafe (flatT x1 p)) := by
  rw [val_main_v30_apply]
  have hp : idx_main_v30 (pixStartIx p) = p := by
    funext a; match a with | ⟨0, _⟩ => rfl
  rw [hp, pixWrap_apply]

/-- The gathered class weight: the weight of the class the wrapped safe label names. -/
theorem pixWeight_apply (p : S4194304.Idx) :
    val_main_v31 (F := Ideal) x1 x2 p = wts x2 (rClass (rWrap (rSafe (flatT x1 p)))) := by
  unfold val_main_v31
  refine (pixGather_apply x2 (val_main_v30 (F := Ideal) x1) p).trans ?_
  refine (pixWts_clamp x2 (val_main_v30 (F := Ideal) x1 (pixStartIx p))).trans ?_
  rw [pixStart_apply]

/-! ## The six masked planes -/

/-- The zero the masked-out pixels read (its three copies, one per bucket). -/
theorem pixZeroE_apply (p : S4194304.Idx) : val_main_call3_v1 (F := Ideal) p = (0 : EReal) := by
  rw [val_main_call3_v1_apply, val_main_call3_v0_apply, val_main_cst_6_apply]; exact Ideal.ofBits_zero_f32
theorem pixZeroM_apply (p : S4194304.Idx) : val_main_call4_v1 (F := Ideal) p = (0 : EReal) := by
  rw [val_main_call4_v1_apply, val_main_call4_v0_apply, val_main_cst_10_apply]; exact Ideal.ofBits_zero_f32
theorem pixZeroH_apply (p : S4194304.Idx) : val_main_call5_v1 (F := Ideal) p = (0 : EReal) := by
  rw [val_main_call5_v1_apply, val_main_call5_v0_apply, val_main_cst_14_apply]; exact Ideal.ofBits_zero_f32

/-- The easy bucket's masked weight, and the plane multiplied with the nll. -/
theorem easy_apply (p : S4194304.Idx) : val_main_v32 (F := Ideal) x0 x1 x2 p = rE (wts x2) (flatL x0 p) (flatT x1 p) := by
  rw [val_main_v32_apply, pixEasyMask_apply, pixWeight_apply, pixZeroE_apply]
  rfl
theorem easyN_apply (p : S4194304.Idx) : val_main_v34 (F := Ideal) x0 x1 x2 p = rEN (wts x2) (flatL x0 p) (flatT x1 p) := by
  rw [val_main_v34_apply, RefPixel.easy_apply, RefNll.nll_apply]
  rfl
/-- The middle bucket's. -/
theorem mid_apply (p : S4194304.Idx) : val_main_v38 (F := Ideal) x0 x1 x2 p = rM (wts x2) (flatL x0 p) (flatT x1 p) := by
  rw [val_main_v38_apply, pixMidMask_apply, pixWeight_apply, pixZeroM_apply]
  rfl
theorem midN_apply (p : S4194304.Idx) : val_main_v40 (F := Ideal) x0 x1 x2 p = rMN (wts x2) (flatL x0 p) (flatT x1 p) := by
  rw [val_main_v40_apply, RefPixel.mid_apply, RefNll.nll_apply]
  rfl
/-- The hard bucket's. -/
theorem hard_apply (p : S4194304.Idx) : val_main_v45 (F := Ideal) x0 x1 x2 p = rH (wts x2) (flatL x0 p) (flatT x1 p) := by
  rw [val_main_v45_apply, pixHardMask_apply, pixWeight_apply, pixZeroH_apply]
  rfl
theorem hardN_apply (p : S4194304.Idx) : val_main_v47 (F := Ideal) x0 x1 x2 p = rHN (wts x2) (flatL x0 p) (flatT x1 p) := by
  rw [val_main_v47_apply, RefPixel.hard_apply, RefNll.nll_apply]
  rfl

end Cert.ReferenceIdeal.RefPixel

end
-- ==== Proof.RefValue.lean ====
/-
  The reference program's last stage: each bucket's two sums over all pixels, then the loss from the six sums —
  `lossOf` of `OhemSpec.rCol` of the argument arrays.
-/
import proofs.«401014_j32229434589492_3_alg».proof.Proof.RefPixel

set_option maxRecDepth 16384

noncomputable section

namespace Cert.ReferenceIdeal.RefValue

open Cert.ReferenceIdeal Cert.ReferenceIdeal.Gen Cert.ReferenceIdeal.ReadP Cert.ReferenceIdeal.RefPixel
open Idealize.ShloMosaic Idealize.ShloMosaic.TcCoe Idealize.SL.Sem Idealize.ShloMosaic.ValueIdx OhemSpec

section Sums

variable (x0 : (⟨S8x19x512x1024, .f32⟩ : BufTy).Contents (Elt Ideal)) (x1 : (⟨S8x512x1024, .i32⟩ : BufTy).Contents (Elt Ideal))
  (x2 : (⟨S19, .f32⟩ : BufTy).Contents (Elt Ideal))

/-- The easy bucket's total weight: the zero start plus the sum over all pixels of the easy masked weight. -/
private theorem sumE (i : S_.Idx) : val_main_v33 (F := Ideal) x0 x1 x2 i = flatSum (rE (wts x2)) x0 x1 := by
  rw [val_main_v33_apply, val_main_cst_7_apply]
  show Ideal.ofBits .f32 0x00000000#32 + _ = _
  rw [Ideal.ofBits_zero_f32, zero_add]
  unfold flatSum
  exact Finset.sum_congr rfl fun p _ => easy_apply x0 x1 x2 p

/-- The easy bucket's total of weight × nll. -/
private theorem sumEN (i : S_.Idx) : val_main_v35 (F := Ideal) x0 x1 x2 i = flatSum (rEN (wts x2)) x0 x1 := by
  rw [val_main_v35_apply, val_main_cst_8_apply]
  show Ideal.ofBits .f32 0x00000000#32 + _ = _
  rw [Ideal.ofBits_zero_f32, zero_add]
  unfold flatSum
  exact Finset.sum_congr rfl fun p _ => easyN_apply x0 x1 x2 p

/-- The middle bucket's total weight. -/
private theorem sumM (i : S_.Idx) : val_main_v39 (F := Ideal) x0 x1 x2 i = flatSum (rM (wts x2)) x0 x1 := by
  rw [val_main_v39_apply, val_main_cst_11_apply]
  show Ideal.ofBits .f32 0x00000000#32 + _ = _
  rw [Ideal.ofBits_zero_f32, zero_add]
  unfold flatSum
  exact Finset.sum_congr rfl fun p _ => mid_apply x0 x1 x2 p

/-- The middle bucket's total of weight × nll. -/
private theorem sumMN (i : S_.Idx) : val_main_v41 (F := Ideal) x0 x1 x2 i = flatSum (rMN (wts x2)) x0 x1 := by
  rw [val_main_v41_apply, val_main_cst_12_apply]
  show Ideal.ofBits .f32 0x00000000#32 + _ = _
  rw [Ideal.ofBits_zero_f32, zero_add]
  unfold flatSum
  exact Finset.sum_congr rfl fun p _ => midN_apply x0 x1 x2 p

/-- The hard bucket's total weight. -/
private theorem sumH (i : S_.Idx) : val_main_v46 (F := Ideal) x0 x1 x2 i = flatSum (rH (wts x2)) x0 x1 := by
  rw [val_main_v46_apply, val_main_cst_15_apply]
  show Ideal.ofBits .f32 0x00000000#32 + _ = _
  rw [Ideal.ofBits_zero_f32, zero_add]
  unfold flatSum
  exact Finset.sum_congr rfl fun p _ => hard_apply x0 x1 x2 p

/-- The hard bucket's total of weight × nll. -/
private theorem sumHN (i : S_.Idx) : val_main_v48 (F := Ideal) x0 x1 x2 i = flatSum (rHN (wts x2)) x0 x1 := by
  rw [val_main_v48_apply, val_main_cst_16_apply]
  show Ideal.ofBits .f32 0x00000000#32 + _ = _
  rw [Ideal.ofBits_zero_f32, zero_add]
  unfold flatSum
  exact Finset.sum_congr rfl fun p _ => hardN_apply x0 x1 x2 p

/-- The easy bucket's quotient: its weight × nll total over its weight total, floored. -/
private theorem quotE (i : S_.Idx) : val_main_v37 (F := Ideal) x0 x1 x2 i =
    Ideal.div (flatSum (rEN (wts x2)) x0 x1) (max (flatSum (rE (wts x2)) x0 x1) floorW) := by
  rw [val_main_v37_apply, val_main_v36_apply, sumEN, sumE, val_main_cst_9_apply]
  rfl

/-- The middle bucket's quotient. -/
private theorem quotM (i : S_.Idx) : val_main_v43 (F := Ideal) x0 x1 x2 i =
    Ideal.div (flatSum (rMN (wts x2)) x0 x1) (max (flatSum (rM (wts x2)) x0 x1) floorW) := by
  rw [val_main_v43_apply, val_main_v42_apply, sumMN, sumM, val_main_cst_13_apply]
  rfl

/-- The hard bucket's quotient. -/
private theorem quotH (i : S_.Idx) : val_main_v50 (F := Ideal) x0 x1 x2 i =
    Ideal.div (flatSum (rHN (wts x2)) x0 x1) (max (flatSum (rH (wts x2)) x0 x1) floorW) := by
  rw [val_main_v50_apply, val_main_v49_apply, sumHN, sumH, val_main_cst_17_apply]
  rfl

end Sums

/-- The last stage is the loss of the reference's six sums. -/
theorem val_result (x0 : (⟨S8x19x512x1024, .f32⟩ : BufTy).Contents (Elt Ideal)) (x1 : (⟨S8x512x1024, .i32⟩ : BufTy).Contents (Elt Ideal))
    (x2 : (⟨S19, .f32⟩ : BufTy).Contents (Elt Ideal)) :
    val_main_v51 (F := Ideal) x0 x1 x2 = fun _ => lossOf (rCol x0 x1 x2) := by
  funext i
  rw [val_main_v51_apply, val_main_v44_apply, quotE, quotM, quotH]
  rfl

end Cert.ReferenceIdeal.RefValue

end
-- ==== Proof.Bridge.lean ====
/-
  The kernel's six column sums are the reference's six sums.

  The kernel sums band by band (image, band, row in the band, column); the reference sums over the flat pixel index.
  Both are sums over the same pixels of quantities that agree pixel by pixel (`OhemSpec`'s agreement lemmas), and the
  kernel's middle columns, formed band by band as all-valid minus easy minus hard, are the middle bucket's sums because
  every term is finite.
-/
import proofs.«401014_j32229434589492_3_alg».proof.Proof.BlockSpec
import Mathlib.Data.Fintype.BigOperators

noncomputable section

namespace OhemSpec

open Idealize.ShloMosaic Idealize.ShloMosaic.ValueIdx

/-! ## The flat pixel index, band by band -/

/-- The row 128 h + a of band h. -/
def bandRow (h : Fin 4) (a : Fin 128) : Fin 512 :=
  ⟨128 * h.val + a.val, by have := h.isLt; have := a.isLt; omega⟩

/-- A flat pixel index is an image, a band, a row in the band and a column, and conversely. -/
def flatEquiv : SFlat.Idx ≃ Fin 8 × Fin 4 × Fin 128 × Fin 1024 where
  toFun p :=
    (⟨(p 0).val / 524288, by have h0 : (p 0).val < 4194304 := (p 0).isLt; omega⟩,
     ⟨(p 0).val / 1024 % 512 / 128, by omega⟩,
     ⟨(p 0).val / 1024 % 512 % 128, by omega⟩,
     ⟨(p 0).val % 1024, by omega⟩)
  invFun q :=
    ix1 ⟨(q.1.val * 512 + 128 * q.2.1.val + q.2.2.1.val) * 1024 + q.2.2.2.val, by
      have := q.1.isLt; have := q.2.1.isLt; have := q.2.2.1.isLt; have := q.2.2.2.isLt; omega⟩
  left_inv p := by
    have h0 : (p 0).val < 4194304 := (p 0).isLt
    funext d
    match d with
    | ⟨0, _⟩ =>
      apply Fin.ext
      show ((p 0).val / 524288 * 512 + 128 * ((p 0).val / 1024 % 512 / 128) + (p 0).val / 1024 % 512 % 128) * 1024
          + (p 0).val % 1024 = (p 0).val
      omega
  right_inv q := by
    obtain ⟨n, h, a, b⟩ := q
    have := n.isLt; have := h.isLt; have := a.isLt; have := b.isLt
    refine Prod.ext (Fin.ext ?_) (Prod.ext (Fin.ext ?_) (Prod.ext (Fin.ext ?_) (Fin.ext ?_)))
    · show ((n.val * 512 + 128 * h.val + a.val) * 1024 + b.val) / 524288 = n.val
      omega
    · show ((n.val * 512 + 128 * h.val + a.val) * 1024 + b.val) / 1024 % 512 / 128 = h.val
      omega
    · show ((n.val * 512 + 128 * h.val + a.val) * 1024 + b.val) / 1024 % 512 % 128 = a.val
      omega
    · show ((n.val * 512 + 128 * h.val + a.val) * 1024 + b.val) % 1024 = b.val
      omega

/-- A sum over the flat pixel index is the sum over image, band, row in the band and column. -/
theorem flatSum_eq_bands (g : Fin 8 → Fin 512 → Fin 1024 → EReal) :
    (∑ p : SFlat.Idx, g (flatN p) (flatR p) (flatQ p))
      = ∑ n : Fin 8, ∑ h : Fin 4, ∑ a : Fin 128, ∑ b : Fin 1024,
          g n ⟨128 * h.val + a.val, by have := h.isLt; have := a.isLt; omega⟩ b := by
  have key : ∀ p : SFlat.Idx, g (flatN p) (flatR p) (flatQ p)
      = (fun q : Fin 8 × Fin 4 × Fin 128 × Fin 1024 => g q.1 (bandRow q.2.1 q.2.2.1) q.2.2.2) (flatEquiv p) := by
    intro p
    have h0 : (p 0).val < 4194304 := (p 0).isLt
    have hR : flatR p = bandRow (flatEquiv p).2.1 (flatEquiv p).2.2.1 := by
      apply Fin.ext
      show (p 0).val / 1024 % 512 = 128 * ((p 0).val / 1024 % 512 / 128) + (p 0).val / 1024 % 512 % 128
      omega
    rw [hR]
    rfl
  rw [Fintype.sum_equiv flatEquiv _
    (fun q : Fin 8 × Fin 4 × Fin 128 × Fin 1024 => g q.1 (bandRow q.2.1 q.2.2.1) q.2.2.2) key, Fintype.sum_prod_type]
  refine Finset.sum_congr rfl fun n _ => ?_
  rw [Fintype.sum_prod_type]
  refine Finset.sum_congr rfl fun h _ => ?_
  rw [Fintype.sum_prod_type]
  rfl

/-! ## Block sums and flat sums over the same pixels -/

/-- The nineteen logits of pixel (n, r, q) of the whole array. -/
def pixL (X0 : SImgL.Idx → EReal) (n : Fin 8) (r : Fin 512) (q : Fin 1024) : Fin 19 → EReal :=
  fun ch => X0 (ix4 n ch r q)
/-- The label of pixel (n, r, q) of the whole array. -/
def pixT (X1 : SImgT.Idx → BitVec 32) (n : Fin 8) (r : Fin 512) (q : Fin 1024) : BitVec 32 := X1 (ix3 n r q)

/-- Finite logits are finite at every pixel. -/
theorem pixL_finite {X0 : SImgL.Idx → EReal} (h0 : Finite X0) (n : Fin 8) (r : Fin 512) (q : Fin 1024) :
    Finite (pixL X0 n r q) := fun _ => h0 _

/-- Finite weights are a finite family over the classes. -/
theorem wts_finite {X2 : SWts.Idx → EReal} (h2 : Finite X2) : Finite (wts X2) := fun _ => h2 _

/-- A band's block sum is the sum over the band's pixels of the whole array. -/
theorem blkSum_band (f : (Fin 19 → EReal) → BitVec 32 → EReal) (X0 : SImgL.Idx → EReal)
    (X1 : SImgT.Idx → BitVec 32) (n : Fin 8) (h : Fin 4) :
    blkSum f (bandL X0 n h) (bandT X1 n h)
      = ∑ a : Fin 128, ∑ b : Fin 1024, f (pixL X0 n (bandRow h a) b) (pixT X1 n (bandRow h a) b) := by
  unfold blkSum
  refine Finset.sum_congr rfl fun a _ => Finset.sum_congr rfl fun b _ => ?_
  rfl

/-- The sum over all pixels, band by band. -/
theorem flatSum_bands (f : (Fin 19 → EReal) → BitVec 32 → EReal) (X0 : SImgL.Idx → EReal)
    (X1 : SImgT.Idx → BitVec 32) :
    flatSum f X0 X1
      = ∑ n : Fin 8, ∑ h : Fin 4, ∑ a : Fin 128, ∑ b : Fin 1024,
          f (pixL X0 n (bandRow h a) b) (pixT X1 n (bandRow h a) b) :=
  flatSum_eq_bands (fun n r q => f (pixL X0 n r q) (pixT X1 n r q))

/-- Two per-pixel quantities that agree at every pixel have the same totals, one summed band by band, the other
    over the flat index. -/
theorem bands_eq_flat (f f' : (Fin 19 → EReal) → BitVec 32 → EReal) (X0 : SImgL.Idx → EReal)
    (X1 : SImgT.Idx → BitVec 32)
    (hff : ∀ n r q, f (pixL X0 n r q) (pixT X1 n r q) = f' (pixL X0 n r q) (pixT X1 n r q)) :
    (∑ n : Fin 8, ∑ h : Fin 4, blkSum f (bandL X0 n h) (bandT X1 n h)) = flatSum f' X0 X1 := by
  rw [flatSum_bands]
  refine Finset.sum_congr rfl fun n _ => Finset.sum_congr rfl fun h _ => ?_
  rw [blkSum_band]
  exact Finset.sum_congr rfl fun a _ => Finset.sum_congr rfl fun b _ => hff n (bandRow h a) b

/-- In one band: the total of a quantity, minus the totals of two of its three finite parts, is the total of the
    third part. -/
theorem band_sub_sub (f g k e : (Fin 19 → EReal) → BitVec 32 → EReal) (X0 : SImgL.Idx → EReal)
    (X1 : SImgT.Idx → BitVec 32)
    (hg : ∀ n r q, g (pixL X0 n r q) (pixT X1 n r q) ≠ ⊤ ∧ g (pixL X0 n r q) (pixT X1 n r q) ≠ ⊥)
    (hk : ∀ n r q, k (pixL X0 n r q) (pixT X1 n r q) ≠ ⊤ ∧ k (pixL X0 n r q) (pixT X1 n r q) ≠ ⊥)
    (he : ∀ n r q, e (pixL X0 n r q) (pixT X1 n r q) ≠ ⊤ ∧ e (pixL X0 n r q) (pixT X1 n r q) ≠ ⊥)
    (hf : ∀ n r q, f (pixL X0 n r q) (pixT X1 n r q)
      = g (pixL X0 n r q) (pixT X1 n r q) + k (pixL X0 n r q) (pixT X1 n r q) + e (pixL X0 n r q) (pixT X1 n r q))
    (n : Fin 8) (h : Fin 4) :
    blkSum f (bandL X0 n h) (bandT X1 n h) - blkSum g (bandL X0 n h) (bandT X1 n h)
        - blkSum e (bandL X0 n h) (bandT X1 n h)
      = ∑ a : Fin 128, ∑ b : Fin 1024, k (pixL X0 n (bandRow h a) b) (pixT X1 n (bandRow h a) b) := by
  have hprod : ∀ u : (Fin 19 → EReal) → BitVec 32 → EReal,
      blkSum u (bandL X0 n h) (bandT X1 n h)
        = ∑ i ∈ (Finset.univ : Finset (Fin 128 × Fin 1024)),
            u (pixL X0 n (bandRow h i.1) i.2) (pixT X1 n (bandRow h i.1) i.2) := by
    intro u
    rw [blkSum_band, Fintype.sum_prod_type]
  rw [hprod f, hprod g, hprod e,
    ← Fintype.sum_prod_type (fun i : Fin 128 × Fin 1024 =>
      k (pixL X0 n (bandRow h i.1) i.2) (pixT X1 n (bandRow h i.1) i.2))]
  exact sum_sub_sub Finset.univ _ _ _ _ (fun i _ => hg n _ _) (fun i _ => hk n _ _) (fun i _ => he n _ _)
    (fun i _ => hf n _ _)

/-- The same over all bands: the kernel's way of forming a middle column gives the flat total of the third part. -/
theorem bands_sub_sub_eq_flat (f g k e : (Fin 19 → EReal) → BitVec 32 → EReal) (X0 : SImgL.Idx → EReal)
    (X1 : SImgT.Idx → BitVec 32)
    (hg : ∀ n r q, g (pixL X0 n r q) (pixT X1 n r q) ≠ ⊤ ∧ g (pixL X0 n r q) (pixT X1 n r q) ≠ ⊥)
    (hk : ∀ n r q, k (pixL X0 n r q) (pixT X1 n r q) ≠ ⊤ ∧ k (pixL X0 n r q) (pixT X1 n r q) ≠ ⊥)
    (he : ∀ n r q, e (pixL X0 n r q) (pixT X1 n r q) ≠ ⊤ ∧ e (pixL X0 n r q) (pixT X1 n r q) ≠ ⊥)
    (hf : ∀ n r q, f (pixL X0 n r q) (pixT X1 n r q)
      = g (pixL X0 n r q) (pixT X1 n r q) + k (pixL X0 n r q) (pixT X1 n r q) + e (pixL X0 n r q) (pixT X1 n r q)) :
    (∑ n : Fin 8, ∑ h : Fin 4,
        (blkSum f (bandL X0 n h) (bandT X1 n h) - blkSum g (bandL X0 n h) (bandT X1 n h)
          - blkSum e (bandL X0 n h) (bandT X1 n h)))
      = flatSum k X0 X1 := by
  rw [flatSum_bands]
  exact Finset.sum_congr rfl fun n _ => Finset.sum_congr rfl fun h _ =>
    band_sub_sub f g k e X0 X1 hg hk he hf n h

/-! ## The six columns -/

/-- On finite logits and weights and admissible labels the kernel's column sums are the reference's sums. -/
theorem cols_agree (X0 : SImgL.Idx → EReal) (X1 : SImgT.Idx → BitVec 32) (X2 : SWts.Idx → EReal)
    (h0 : Finite X0) (h2 : Finite X2) (h1 : ∀ i, LabelOk (X1 i)) (j : ℕ) (hj : j < 6) :
    kCol X0 X1 X2 j = rCol X0 X1 X2 j := by
  have hw : Finite (wts X2) := wts_finite h2
  have hL : ∀ n r q, Finite (pixL X0 n r q) := fun n r q => pixL_finite h0 n r q
  have hT : ∀ n r q, LabelOk (pixT X1 n r q) := fun n r q => h1 _
  unfold kCol
  interval_cases j
  · -- easy weight
    show (∑ n : Fin 8, ∑ h : Fin 4, blkSum (kE (wts X2)) (bandL X0 n h) (bandT X1 n h))
      = flatSum (rE (wts X2)) X0 X1
    exact bands_eq_flat _ _ X0 X1 fun n r q => easy_mw _ _ _ (hL n r q) (hT n r q)
  · -- easy weight times nll
    show (∑ n : Fin 8, ∑ h : Fin 4, blkSum (kEN (wts X2)) (bandL X0 n h) (bandT X1 n h))
      = flatSum (rEN (wts X2)) X0 X1
    exact bands_eq_flat _ _ X0 X1 fun n r q => easy_mwnll _ _ _ (hL n r q) (hT n r q)
  · -- middle weight: all valid minus easy minus hard, band by band
    show (∑ n : Fin 8, ∑ h : Fin 4,
        (blkSum (kV (wts X2)) (bandL X0 n h) (bandT X1 n h) - blkSum (kE (wts X2)) (bandL X0 n h) (bandT X1 n h)
          - blkSum (kH (wts X2)) (bandL X0 n h) (bandT X1 n h)))
      = flatSum (rM (wts X2)) X0 X1
    exact bands_sub_sub_eq_flat (kV (wts X2)) (kE (wts X2)) (rM (wts X2)) (kH (wts X2)) X0 X1
      (fun n r q => kMw_finite _ _ _ hw)
      (fun n r q => (rMid_finite _ _ _ (hL n r q) hw (hT n r q)).1)
      (fun n r q => kMw_finite _ _ _ hw)
      (fun n r q => mid_mw _ _ _ (hL n r q) hw (hT n r q))
  · -- middle weight times nll
    show (∑ n : Fin 8, ∑ h : Fin 4,
        (blkSum (kVN (wts X2)) (bandL X0 n h) (bandT X1 n h) - blkSum (kEN (wts X2)) (bandL X0 n h) (bandT X1 n h)
          - blkSum (kHN (wts X2)) (bandL X0 n h) (bandT X1 n h)))
      = flatSum (rMN (wts X2)) X0 X1
    exact bands_sub_sub_eq_flat (kVN (wts X2)) (kEN (wts X2)) (rMN (wts X2)) (kHN (wts X2)) X0 X1
      (fun n r q => kMwNll_finite _ _ _ _ (hL n r q) hw)
      (fun n r q => (rMid_finite _ _ _ (hL n r q) hw (hT n r q)).2)
      (fun n r q => kMwNll_finite _ _ _ _ (hL n r q) hw)
      (fun n r q => mid_mwnll _ _ _ (hL n r q) hw (hT n r q))
  · -- hard weight
    show (∑ n : Fin 8, ∑ h : Fin 4, blkSum (kH (wts X2)) (bandL X0 n h) (bandT X1 n h))
      = flatSum (rH (wts X2)) X0 X1
    exact bands_eq_flat _ _ X0 X1 fun n r q => hard_mw _ _ _ (hL n r q) (hT n r q)
  · -- hard weight times nll
    show (∑ n : Fin 8, ∑ h : Fin 4, blkSum (kHN (wts X2)) (bandL X0 n h) (bandT X1 n h))
      = flatSum (rHN (wts X2)) X0 X1
    exact bands_eq_flat _ _ X0 X1 fun n r q => hard_mwnll _ _ _ (hL n r q) (hT n r q)

end OhemSpec

end
-- ==== Proof.PreFacts.lean ====
/-
  What the precondition says of the arguments: every logit and every class weight is a real number (its absolute
  value is below `+∞`), and every label is one of the nineteen classes or the ignore label.
-/
import proofs.«401014_j32229434589492_3_alg».proof.Pre_finite_inputs
import proofs.«401014_j32229434589492_3_alg».proof.Proof.Gen.Pre_finite_inputs
import proofs.«401014_j32229434589492_3_alg».proof.Proof.PixelSpec
import Idealize.ShloMosaic.Lib.ReduceAll
import Idealize.ShloMosaic.Lib.StableHlo.Predicate
import Idealize.ShloMosaic.Lib.ValueIdx

noncomputable section

namespace Cert.PreFacts

open Idealize.ShloMosaic Idealize.ShloMosaic.ValueIdx OhemSpec

/-- A value whose absolute value `max x (-x)` lies strictly below `+∞` is neither infinity: `x < +∞` rules out
    `+∞`, and `-x < +∞` rules out `-∞`. -/
theorem real_of_abs_lt (x : Ideal .f32)
    (h : FloatOps.cmpf .olt (FloatOps.hostAbsf x) (FloatOps.ofBits (F := Ideal) .f32 0x7F800000#32) = 1#1) :
    (x : EReal) ≠ ⊤ ∧ (x : EReal) ≠ ⊥ := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  rw [StableHlo.Predicate.ofBool_eq_one_iff] at h
  have h' : max (x : EReal) (-(x : EReal)) < ⊤ := by simpa using h
  rw [max_lt_iff] at h'
  refine ⟨ne_of_lt h'.1, ?_⟩
  intro hx
  rw [hx] at h'
  simp at h'

/-- A label word that tests "at least 0 and below 19 (read signed), or equal to 255" is one of the nineteen classes
    or the ignore label. -/
theorem labelOk_of_test (t : BitVec 32)
    (h : IntOp.ori (IntOp.andi (IntOp.cmpi .sge t 0#32) (IntOp.cmpi .slt t 19#32)) (IntOp.cmpi .eq t 255#32) = 1#1) :
    LabelOk t := by
  rcases IntOp.ori_eq_one.1 h with h | h
  · obtain ⟨ha, hb⟩ := IntOp.andi_eq_one.1 h
    rw [IntOp.cmpi_sge] at ha
    rw [IntOp.cmpi_slt] at hb
    left
    exact ⟨by simpa using ha, by simpa using hb⟩
  · right
    exact IntOp.cmpi_eq.1 h

/-- The conjunction of two arrays of bits, at one position, is the conjunction of their bits there. -/
theorem andi_at {s : Shape} {w : Nat} (a b : IVec s w) (i : s.Idx) : andi a b i = IntOp.andi (a i) (b i) := rfl

/-- The disjunction of two arrays of bits, at one position, is the disjunction of their bits there. -/
theorem ori_at {s : Shape} {w : Nat} (a b : IVec s w) (i : s.Idx) : ori a b i = IntOp.ori (a i) (b i) := rfl

/-- The comparison of two arrays of words, at one position, compares their words there. -/
theorem cmpi_at {s : Shape} {w : Nat} (p : CmpIPredicate) (a b : IVec s w) (i : s.Idx) :
    cmpi p a b i = IntOp.cmpi p (a i) (b i) := rfl

/-- The printed precondition, all ones, gives finiteness of the two float arguments and the label range. -/
theorem of_pre (x0 : FVec Ideal Cert.Pre_finite_inputs.S8x19x512x1024 .f32) (x1 : IVec Cert.Pre_finite_inputs.S8x512x1024 32)
    (x2 : FVec Ideal Cert.Pre_finite_inputs.S19 .f32)
    (h : Cert.Pre_finite_inputs.fn (F := Ideal) x0 x1 x2 = fun _ => 1#1) :
    Finite (fun i => (x0 i : EReal)) ∧ Finite (fun i => (x2 i : EReal)) ∧ ∀ i, LabelOk (x1 i) := by
  -- the result has a single position
  haveI : Subsingleton Cert.Pre_finite_inputs.S_.Idx := ⟨fun a b => funext fun d => d.elim0⟩
  -- the predicate is the conjunction of three "for all positions" tests; each of the three is one
  have h0 := congrFun h ValueIdx.ix0
  dsimp only [Cert.Pre_finite_inputs.fn, Cert.Pre_finite_inputs.fn_part1] at h0
  rw [andi_at, andi_at] at h0
  obtain ⟨h12, h3⟩ := IntOp.andi_eq_one.1 h0
  obtain ⟨h1, h2⟩ := IntOp.andi_eq_one.1 h12
  refine ⟨fun i => ?_, fun i => ?_, fun i => ?_⟩
  · -- every logit: |x0 i| < +∞
    have e := Host.reduce_andi_all _ _ _ _ _ h1 i
    rw [cmpf_apply, StableHlo.Predicate.bcast_scalar Cert.Pre_finite_inputs.Facts.bcast_S_S8x19x512x1024
      Cert.Pre_finite_inputs.Facts.h_S_ (constant (F := Ideal) Cert.Pre_finite_inputs.S_ .f32 0x7F800000#32) i] at e
    exact real_of_abs_lt (x0 i) e
  · -- every class weight: |x2 i| < +∞
    have e := Host.reduce_andi_all _ _ _ _ _ h2 i
    rw [cmpf_apply, StableHlo.Predicate.bcast_scalar Cert.Pre_finite_inputs.Facts.bcast_S_S19
      Cert.Pre_finite_inputs.Facts.h_S_ (constant (F := Ideal) Cert.Pre_finite_inputs.S_ .f32 0x7F800000#32) i] at e
    exact real_of_abs_lt (x2 i) e
  · -- every label: (0 ≤ t and t < 19) or t = 255, each constant read the same at every position
    have e := Host.reduce_andi_all _ _ _ _ _ h3 i
    have b (c : BitVec 32) := StableHlo.Predicate.bcast_scalar Cert.Pre_finite_inputs.Facts.bcast_S_S8x512x1024
      Cert.Pre_finite_inputs.Facts.h_S_ (constantI Cert.Pre_finite_inputs.S_ 32 c) i
    rw [ori_at, andi_at, cmpi_at, cmpi_at, cmpi_at, b, b, b] at e
    exact labelOk_of_test (x1 i) e

end Cert.PreFacts

end
-- ==== Proof.lean ====
/-
  The certificate's five claims.

  Both programs compute the weighted cross-entropy of a segmentation, split into three buckets by the confidence
  `exp (-nll)` of the labelled class — easy (at least the float nearest 0.8), hard (below one half), middle (between) —
  each bucket's loss the sum of `weight × nll` over its pixels divided by the sum of `weight` (floored at the float
  nearest 1e-12), the three added.

  The kernel walks the pixels band by band (image, 128 rows), per pixel takes a running maximum and sum of
  exponentials over the nineteen classes and picks the labelled class's logit and weight by a compare-and-select per
  class on the label clipped into range; it sums the easy, all-valid and hard planes per band, forms the middle sums
  as all-valid minus easy minus hard, and accumulates them per image; the host adds the images and forms the loss.
  The reference flattens the pixels, takes a log-softmax, gathers it and the weight at the label, masks three times
  and sums over all pixels.

  On finite logits and weights, and labels that are a class `0 … 18` or the ignore label `255` (outside that range
  the reference's own gather is out of bounds or, for a negative label, counts from the end, which the kernel's clip
  does not), the two are the same function on the extended reals: pixel by pixel the two spellings of the negative
  log-likelihood agree because every quantity in them is a real number, the buckets partition the valid pixels
  because one half is below 0.8, so all-valid minus easy minus hard is the middle bucket (finite sums), and a sum
  over bands is the sum over the flat pixel index. The frames of the two kernel programs are the generated ones; the
  reference's frame is its run with the result dropped; the ideal pass rewrote nothing.
-/
import proofs.«401014_j32229434589492_3_alg».proof.Defs
import proofs.«401014_j32229434589492_3_alg».proof.Proof.Gen.Kernel
import proofs.«401014_j32229434589492_3_alg».proof.Proof.Gen.Kernel.Frame
import proofs.«401014_j32229434589492_3_alg».proof.Proof.Gen.KernelIdeal
import proofs.«401014_j32229434589492_3_alg».proof.Proof.Gen.KernelIdeal.Frame
import proofs.«401014_j32229434589492_3_alg».proof.Proof.Gen.ReferenceIdeal
import proofs.«401014_j32229434589492_3_alg».proof.Proof.Gen.Pre_finite_inputs
import proofs.«401014_j32229434589492_3_alg».proof.Proof.KernelRun
import proofs.«401014_j32229434589492_3_alg».proof.Proof.RefStages
import proofs.«401014_j32229434589492_3_alg».proof.Proof.RefValue
import proofs.«401014_j32229434589492_3_alg».proof.Proof.Bridge
import proofs.«401014_j32229434589492_3_alg».proof.Proof.PreFacts
import Idealize.ShloMosaic.Adequacy
import Idealize.ShloMosaic.Init

noncomputable section

namespace Cert.Proof

open Idealize.ShloMosaic Idealize.ShloMosaic.TcCoe Idealize.SL.Sem OhemSpec

/-- The word-level kernel runs, and leaves its arguments as they were. -/
theorem frame_p : Cert.frame_Kernel := fun m ρ _ => Cert.Kernel.Gen.frame m ρ

/-- So does its idealization. -/
theorem frame_pi : Cert.frame_KernelIdeal := fun m ρ _ => Cert.KernelIdeal.Gen.frame m ρ

/-- The reference runs and leaves its arguments as they were: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments, under the precondition, both idealized programs end with the same
    loss: the kernel's six column sums are the reference's six sums, and both apply the same final formula. -/
theorem algebraic : Cert.algebraic_KernelIdeal_ReferenceIdeal := by
  intro m ρ m' ρ' hpre hagree
  refine ⟨fun c => Cert.KernelIdeal.RunValue.result m c, Cert.KernelIdeal.RunValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefStages.fold_result]
  show Cert.ReferenceIdeal.ReadP.val_main_v51 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) = _
  rw [(hagree c).1, (hagree c).2.1, (hagree c).2.2, Cert.ReferenceIdeal.RefValue.val_result]
  obtain ⟨h0, h2, h1⟩ := Cert.PreFacts.of_pre _ _ _ (hpre c)
  funext _
  exact (lossOf_congr fun j hj => cols_agree _ _ _ h0 h2 h1 j hj).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
